-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x128 : Shape := ⟨2, ![500000, 128]⟩
abbrev S500000 : Shape := ⟨1, ![500000]⟩
abbrev S50000 : Shape := ⟨1, ![50000]⟩
abbrev S384x128 : Shape := ⟨2, ![384, 128]⟩
abbrev S128 : Shape := ⟨1, ![128]⟩
abbrev S128x128 : Shape := ⟨2, ![128, 128]⟩
abbrev S128x384 : Shape := ⟨2, ![128, 384]⟩
abbrev S384 : Shape := ⟨1, ![384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S500000 : S_.BroadcastsInDim S500000 (![] : Fin 0 → Fin S500000.rank)
  reducesTo_S500000_S_d0 : S500000.ReducesTo [0] S_

variable [Facts]

def fn_part6 {F : FTy → Type} [FloatOps F] (main_arg2 : IVec S500000 32) (main_arg3 : IVec S500000 32) (main_v98 : IVec S_ 1) (main_v101 : IVec S_ 1) : IVec S_ 1 :=
  let main_v102 : IVec S_ 1 := andi main_v98 main_v101
  let main_c_40 : IVec S_ 32 := constantI S_ 32 50000#32
  let main_v103 : IVec S500000 32 := broadcastInDim S500000 ![] bcast_S_S500000 main_c_40
  let main_v104 : IVec S500000 1 := cmpi .slt main_arg2 main_v103
  let main_c_41 : IVec S_ 1 := constantI S_ 1 1#1
  let main_v105 : IVec S_ 1 := (fun x v => Host.reduce IntOp.andi x v reducesTo_S500000_S_d0 h_S_) main_v104 main_c_41
  let main_v106 : IVec S_ 1 := andi main_v102 main_v105
  let main_c_42 : IVec S_ 32 := constantI S_ 32 0#32
  let main_v107 : IVec S500000 32 := broadcastInDim S500000 ![] bcast_S_S500000 main_c_42
  let main_v108 : IVec S500000 1 := cmpi .sge main_arg3 main_v107
  let main_c_43 : IVec S_ 1 := constantI S_ 1 1#1
  let main_v109 : IVec S_ 1 := (fun x v => Host.reduce IntOp.andi x v reducesTo_S500000_S_d0 h_S_) main_v108 main_c_43
  let main_v110 : IVec S_ 1 := andi main_v106 main_v109
  let main_c_44 : IVec S_ 32 := constantI S_ 32 50000#32
  let main_v111 : IVec S500000 32 := broadcastInDim S500000 ![] bcast_S_S500000 main_c_44
  let main_v112 : IVec S500000 1 := cmpi .slt main_arg3 main_v111
  let main_c_45 : IVec S_ 1 := constantI S_ 1 1#1
  let main_v113 : IVec S_ 1 := (fun x v => Host.reduce IntOp.andi x v reducesTo_S500000_S_d0 h_S_) main_v112 main_c_45
  let main_v114 : IVec S_ 1 := andi main_v110 main_v113
  main_v114

def fn_part5 {F : FTy → Type} [FloatOps F] (main_arg2 : IVec S500000 32) (main_arg3 : IVec S500000 32) (main_arg21 : FVec F S384 .f32) (main_arg22 : FVec F S384 .f32) (main_v83 : IVec S_ 1) (main_v84 : FVec F S128x384 .f32) (main_cst_32 : FVec F S_ .f32) : IVec S_ 1 :=
  let main_v85 : FVec F S128x384 .f32 := broadcastInDim S128x384 ![] bcast_S_S128x384 main_cst_32
  let main_v86 : IVec S128x384 1 := cmpf .olt main_v84 main_v85
  let main_c_33 : IVec S_ 1 := constantI S_ 1 1#1
  let main_v87 : IVec S_ 1 := (fun x v => Host.reduce IntOp.andi x v reducesTo_S128x384_S_d0_1 h_S_) main_v86 main_c_33
  let main_v88 : IVec S_ 1 := andi main_v83 main_v87
  let main_v89 : FVec F S384 .f32 := Host.absf main_arg21
  let main_cst_34 : FVec F S_ .f32 := constant S_ .f32 0x7F800000#32
  let main_v90 : FVec F S384 .f32 := broadcastInDim S384 ![] bcast_S_S384 main_cst_34
  let main_v91 : IVec S384 1 := cmpf .olt main_v89 main_v90
  let main_c_35 : IVec S_ 1 := constantI S_ 1 1#1
  let main_v92 : IVec S_ 1 := (fun x v => Host.reduce IntOp.andi x v reducesTo_S384_S_d0 h_S_) main_v91 main_c_35
  let main_v93 : IVec S_ 1 := andi main_v88 main_v92
  let main_v94 : FVec F S384 .f32 := Host.absf main_arg22
  let main_cst_36 : FVec F S_ .f32 := constant S_ .f32 0x7F800000#32
  let main_v95 : FVec F S384 .f32 := broadcastInDim S384 ![] bcast_S_S384 main_cst_36
  let main_v96 : IVec S384 1 := cmpf .olt main_v94 main_v95
  let main_c_37 : IVec S_ 1 := constantI S_ 1 1#1
  let main_v97 : IVec S_ 1 := (fun x v => Host.reduce IntOp.andi x v reducesTo_S384_S_d0 h_S_) main_v96 main_c_37
  let main_v98 : IVec S_ 1 := andi main_v93 main_v97
  let main_c_38 : IVec S_ 32 := constantI S_ 32 0#32
  let main_v99 : IVec S500000 32 := broadcastInDim S500000 ![] bcast_S_S500000 main_c_38
  let main_v100 : IVec S500000 1 := cmpi .sge main_arg2 main_v99
  let main_c_39 : IVec S_ 1 := constantI S_ 1 1#1
  let main_v101 : IVec S_ 1 := (fun x v => Host.reduce IntOp.andi x v reducesTo_S500000_S_d0 h_S_) main_v100 main_c_39
  fn_part6 (F := F) main_arg2 main_arg3 main_v98 main_v101

def fn_part4 {F : FTy → Type} [FloatOps F] (main_arg2 : IVec S500000 32) (main_arg3 : IVec S500000 32) (main_arg17 : FVec F S384 .f32) (main_arg18 : FVec F S384 .f32) (main_arg19 : FVec F S128x384 .f32) (main_arg20 : FVec F S128x384 .f32) (main_arg21 : FVec F S384 .f32) (main_arg22 : FVec F S384 .f32) (main_v63 : IVec S_ 1) (main_v67 : IVec S_ 1) : IVec S_ 1 :=
  let main_v68 : IVec S_ 1 := andi main_v63 main_v67
  let main_v69 : FVec F S384 .f32 := Host.absf main_arg17
  let main_cst_26 : FVec F S_ .f32 := constant S_ .f32 0x7F800000#32
  let main_v70 : FVec F S384 .f32 := broadcastInDim S384 ![] bcast_S_S384 main_cst_26
  let main_v71 : IVec S384 1 := cmpf .olt main_v69 main_v70
  let main_c_27 : IVec S_ 1 := constantI S_ 1 1#1
  let main_v72 : IVec S_ 1 := (fun x v => Host.reduce IntOp.andi x v reducesTo_S384_S_d0 h_S_) main_v71 main_c_27
  let main_v73 : IVec S_ 1 := andi main_v68 main_v72
  let main_v74 : FVec F S384 .f32 := Host.absf main_arg18
  let main_cst_28 : FVec F S_ .f32 := constant S_ .f32 0x7F800000#32
  let main_v75 : FVec F S384 .f32 := broadcastInDim S384 ![] bcast_S_S384 main_cst_28
  let main_v76 : IVec S384 1 := cmpf .olt main_v74 main_v75
  let main_c_29 : IVec S_ 1 := constantI S_ 1 1#1
  let main_v77 : IVec S_ 1 := (fun x v => Host.reduce IntOp.andi x v reducesTo_S384_S_d0 h_S_) main_v76 main_c_29
  let main_v78 : IVec S_ 1 := andi main_v73 main_v77
  let main_v79 : FVec F S128x384 .f32 := Host.absf main_arg19
  let main_cst_30 : FVec F S_ .f32 := constant S_ .f32 0x7F800000#32
  let main_v80 : FVec F S128x384 .f32 := broadcastInDim S128x384 ![] bcast_S_S128x384 main_cst_30
  let main_v81 : IVec S128x384 1 := cmpf .olt main_v79 main_v80
  let main_c_31 : IVec S_ 1 := constantI S_ 1 1#1
  let main_v82 : IVec S_ 1 := (fun x v => Host.reduce IntOp.andi x v reducesTo_S128x384_S_d0_1 h_S_) main_v81 main_c_31
  let main_v83 : IVec S_ 1 := andi main_v78 main_v82
  let main_v84 : FVec F S128x384 .f32 := Host.absf main_arg20
  let main_cst_32 : FVec F S_ .f32 := constant S_ .f32 0x7F800000#32
  fn_part5 (F := F) main_arg2 main_arg3 main_arg21 main_arg22 main_v83 main_v84 main_cst_32

def fn_part3 {F : FTy → Type} [FloatOps F] (main_arg2 : IVec S500000 32) (main_arg3 : IVec S500000 32) (main_arg14 : FVec F S384 .f32) (main_arg15 : FVec F S128x384 .f32) (main_arg16 : FVec F S128x384 .f32) (main_arg17 : FVec F S384 .f32) (main_arg18 : FVec F S384 .f32) (main_arg19 : FVec F S128x384 .f32) (main_arg20 : FVec F S128x384 .f32) (main_arg21 : FVec F S384 .f32) (main_arg22 : FVec F S384 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S384 .f32 := Host.absf main_arg14
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  let main_v59 : FVec F S128x384 .f32 := Host.absf main_arg15
  let main_cst_22 : FVec F S_ .f32 := constant S_ .f32 0x7F800000#32
  let main_v60 : FVec F S128x384 .f32 := broadcastInDim S128x384 ![] bcast_S_S128x384 main_cst_22
  let main_v61 : IVec S128x384 1 := cmpf .olt main_v59 main_v60
  let main_c_23 : IVec S_ 1 := constantI S_ 1 1#1
  let main_v62 : IVec S_ 1 := (fun x v => Host.reduce IntOp.andi x v reducesTo_S128x384_S_d0_1 h_S_) main_v61 main_c_23
  let main_v63 : IVec S_ 1 := andi main_v58 main_v62
  let main_v64 : FVec F S128x384 .f32 := Host.absf main_arg16
  let main_cst_24 : FVec F S_ .f32 := constant S_ .f32 0x7F800000#32
  let main_v65 : FVec F S128x384 .f32 := broadcastInDim S128x384 ![] bcast_S_S128x384 main_cst_24
  let main_v66 : IVec S128x384 1 := cmpf .olt main_v64 main_v65
  let main_c_25 : IVec S_ 1 := constantI S_ 1 1#1
  let main_v67 : IVec S_ 1 := (fun x v => Host.reduce IntOp.andi x v reducesTo_S128x384_S_d0_1 h_S_) main_v66 main_c_25
  fn_part4 (F := F) main_arg2 main_arg3 main_arg17 main_arg18 main_arg19 main_arg20 main_arg21 main_arg22 main_v63 main_v67

def fn_part2 {F : FTy → Type} [FloatOps F] (main_arg2 : IVec S500000 32) (main_arg3 : IVec S500000 32) (main_arg10 : FVec F S128 .f32) (main_arg11 : FVec F S128x384 .f32) (main_arg12 : FVec F S128x384 .f32) (main_arg13 : FVec F S384 .f32) (main_arg14 : FVec F S384 .f32) (main_arg15 : FVec F S128x384 .f32) (main_arg16 : FVec F S128x384 .f32) (main_arg17 : FVec F S384 .f32) (main_arg18 : FVec F S384 .f32) (main_arg19 : FVec F S128x384 .f32) (main_arg20 : FVec F S128x384 .f32) (main_arg21 : FVec F S384 .f32) (main_arg22 : FVec F S384 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x384 .f32 := Host.absf main_arg11
  let main_cst_14 : FVec F S_ .f32 := constant S_ .f32 0x7F800000#32
  let main_v40 : FVec F S128x384 .f32 := broadcastInDim S128x384 ![] bcast_S_S128x384 main_cst_14
  let main_v41 : IVec S128x384 1 := cmpf .olt main_v39 main_v40
  let main_c_15 : IVec S_ 1 := constantI S_ 1 1#1
  let main_v42 : IVec S_ 1 := (fun x v => Host.reduce IntOp.andi x v reducesTo_S128x384_S_d0_1 h_S_) main_v41 main_c_15
  let main_v43 : IVec S_ 1 := andi main_v38 main_v42
  let main_v44 : FVec F S128x384 .f32 := Host.absf main_arg12
  let main_cst_16 : FVec F S_ .f32 := constant S_ .f32 0x7F800000#32
  let main_v45 : FVec F S128x384 .f32 := broadcastInDim S128x384 ![] bcast_S_S128x384 main_cst_16
  let main_v46 : IVec S128x384 1 := cmpf .olt main_v44 main_v45
  let main_c_17 : IVec S_ 1 := constantI S_ 1 1#1
  let main_v47 : IVec S_ 1 := (fun x v => Host.reduce IntOp.andi x v reducesTo_S128x384_S_d0_1 h_S_) main_v46 main_c_17
  let main_v48 : IVec S_ 1 := andi main_v43 main_v47
  let main_v49 : FVec F S384 .f32 := Host.absf main_arg13
  let main_cst_18 : FVec F S_ .f32 := constant S_ .f32 0x7F800000#32
  let main_v50 : FVec F S384 .f32 := broadcastInDim S384 ![] bcast_S_S384 main_cst_18
  fn_part3 (F := F) main_arg2 main_arg3 main_arg14 main_arg15 main_arg16 main_arg17 main_arg18 main_arg19 main_arg20 main_arg21 main_arg22 main_v48 main_v49 main_v50

def fn_part1 {F : FTy → Type} [FloatOps F] (main_arg2 : IVec S500000 32) (main_arg3 : IVec S500000 32) (main_arg7 : FVec F S128x128 .f32) (main_arg8 : FVec F S128 .f32) (main_arg9 : FVec F S128x128 .f32) (main_arg10 : FVec F S128 .f32) (main_arg11 : FVec F S128x384 .f32) (main_arg12 : FVec F S128x384 .f32) (main_arg13 : FVec F S384 .f32) (main_arg14 : FVec F S384 .f32) (main_arg15 : FVec F S128x384 .f32) (main_arg16 : FVec F S128x384 .f32) (main_arg17 : FVec F S384 .f32) (main_arg18 : FVec F S384 .f32) (main_arg19 : FVec F S128x384 .f32) (main_arg20 : FVec F S128x384 .f32) (main_arg21 : FVec F S384 .f32) (main_arg22 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : FVec F S500000x128 .f32) (main_arg2 : IVec S500000 32) (main_arg3 : IVec S500000 32) (main_arg4 : IVec S50000 32) (main_arg5 : FVec F S384x128 .f32) (main_arg6 : FVec F S128 .f32) (main_arg7 : FVec F S128x128 .f32) (main_arg8 : FVec F S128 .f32) (main_arg9 : FVec F S128x128 .f32) (main_arg10 : FVec F S128 .f32) (main_arg11 : FVec F S128x384 .f32) (main_arg12 : FVec F S128x384 .f32) (main_arg13 : FVec F S384 .f32) (main_arg14 : FVec F S384 .f32) (main_arg15 : FVec F S128x384 .f32) (main_arg16 : FVec F S128x384 .f32) (main_arg17 : FVec F S384 .f32) (main_arg18 : FVec F S384 .f32) (main_arg19 : FVec F S128x384 .f32) (main_arg20 : FVec F S128x384 .f32) (main_arg21 : FVec F S384 .f32) (main_arg22 : FVec F S384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S384x128 .f32 := Host.absf main_arg5
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S500000x128 : Shape := ⟨2, ![500000, 128]⟩
abbrev S500000 : Shape := ⟨1, ![500000]⟩
abbrev S50000 : Shape := ⟨1, ![50000]⟩
abbrev S384x128 : Shape := ⟨2, ![384, 128]⟩
abbrev S128 : Shape := ⟨1, ![128]⟩
abbrev S128x128 : Shape := ⟨2, ![128, 128]⟩
abbrev S128x384 : Shape := ⟨2, ![128, 384]⟩
abbrev S384 : Shape := ⟨1, ![384]⟩
abbrev S_ : Shape := ⟨0, ![]⟩
abbrev S1x128 : Shape := ⟨2, ![1, 128]⟩
abbrev S50001x128 : Shape := ⟨2, ![50001, 128]⟩
abbrev S501760 : Shape := ⟨1, ![501760]⟩
abbrev S501760x128 : Shape := ⟨2, ![501760, 128]⟩
abbrev S501760x1 : Shape := ⟨2, ![501760, 1]⟩
abbrev S2048x128 : Shape := ⟨2, ![2048, 128]⟩
abbrev S2048x384 : Shape := ⟨2, ![2048, 384]⟩
abbrev S2000x128 : Shape := ⟨2, ![2000, 128]⟩
abbrev S2000x384 : Shape := ⟨2, ![2000, 384]⟩
abbrev S1x384 : Shape := ⟨2, ![1, 384]⟩

abbrev nBuf : Space → Nat
  | .hbm => 67
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S500000x128, .f32⟩
  | .hbm, ⟨2, _⟩ => ⟨S500000, .i32⟩
  | .hbm, ⟨3, _⟩ => ⟨S500000, .i32⟩
  | .hbm, ⟨4, _⟩ => ⟨S50000, .i32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x384, .f32⟩
  | .hbm, ⟨12, _⟩ => ⟨S128x384, .f32⟩
  | .hbm, ⟨13, _⟩ => ⟨S384, .f32⟩
  | .hbm, ⟨14, _⟩ => ⟨S384, .f32⟩
  | .hbm, ⟨15, _⟩ => ⟨S128x384, .f32⟩
  | .hbm, ⟨16, _⟩ => ⟨S128x384, .f32⟩
  | .hbm, ⟨17, _⟩ => ⟨S384, .f32⟩
  | .hbm, ⟨18, _⟩ => ⟨S384, .f32⟩
  | .hbm, ⟨19, _⟩ => ⟨S128x384, .f32⟩
  | .hbm, ⟨20, _⟩ => ⟨S128x384, .f32⟩
  | .hbm, ⟨21, _⟩ => ⟨S384, .f32⟩
  | .hbm, ⟨22, _⟩ => ⟨S384, .f32⟩
  | .hbm, ⟨23, _⟩ => ⟨S_, .f32⟩
  | .hbm, ⟨24, _⟩ => ⟨S1x128, .f32⟩
  | .hbm, ⟨25, _⟩ => ⟨S50001x128, .f32⟩
  | .hbm, ⟨26, _⟩ => ⟨S_, .i32⟩
  | .hbm, ⟨27, _⟩ => ⟨S_, .i32⟩
  | .hbm, ⟨28, _⟩ => ⟨S501760, .i32⟩
  | .hbm, ⟨29, _⟩ => ⟨S_, .i32⟩
  | .hbm, ⟨30, _⟩ => ⟨S_, .i32⟩
  | .hbm, ⟨31, _⟩ => ⟨S501760, .i32⟩
  | .hbm, ⟨32, _⟩ => ⟨S_, .i32⟩
  | .hbm, ⟨33, _⟩ => ⟨S_, .f32⟩
  | .hbm, ⟨34, _⟩ => ⟨S501760x128, .f32⟩
  | .hbm, ⟨35, _⟩ => ⟨S_, .i32⟩
  | .hbm, ⟨36, _⟩ => ⟨S501760, .i32⟩
  | .hbm, ⟨37, _⟩ => ⟨S501760, .i1⟩
  | .hbm, ⟨38, _⟩ => ⟨S_, .i32⟩
  | .hbm, ⟨39, _⟩ => ⟨S501760, .i32⟩
  | .hbm, ⟨40, _⟩ => ⟨S501760, .i32⟩
  | .hbm, ⟨41, _⟩ => ⟨S501760, .i32⟩
  | .hbm, ⟨42, _⟩ => ⟨S501760x1, .i32⟩
  | .hbm, ⟨43, _⟩ => ⟨S501760x128, .f32⟩
  | .hbm, ⟨44, _⟩ => ⟨S_, .i32⟩
  | .hbm, ⟨45, _⟩ => ⟨S501760, .i32⟩
  | .hbm, ⟨46, _⟩ => ⟨S501760, .i1⟩
  | .hbm, ⟨47, _⟩ => ⟨S_, .i32⟩
  | .hbm, ⟨48, _⟩ => ⟨S501760, .i32⟩
  | .hbm, ⟨49, _⟩ => ⟨S501760, .i32⟩
  | .hbm, ⟨50, _⟩ => ⟨S501760, .i32⟩
  | .hbm, ⟨51, _⟩ => ⟨S501760x1, .i32⟩
  | .hbm, ⟨52, _⟩ => ⟨S501760x128, .f32⟩
  | .hbm, ⟨53, _⟩ => ⟨S501760x128, .f32⟩
  | .hbm, ⟨54, _⟩ => ⟨S501760x128, .f32⟩
  | .hbm, ⟨55, _⟩ => ⟨S_, .f32⟩
  | .hbm, ⟨56, _⟩ => ⟨S50001x128, .f32⟩
  | .hbm, ⟨57, _⟩ => ⟨S501760x1, .i32⟩
  | .hbm, ⟨58, _⟩ => ⟨S50001x128, .f32⟩
  | .hbm, ⟨59, _⟩ => ⟨S50000x128, .f32⟩
  | .hbm, ⟨60, _⟩ => ⟨S_, .f32⟩
  | .hbm, ⟨61, _⟩ => ⟨S50001x128, .f32⟩
  | .hbm, ⟨62, _⟩ => ⟨S501760x1, .i32⟩
  | .hbm, ⟨63, _⟩ => ⟨S50001x128, .f32⟩
  | .hbm, ⟨64, _⟩ => ⟨S50000x128, .f32⟩
  | .hbm, ⟨65, _⟩ => ⟨S50000x128, .f32⟩
  | .hbm, ⟨66, _⟩ => ⟨S50000x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S384x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x384, .f32⟩
  | .local _ .vmem, ⟨21, _⟩ => ⟨S128x384, .f32⟩
  | .local _ .vmem, ⟨22, _⟩ => ⟨S384, .f32⟩
  | .local _ .vmem, ⟨23, _⟩ => ⟨S384, .f32⟩
  | .local _ .vmem, ⟨24, _⟩ => ⟨S128x384, .f32⟩
  | .local _ .vmem, ⟨25, _⟩ => ⟨S128x384, .f32⟩
  | .local _ .vmem, ⟨26, _⟩ => ⟨S384, .f32⟩
  | .local _ .vmem, ⟨27, _⟩ => ⟨S384, .f32⟩
  | .local _ .vmem, ⟨28, _⟩ => ⟨S128x384, .f32⟩
  | .local _ .vmem, ⟨29, _⟩ => ⟨S128x384, .f32⟩
  | .local _ .vmem, ⟨30, _⟩ => ⟨S384, .f32⟩
  | .local _ .vmem, ⟨31, _⟩ => ⟨S384, .f32⟩
  | .local _ .vmem, ⟨32, _⟩ => ⟨S2000x128, .f32⟩
  | .local _ .vmem, ⟨33, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_v1 : Ref sig .tc := ⟨.hbm, 25, rfl⟩
abbrev main_c : Ref sig .tc := ⟨.hbm, 26, rfl⟩
abbrev main_call0_v0 : Ref sig .tc := ⟨.hbm, 27, rfl⟩
abbrev main_v2 : Ref sig .tc := ⟨.hbm, 28, rfl⟩
abbrev main_c_0 : Ref sig .tc := ⟨.hbm, 29, rfl⟩
abbrev main_call1_v0 : Ref sig .tc := ⟨.hbm, 30, rfl⟩
abbrev main_v3 : Ref sig .tc := ⟨.hbm, 31, rfl⟩
abbrev main_c_1 : Ref sig .tc := ⟨.hbm, 32, rfl⟩
abbrev main_call2_v0 : Ref sig .tc := ⟨.hbm, 33, rfl⟩
abbrev main_v4 : Ref sig .tc := ⟨.hbm, 34, rfl⟩
abbrev main_c_2 : Ref sig .tc := ⟨.hbm, 35, rfl⟩
abbrev main_v5 : Ref sig .tc := ⟨.hbm, 36, rfl⟩
abbrev main_v6 : Ref sig .tc := ⟨.hbm, 37, rfl⟩
abbrev main_c_3 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_c_4 : Ref sig .tc := ⟨.hbm, 44, rfl⟩
abbrev main_v12 : Ref sig .tc := ⟨.hbm, 45, rfl⟩
abbrev main_v13 : Ref sig .tc := ⟨.hbm, 46, rfl⟩
abbrev main_c_5 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19_0 : Ref sig .tc := ⟨.hbm, 53, rfl⟩
abbrev main_v19_1 : Ref sig .tc := ⟨.hbm, 54, rfl⟩
abbrev main_cst_6 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_7 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg14_0 : Ref sig .tc := ⟨.vmem, 32, rfl⟩
abbrev cc1_stg14_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem14_0 : DmaSem sig := 32
abbrev cc1_sem14_1 : DmaSem sig := 33

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S384 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S384 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x384 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x384 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S384 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S384 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2000x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  bcast_S_S1x128 : S_.BroadcastsInDim S1x128 (![] : Fin 0 → Fin S1x128.rank)
  concatenates_S50000x128_S1x128_S50001x128_d0 : Shape.Concatenates [S50000x128, S1x128] S50001x128 0
  pads_S500000_S501760_017600 : S500000.Pads (![0] : Fin 1 → Nat) ![1760] ![0] S501760
  h_S_ : 0 < S_.numel
  pads_S500000x128_S501760x128_017600_000 : S500000x128.Pads (![0, 0] : Fin 2 → Nat) ![1760, 0] ![0, 0] S501760x128
  bcast_S_S501760 : S_.BroadcastsInDim S501760 (![] : Fin 0 → Fin S501760.rank)
  bcast_S501760_S501760x1_0 : S501760.BroadcastsInDim S501760x1 (![0] : Fin 1 → Fin S501760x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S384x128_S384x128_0_0 : ∀ a, (![0, 0] : Fin 2 → Nat) a + S384x128.size a ≤ S384x128.size a
  h_S384x128 : 0 < S384x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  concatenates_S2048x128_S2048x128_S2048x128_S2048x384_d1 : Shape.Concatenates [S2048x128, S2048x128, S2048x128] S2048x384 1
  shapeCasts_S128_S1x128 : S128.ShapeCasts S1x128
  broadcasts_S1x128_S2048x128 : S1x128.Broadcasts S2048x128
  bcast_S_S50001x128 : S_.BroadcastsInDim S50001x128 (![] : Fin 0 → Fin S50001x128.rank)
  slices_S50001x128_S50000x128_0_0 : S50001x128.Slices ![0, 0] S50000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  gather_S50001x128_S501760x1_S501760x128_1_0_n_n_0_1_1128_wf : GatherDims.WF S50001x128 S501760x1 S501760x128 [1] [0] [] [0] [] 1 ![1, 128]
  dot_S2048x384_S384x128_S2048x128_1_0_0_1_n_n_wf : DotDims.WF S2048x384 S384x128 S2048x128 [1] [0] [0] [1] [] []
  dot_S2048x128_S128x128_S2048x128_1_0_0_1_n_n_wf : DotDims.WF S2048x128 S128x128 S2048x128 [1] [0] [0] [1] [] []
  scatter_S50001x128_S501760x1_S501760x128_1_0_0_1_wf : ScatterDims.WF S50001x128 S501760x1 S501760x128 [1] [0] [0] 1
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S501760x128.size a
  hwx0_0 : ∀ i : grid0.Coords, EltTy.bits .f32 = 32 ∨ (Rect.block (s := S501760x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S501760x128.size a
  hwx0_1 : ∀ i : grid0.Coords, EltTy.bits .f32 = 32 ∨ (Rect.block (s := S501760x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S501760x128.size a
  hwx0_2 : ∀ i : grid0.Coords, EltTy.bits .f32 = 32 ∨ (Rect.block (s := S501760x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S501760x128.size a
  hwx0_9 : ∀ i : grid0.Coords, EltTy.bits .f32 = 32 ∨ (Rect.block (s := S501760x128) S2048x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S501760x128.size a
  hwx0_10 : ∀ i : grid0.Coords, EltTy.bits .f32 = 32 ∨ (Rect.block (s := S501760x128) S2048x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384.size a ≤ S384.size a
  hwx1_4 : ∀ i : grid1.Coords, EltTy.bits .f32 = 32 ∨ (Rect.block (s := S384) S384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384.size a ≤ S384.size a
  hwx1_5 : ∀ i : grid1.Coords, EltTy.bits .f32 = 32 ∨ (Rect.block (s := S384) S384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x384.size a ≤ S128x384.size a
  hwx1_6 : ∀ i : grid1.Coords, EltTy.bits .f32 = 32 ∨ (Rect.block (s := S128x384) S128x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x384.size a ≤ S128x384.size a
  hwx1_7 : ∀ i : grid1.Coords, EltTy.bits .f32 = 32 ∨ (Rect.block (s := S128x384) S128x384.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S384.size a ≤ S384.size a
  hwx1_8 : ∀ i : grid1.Coords, EltTy.bits .f32 = 32 ∨ (Rect.block (s := S384) S384.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S384.size a ≤ S384.size a
  hwx1_9 : ∀ i : grid1.Coords, EltTy.bits .f32 = 32 ∨ (Rect.block (s := S384) S384.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x384.size a ≤ S128x384.size a
  hwx1_10 : ∀ i : grid1.Coords, EltTy.bits .f32 = 32 ∨ (Rect.block (s := S128x384) S128x384.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x384.size a ≤ S128x384.size a
  hwx1_11 : ∀ i : grid1.Coords, EltTy.bits .f32 = 32 ∨ (Rect.block (s := S128x384) S128x384.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S384.size a ≤ S384.size a
  hwx1_12 : ∀ i : grid1.Coords, EltTy.bits .f32 = 32 ∨ (Rect.block (s := S384) S384.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S384.size a ≤ S384.size a
  hwx1_13 : ∀ i : grid1.Coords, EltTy.bits .f32 = 32 ∨ (Rect.block (s := S384) S384.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x128.size a ≤ S50000x128.size a
  hwx1_14 : ∀ i : grid1.Coords, EltTy.bits .f32 = 32 ∨ (Rect.block (s := S50000x128) S2000x128.size (cc1_transform_14 i) (hinb1_14 i)).WholeWords (EltTy.packing .f32)

variable [Facts₀]

def gather_S50001x128_S501760x1_S501760x128_1_0_n_n_0_1_1128 : GatherDims S50001x128 S501760x1 S501760x128 where
  offsetDims := [1]
  collapsedSliceDims := [0]
  operandBatchingDims := []
  startIndicesBatchingDims := []
  startIndexMap := [0]
  indexVectorDim := 1
  sliceSizes := ![1, 128]
  wf := gather_S50001x128_S501760x1_S501760x128_1_0_n_n_0_1_1128_wf
def dot_S2048x384_S384x128_S2048x128_1_0_0_1_n_n : DotDims S2048x384 S384x128 S2048x128 where
  lhsContracting := [1]
  rhsContracting := [0]
  lhsNonContracting := [0]
  rhsNonContracting := [1]
  lhsBatch := []
  rhsBatch := []
  wf := dot_S2048x384_S384x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def scatter_S50001x128_S501760x1_S501760x128_1_0_0_1 : ScatterDims S50001x128 S501760x1 S501760x128 where
  updateWindowDims := [1]
  insertedWindowDims := [0]
  scatterDimsToOperandDims := [0]
  indexVectorDim := 1
  wf := scatter_S50001x128_S501760x1_S501760x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_v11) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19_0) S2048x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v19_1) S2048x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S128x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S128x384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S384.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg18) S384.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg19) S128x384.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg20) S128x384.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg21) S384.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg22) S384.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v29) S2000x128.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S50000x128 : Shape := ⟨2, ![50000, 128]⟩
abbrev S500000x128 : Shape := ⟨2, ![500000, 128]⟩
abbrev S500000 : Shape := ⟨1, ![500000]⟩
abbrev S50000 : Shape := ⟨1, ![50000]⟩
abbrev S384x128 : Shape := ⟨2, ![384, 128]⟩
abbrev S128 : Shape := ⟨1, ![128]⟩
abbrev S128x128 : Shape := ⟨2, ![128, 128]⟩
abbrev S128x384 : Shape := ⟨2, ![128, 384]⟩
abbrev S384 : Shape := ⟨1, ![384]⟩
abbrev S_ : Shape := ⟨0, ![]⟩
abbrev S500000x1 : Shape := ⟨2, ![500000, 1]⟩
abbrev S500000x384 : Shape := ⟨2, ![500000, 384]⟩
abbrev S1x128 : Shape := ⟨2, ![1, 128]⟩
abbrev S50000x384 : Shape := ⟨2, ![50000, 384]⟩
abbrev S1x384 : Shape := ⟨2, ![1, 384]⟩

abbrev nBuf : Space → Nat
  | .hbm => 229
  | .vmem => 0
  | .smem => 0
  | _ => 0

abbrev hbmTy0_0 (i : Nat) : BufTy := match i % 128 with
  | 0 => ⟨S50000x128, .f32⟩
  | 1 => ⟨S500000x128, .f32⟩
  | 2 => ⟨S500000, .i32⟩
  | 3 => ⟨S500000, .i32⟩
  | 4 => ⟨S50000, .i32⟩
  | 5 => ⟨S384x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x384, .f32⟩
  | 12 => ⟨S128x384, .f32⟩
  | 13 => ⟨S384, .f32⟩
  | 14 => ⟨S384, .f32⟩
  | 15 => ⟨S128x384, .f32⟩
  | 16 => ⟨S128x384, .f32⟩
  | 17 => ⟨S384, .f32⟩
  | 18 => ⟨S384, .f32⟩
  | 19 => ⟨S128x384, .f32⟩
  | 20 => ⟨S128x384, .f32⟩
  | 21 => ⟨S384, .f32⟩
  | 22 => ⟨S384, .f32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x128, .f32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x128, .f32⟩
  | 41 => ⟨S500000x384, .f32⟩
  | 42 => ⟨S500000x128, .f32⟩
  | 43 => ⟨S1x128, .f32⟩
  | 44 => ⟨S500000x128, .f32⟩
  | 45 => ⟨S500000x128, .f32⟩
  | 46 => ⟨S_, .f32⟩
  | 47 => ⟨S500000x128, .f32⟩
  | 48 => ⟨S500000x128, .f32⟩
  | 49 => ⟨S500000x128, .f32⟩
  | 50 => ⟨S1x128, .f32⟩
  | 51 => ⟨S500000x128, .f32⟩
  | 52 => ⟨S500000x128, .f32⟩
  | 53 => ⟨S_, .f32⟩
  | 54 => ⟨S500000x128, .f32⟩
  | 55 => ⟨S500000x128, .f32⟩
  | 56 => ⟨S500000x128, .f32⟩
  | 57 => ⟨S1x128, .f32⟩
  | 58 => ⟨S500000x128, .f32⟩
  | 59 => ⟨S500000x128, .f32⟩
  | 60 => ⟨S_, .f32⟩
  | 61 => ⟨S50000x128, .f32⟩
  | 62 => ⟨S500000x1, .i32⟩
  | 63 => ⟨S50000x128, .f32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x128, .f32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x128, .f32⟩
  | 82 => ⟨S500000x384, .f32⟩
  | 83 => ⟨S500000x128, .f32⟩
  | 84 => ⟨S1x128, .f32⟩
  | 85 => ⟨S500000x128, .f32⟩
  | 86 => ⟨S500000x128, .f32⟩
  | 87 => ⟨S_, .f32⟩
  | 88 => ⟨S500000x128, .f32⟩
  | 89 => ⟨S500000x128, .f32⟩
  | 90 => ⟨S500000x128, .f32⟩
  | 91 => ⟨S1x128, .f32⟩
  | 92 => ⟨S500000x128, .f32⟩
  | 93 => ⟨S500000x128, .f32⟩
  | 94 => ⟨S_, .f32⟩
  | 95 => ⟨S500000x128, .f32⟩
  | 96 => ⟨S500000x128, .f32⟩
  | 97 => ⟨S500000x128, .f32⟩
  | 98 => ⟨S1x128, .f32⟩
  | 99 => ⟨S500000x128, .f32⟩
  | 100 => ⟨S500000x128, .f32⟩
  | 101 => ⟨S_, .f32⟩
  | 102 => ⟨S50000x128, .f32⟩
  | 103 => ⟨S500000x1, .i32⟩
  | 104 => ⟨S50000x128, .f32⟩
  | 105 => ⟨S50000x128, .f32⟩
  | 106 => ⟨S50000x384, .f32⟩
  | 107 => ⟨S1x384, .f32⟩
  | 108 => ⟨S50000x384, .f32⟩
  | 109 => ⟨S50000x384, .f32⟩
  | 110 => ⟨S50000x384, .f32⟩
  | 111 => ⟨S1x384, .f32⟩
  | 112 => ⟨S50000x384, .f32⟩
  | 113 => ⟨S50000x384, .f32⟩
  | 114 => ⟨S50000x128, .f32⟩
  | 115 => ⟨S50000x128, .f32⟩
  | 116 => ⟨S50000x128, .f32⟩
  | 117 => ⟨S50000x128, .f32⟩
  | 118 => ⟨S50000x128, .f32⟩
  | 119 => ⟨S50000x128, .f32⟩
  | 120 => ⟨S50000x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S50000x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S50000x128, .f32⟩
  | 17 => ⟨S50000x128, .f32⟩
  | 18 => ⟨S50000x128, .f32⟩
  | 19 => ⟨S50000x384, .f32⟩
  | 20 => ⟨S1x384, .f32⟩
  | 21 => ⟨S50000x384, .f32⟩
  | 22 => ⟨S50000x384, .f32⟩
  | 23 => ⟨S50000x384, .f32⟩
  | 24 => ⟨S1x384, .f32⟩
  | 25 => ⟨S50000x384, .f32⟩
  | 26 => ⟨S50000x384, .f32⟩
  | 27 => ⟨S50000x128, .f32⟩
  | 28 => ⟨S50000x128, .f32⟩
  | 29 => ⟨S50000x128, .f32⟩
  | 30 => ⟨S50000x128, .f32⟩
  | 31 => ⟨S50000x128, .f32⟩
  | 32 => ⟨S50000x128, .f32⟩
  | 33 => ⟨S50000x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S50000x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S50000x128, .f32⟩
  | 58 => ⟨S50000x128, .f32⟩
  | 59 => ⟨S50000x128, .f32⟩
  | 60 => ⟨S50000x384, .f32⟩
  | 61 => ⟨S1x384, .f32⟩
  | 62 => ⟨S50000x384, .f32⟩
  | 63 => ⟨S50000x384, .f32⟩
  | 64 => ⟨S50000x384, .f32⟩
  | 65 => ⟨S1x384, .f32⟩
  | 66 => ⟨S50000x384, .f32⟩
  | 67 => ⟨S50000x384, .f32⟩
  | 68 => ⟨S50000x128, .f32⟩
  | 69 => ⟨S50000x128, .f32⟩
  | 70 => ⟨S50000x128, .f32⟩
  | 71 => ⟨S50000x128, .f32⟩
  | 72 => ⟨S50000x128, .f32⟩
  | 73 => ⟨S50000x128, .f32⟩
  | 74 => ⟨S50000x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x128, .f32⟩
  | 99 => ⟨S50000x128, .f32⟩
  | 100 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call0_cst : Ref sig .tc := ⟨.hbm, 46, rfl⟩
abbrev main_call0_v0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_call1_cst : Ref sig .tc := ⟨.hbm, 53, rfl⟩
abbrev main_call1_v0 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_3 : Ref sig .tc := ⟨.hbm, 64, rfl⟩
abbrev main_v32 : Ref sig .tc := ⟨.hbm, 65, rfl⟩
abbrev main_v33 : Ref sig .tc := ⟨.hbm, 66, rfl⟩
abbrev main_c_4 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_5 : Ref sig .tc := ⟨.hbm, 73, rfl⟩
abbrev main_v39 : Ref sig .tc := ⟨.hbm, 74, rfl⟩
abbrev main_v40 : Ref sig .tc := ⟨.hbm, 75, rfl⟩
abbrev main_c_6 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call2_cst : Ref sig .tc := ⟨.hbm, 87, rfl⟩
abbrev main_call2_v0 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_call3_cst : Ref sig .tc := ⟨.hbm, 94, rfl⟩
abbrev main_call3_v0 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_7 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_8 : Ref sig .tc := ⟨.hbm, 123, rfl⟩
abbrev main_v82 : Ref sig .tc := ⟨.hbm, 124, rfl⟩
abbrev main_v83 : Ref sig .tc := ⟨.hbm, 125, rfl⟩
abbrev main_cst_9 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_10 : Ref sig .tc := ⟨.hbm, 132, rfl⟩
abbrev main_v89 : Ref sig .tc := ⟨.hbm, 133, rfl⟩
abbrev main_v90 : Ref sig .tc := ⟨.hbm, 134, rfl⟩
abbrev main_cst_11 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_12 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_13 : Ref sig .tc := ⟨.hbm, 164, rfl⟩
abbrev main_v118 : Ref sig .tc := ⟨.hbm, 165, rfl⟩
abbrev main_v119 : Ref sig .tc := ⟨.hbm, 166, rfl⟩
abbrev main_cst_14 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_15 : Ref sig .tc := ⟨.hbm, 173, rfl⟩
abbrev main_v125 : Ref sig .tc := ⟨.hbm, 174, rfl⟩
abbrev main_v126 : Ref sig .tc := ⟨.hbm, 175, rfl⟩
abbrev main_cst_16 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_17 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_18 : Ref sig .tc := ⟨.hbm, 205, rfl⟩
abbrev main_v154 : Ref sig .tc := ⟨.hbm, 206, rfl⟩
abbrev main_v155 : Ref sig .tc := ⟨.hbm, 207, rfl⟩
abbrev main_cst_19 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_20 : Ref sig .tc := ⟨.hbm, 214, rfl⟩
abbrev main_v161 : Ref sig .tc := ⟨.hbm, 215, rfl⟩
abbrev main_v162 : Ref sig .tc := ⟨.hbm, 216, rfl⟩
abbrev main_cst_21 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_cst_22 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S50000x128 : S_.BroadcastsInDim S50000x128 (![] : Fin 0 → Fin S50000x128.rank)
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  gather_S50000x128_S500000x1_S500000x128_1_0_n_n_0_1_1128_wf : GatherDims.WF S50000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x128_S500000x128_1_0_0_1_n_n_wf : DotDims.WF S500000x128 S128x128 S500000x128 [1] [0] [0] [1] [] []
  scatter_S50000x128_S500000x1_S500000x128_1_0_0_1_wf : ScatterDims.WF S50000x128 S500000x1 S500000x128 [1] [0] [0] 1
  dot_S50000x128_S128x384_S50000x384_1_0_0_1_n_n_wf : DotDims.WF S50000x128 S128x384 S50000x384 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.PreRange.lean ====
/-
  What the precondition says of the two index vectors: every source and every target word names a node,
  `0 ≤ idx < 50000` read signed. The precondition is a conjunction of whole-array tests, each an `and` over all
  entries; the last four are the comparisons of the two index vectors with `0` and with `50000`.
-/
import proofs.«128451_j72730976190873_1_alg».proof.Pre_finite_inputs
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx Cert.Pre_finite_inputs

variable {F : FTy → Type} [FloatOps F] [Cert.Pre_finite_inputs.Facts]

/-- The scalar shape has one index. -/
local instance : Subsingleton S_.Idx := ⟨fun a b => funext fun d => d.elim0⟩

/-- The two bounds, read signed. -/
theorem toInt_zero : (0#32 : BitVec 32).toInt = 0 := by decide
theorem toInt_bound : (50000#32 : BitVec 32).toInt = 50000 := by decide

/-- A whole-array test "every word is below the scalar `c`, signed" that came out true says so of each word. -/
theorem all_slt {s : Shape} {axes : List (Fin s.rank)} (hb : S_.BroadcastsInDim s (![] : Fin 0 → Fin s.rank))
    (hr : s.ReducesTo axes S_) (hu : 0 < S_.numel) (x : IVec s 32) (c : BitVec 32) (init : IVec S_ 1)
    (e : Host.reduce IntOp.andi (cmpi .slt x (broadcastInDim s ![] hb (constantI S_ 32 c))) init hr hu ix0 = 1#1)
    (i : s.Idx) : (x i).toInt < c.toInt :=
  IntOp.cmpi_slt.1 (Host.reduce_andi_all _ init hr hu ix0 e i)

/-- Likewise "every word is at least the scalar `c`, signed". -/
theorem all_sge {s : Shape} {axes : List (Fin s.rank)} (hb : S_.BroadcastsInDim s (![] : Fin 0 → Fin s.rank))
    (hr : s.ReducesTo axes S_) (hu : 0 < S_.numel) (x : IVec s 32) (c : BitVec 32) (init : IVec S_ 1)
    (e : Host.reduce IntOp.andi (cmpi .sge x (broadcastInDim s ![] hb (constantI S_ 32 c))) init hr hu ix0 = 1#1)
    (i : s.Idx) : c.toInt ≤ (x i).toInt :=
  IntOp.cmpi_sge.1 (Host.reduce_andi_all _ init hr hu ix0 e i)

/-- The tail of the conjunction: the last three whole-array tests, and the conjunct handed in from before. -/
theorem of_part6 (a2 a3 : IVec S500000 32) (v98 v101 : IVec S_ 1)
    (e : fn_part6 (F := F) a2 a3 v98 v101 ix0 = 1#1) :
    v101 ix0 = 1#1 ∧ (∀ i : S500000.Idx, (a2 i).toInt < 50000) ∧ (∀ i : S500000.Idx, 0 ≤ (a3 i).toInt)
      ∧ (∀ i : S500000.Idx, (a3 i).toInt < 50000) := by
  unfold fn_part6 at e
  obtain ⟨h110, h113⟩ := IntOp.andi_eq_one.1 e
  obtain ⟨h106, h109⟩ := IntOp.andi_eq_one.1 h110
  obtain ⟨h102, h105⟩ := IntOp.andi_eq_one.1 h106
  obtain ⟨-, h101⟩ := IntOp.andi_eq_one.1 h102
  refine ⟨h101, fun i => ?_, fun i => ?_, fun i => ?_⟩
  · exact toInt_bound ▸ all_slt _ _ _ a2 50000#32 _ h105 i
  · exact toInt_zero ▸ all_sge _ _ _ a3 0#32 _ h109 i
  · exact toInt_bound ▸ all_slt _ _ _ a3 50000#32 _ h113 i

/-- One part earlier: the test of the first index vector against `0` is made here and handed on. -/
theorem of_part5 (a2 a3 : IVec S500000 32) (a21 a22 : FVec F S384 .f32) (v83 : IVec S_ 1) (v84 : FVec F S128x384 .f32)
    (cst : FVec F S_ .f32) (e : fn_part5 (F := F) a2 a3 a21 a22 v83 v84 cst ix0 = 1#1) :
    (∀ i : S500000.Idx, 0 ≤ (a2 i).toInt ∧ (a2 i).toInt < 50000)
      ∧ (∀ i : S500000.Idx, 0 ≤ (a3 i).toInt ∧ (a3 i).toInt < 50000) := by
  unfold fn_part5 at e
  obtain ⟨h101, hb2, ha3, hb3⟩ := of_part6 a2 a3 _ _ e
  exact ⟨fun i => ⟨toInt_zero ▸ all_sge _ _ _ a2 0#32 _ h101 i, hb2 i⟩, fun i => ⟨ha3 i, hb3 i⟩⟩

/-- Under the precondition every word of the two index vectors, read signed, lies in `[0, 50000)`. -/
theorem range_of_pre
    (a0 : FVec F S50000x128 .f32) (a1 : FVec F S500000x128 .f32) (a2 a3 : IVec S500000 32) (a4 : IVec S50000 32)
    (a5 : FVec F S384x128 .f32) (a6 : FVec F S128 .f32) (a7 : FVec F S128x128 .f32) (a8 : FVec F S128 .f32)
    (a9 : FVec F S128x128 .f32) (a10 : FVec F S128 .f32)
    (a11 a12 : FVec F S128x384 .f32) (a13 a14 : FVec F S384 .f32)
    (a15 a16 : FVec F S128x384 .f32) (a17 a18 : FVec F S384 .f32)
    (a19 a20 : FVec F S128x384 .f32) (a21 a22 : FVec F S384 .f32)
    (h : Cert.Pre_finite_inputs.fn (F := F) a0 a1 a2 a3 a4 a5 a6 a7 a8 a9 a10 a11 a12 a13 a14 a15 a16 a17 a18 a19 a20 a21 a22
      = fun _ => 1#1) :
    (∀ e : Fin 500000, 0 ≤ (a2 (ix1 e)).toInt ∧ (a2 (ix1 e)).toInt < 50000)
      ∧ (∀ e : Fin 500000, 0 ≤ (a3 (ix1 e)).toInt ∧ (a3 (ix1 e)).toInt < 50000) := by
  -- the precondition at its one index; the chain of parts unfolds down to the part that makes the last four tests
  have e := congrFun h ix0
  unfold fn fn_part1 fn_part2 fn_part3 fn_part4 at e
  obtain ⟨h2, h3⟩ := of_part5 a2 a3 a21 a22 _ _ _ e
  exact ⟨fun e => h2 (ix1 e), fun e => h3 (ix1 e)⟩

end Cert.PreRange

end
-- ==== Proof.Spec.lean ====
/-
  The value both programs compute, stated row by row on the extended reals.

  A message is a three-layer perceptron of one edge's concatenated row (source node, target node, edge features);
  a node's aggregate is the sum of the messages of the edges that point at it, taken in both directions; the result
  is three gated recurrent updates of the node's row against its aggregate. Every sum is a finite sum in the
  commutative monoid of the extended reals, so neither the order of the edges nor edges that point at no node matter.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A rows-by-columns matrix of extended reals. -/
abbrev Mat (r c : Nat) := (⟨2, ![r, c]⟩ : Shape).Idx → EReal
/-- A vector of extended reals. -/
abbrev Vc (n : Nat) := (⟨1, ![n]⟩ : Shape).Idx → EReal

/-- Row `r` of a matrix. -/
def row {R C : Nat} (X : Mat R C) (r : Fin R) : Fin C → EReal := fun c => X (ix2 r c)

/-- An affine layer on one row: `(x W + b) j = (∑ₖ xₖ · W k j) + b j`. -/
def dense {K N : Nat} (x : Fin K → EReal) (W : Mat K N) (b : Vc N) : Fin N → EReal :=
  fun j => (∑ k : Fin K, x k * W (ix2 k j)) + b (ix1 j)

/-- The positive part. -/
def relu (x : EReal) : EReal := max x 0

/-- Three rows of 128 laid end to end. -/
def cat3 (a b e : Fin 128 → EReal) : Fin 384 → EReal := fun k =>
  if h : k.val < 128 then a ⟨k.val, h⟩
  else if h2 : k.val < 256 then b ⟨k.val - 128, by omega⟩
  else e ⟨k.val - 256, by have := k.isLt; omega⟩

/-- The message perceptron on one edge: affine, positive part, affine, positive part, affine. -/
def mlp (W1 : Mat 384 128) (b1 : Vc 128) (W2 : Mat 128 128) (b2 : Vc 128) (W3 : Mat 128 128) (b3 : Vc 128)
    (a b e : Fin 128 → EReal) : Fin 128 → EReal :=
  dense (fun k => relu (dense (fun k => relu (dense (cat3 a b e) W1 b1 k)) W2 b2 k)) W3 b3

/-- Column `j` of the first, second and third block of 128 among 384 columns. -/
def c0 (j : Fin 128) : Fin 384 := ⟨j.val, by have := j.isLt; omega⟩
def c1 (j : Fin 128) : Fin 384 := ⟨128 + j.val, by have := j.isLt; omega⟩
def c2 (j : Fin 128) : Fin 384 := ⟨256 + j.val, by have := j.isLt; omega⟩

/-- One gated recurrent update of the state row `h` on the input row `x`:
    `r = σ(gi₀ + gh₀)`, `z = σ(gi₁ + gh₁)`, `n = tanh(gi₂ + r · gh₂)`, result `(1 - z) · n + z · h`. -/
def gru (W U : Mat 128 384) (b c : Vc 384) (x h : Fin 128 → EReal) : Fin 128 → EReal := fun j =>
  (1 - Ideal.logistic (dense x W b (c1 j) + dense h U c (c1 j)))
      * Ideal.tanh (dense x W b (c2 j) + Ideal.logistic (dense x W b (c0 j) + dense h U c (c0 j)) * dense h U c (c2 j))
    + Ideal.logistic (dense x W b (c1 j) + dense h U c (c1 j)) * h j

/-- The three updates: `h₁ = gru₀(x, a)`, `h₂ = gru₁(a, h₁)`, `h₃ = gru₂(h₁, h₂)`. -/
def gru3 (W0 U0 : Mat 128 384) (b0 c0' : Vc 384) (W1 U1 : Mat 128 384) (b1 c1' : Vc 384)
    (W2 U2 : Mat 128 384) (b2 c2' : Vc 384) (x a : Fin 128 → EReal) : Fin 128 → EReal :=
  gru W2 U2 b2 c2' (gru W0 U0 b0 c0' x a) (gru W1 U1 b1 c1' a (gru W0 U0 b0 c0' x a))

/-- The sum over the edges `e` whose word `idx e`, read signed, is the node `n`. -/
def segSum {E : Nat} (idx : Fin E → BitVec 32) (msg : Fin E → Fin 128 → EReal) (n : Nat) (j : Fin 128) : EReal :=
  ∑ e : Fin E, if (idx e).toInt = (n : Int) then msg e j else 0

/-- Summing over a longer range whose extra terms vanish is summing over the shorter one. -/
theorem sum_castLE {E E' : Nat} (h : E ≤ E') (f : Fin E' → EReal) (hz : ∀ e : Fin E', E ≤ e.val → f e = 0) :
    ∑ e : Fin E', f e = ∑ e : Fin E, f (e.castLE h) := by
  obtain ⟨P, rfl⟩ := Nat.exists_eq_add_of_le h
  rw [Fin.sum_univ_add]
  have hP : ∑ i : Fin P, f (Fin.natAdd E i) = 0 :=
    Finset.sum_eq_zero fun i _ => hz _ (by simp [Fin.natAdd])
  rw [hP, add_zero]
  exact Finset.sum_congr rfl fun _ _ => rfl

/-- A function of three rows applied along the rows of three matrices of one height. -/
def mapRows3 {R : Nat} (f : (Fin 128 → EReal) → (Fin 128 → EReal) → (Fin 128 → EReal) → Fin 128 → EReal)
    (X Y Z : Mat R 128) : Mat R 128 := fun i =>
  f (row X ⟨(i 0).val, idx2_lt0 i⟩) (row Y ⟨(i 0).val, idx2_lt0 i⟩) (row Z ⟨(i 0).val, idx2_lt0 i⟩) ⟨(i 1).val, idx2_lt1 i⟩

theorem mapRows3_apply {R : Nat} (f : (Fin 128 → EReal) → (Fin 128 → EReal) → (Fin 128 → EReal) → Fin 128 → EReal)
    (X Y Z : Mat R 128) (r : Fin R) (j : Fin 128) : mapRows3 f X Y Z (ix2 r j) = f (row X r) (row Y r) (row Z r) j := rfl

/-- A function of two rows applied along the rows of two matrices of one height. -/
def mapRows2 {R : Nat} (f : (Fin 128 → EReal) → (Fin 128 → EReal) → Fin 128 → EReal)
    (X Y : Mat R 128) : Mat R 128 := fun i =>
  f (row X ⟨(i 0).val, idx2_lt0 i⟩) (row Y ⟨(i 0).val, idx2_lt0 i⟩) ⟨(i 1).val, idx2_lt1 i⟩

theorem mapRows2_apply {R : Nat} (f : (Fin 128 → EReal) → (Fin 128 → EReal) → Fin 128 → EReal)
    (X Y : Mat R 128) (r : Fin R) (j : Fin 128) : mapRows2 f X Y (ix2 r j) = f (row X r) (row Y r) j := rfl

/-- The row of the node a word names: the word read signed and clamped to the last node. -/
def nodeRow (ns : Mat 50000 128) (w : BitVec 32) : Fin 128 → EReal :=
  row ns ⟨min w.toInt.toNat 49999, by omega⟩

/-- A word that names a node reads that node's row. -/
theorem nodeRow_of_lt (ns : Mat 50000 128) (w : BitVec 32) (k : Fin 50000) (hk : w.toInt = (k.val : Int)) :
    nodeRow ns w = row ns k := by
  unfold nodeRow
  congr 1
  apply Fin.ext
  show min w.toInt.toNat 49999 = k.val
  have := k.isLt
  rw [hk]; simp; omega

section Whole

variable (ns : Mat 50000 128) (ef : Mat 500000 128) (fi ti : (⟨1, ![500000]⟩ : Shape).Idx → BitVec 32)
  (W1 : Mat 384 128) (b1 : Vc 128) (W2 : Mat 128 128) (b2 : Vc 128) (W3 : Mat 128 128) (b3 : Vc 128)
  (g0W g0U : Mat 128 384) (g0b g0c : Vc 384) (g1W g1U : Mat 128 384) (g1b g1c : Vc 384)
  (g2W g2U : Mat 128 384) (g2b g2c : Vc 384)

/-- Edge `e`'s message along the edge: the perceptron of (source row, target row, edge row). -/
def msgF (e : Fin 500000) : Fin 128 → EReal :=
  mlp W1 b1 W2 b2 W3 b3 (nodeRow ns (fi (ix1 e))) (nodeRow ns (ti (ix1 e))) (row ef e)

/-- Edge `e`'s message against the edge: the perceptron of (target row, source row, edge row). -/
def msgR (e : Fin 500000) : Fin 128 → EReal :=
  mlp W1 b1 W2 b2 W3 b3 (nodeRow ns (ti (ix1 e))) (nodeRow ns (fi (ix1 e))) (row ef e)

/-- Node `n`'s aggregate: the forward messages of the edges that end at `n` plus the backward messages of the edges
    that start at `n`. -/
def agg (n : Fin 50000) : Fin 128 → EReal := fun j =>
  segSum (fun e => ti (ix1 e)) (msgF ns ef fi ti W1 b1 W2 b2 W3 b3) n.val j
    + segSum (fun e => fi (ix1 e)) (msgR ns ef fi ti W1 b1 W2 b2 W3 b3) n.val j

/-- The result at node `n`, column `j`: three gated updates of the node's row against its aggregate. -/
def out (n : Fin 50000) (j : Fin 128) : EReal :=
  gru3 g0W g0U g0b g0c g1W g1U g1b g1c g2W g2U g2b g2c (row ns n) (agg ns ef fi ti W1 b1 W2 b2 W3 b3 n) j

/-- The whole result array. -/
def G : Mat 50000 128 := fun i =>
  out ns ef fi ti W1 b1 W2 b2 W3 b3 g0W g0U g0b g0c g1W g1U g1b g1c g2W g2U g2b g2c
    ⟨(i 0).val, idx2_lt0 i⟩ ⟨(i 1).val, idx2_lt1 i⟩

theorem G_apply (n : Fin 50000) (j : Fin 128) :
    G ns ef fi ti W1 b1 W2 b2 W3 b3 g0W g0U g0b g0c g1W g1U g1b g1c g2W g2U g2b g2c (ix2 n j)
      = out ns ef fi ti W1 b1 W2 b2 W3 b3 g0W g0U g0b g0c g1W g1U g1b g1c g2W g2U g2b g2c n j := rfl

end Whole

/-- The word `1.0` denotes the real one. -/
theorem ofBits_one : Ideal.ofBits .f32 0x3F800000#32 = 1 := by
  simp [Ideal.ofBits, Ideal.ieee, -EReal.coe_mul]; norm_num

end Cert.Spec

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.LibRows.lean ====
/-
  General facts about gathering whole rows of a matrix by an index vector, and about laying row blocks side by side.

  A row gather reads, at row `r`, the row of the operand that the index word of `r` names (the word read signed and
  clamped into the operand's rows). Three row blocks laid side by side read, at a column, the block that column
  falls in. A vector of words stood up as a column reads its word.
-/
import Idealize.ShloMosaic.PureOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibRows

open Idealize.ShloMosaic Idealize.ShloMosaic.ValueIdx

variable {α : Type}

/-! ## Gathering rows -/

/-- The dimension numbers of `x[idx]` for a matrix `x : [N, C]` and a column of indices `idx : [R, 1]`: axis 0 is
    collapsed and indexed, axis 1 is the offset axis, the slice is one whole row. -/
abbrev rowGather (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at column `c` of the row the word `idx[r, 0]` names, the word read
    signed and clamped into `[0, N − 1]`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    -- the row axis: not a batching axis and collapsed, so only the clamped start is left; the slice has one row, so
    -- the clamp's upper end is N - 1
    show (rowGather N R C wf).start (ix2 r c) idx 0 + (rowGather N R C wf).batchCoord (ix2 r c) 0
        + (rowGather N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    -- the start index of result index (r, c) is read at (r, 0): the batch coordinate r, and component 0 on the index
    -- vector's axis
    have hsi : (rowGather N R C wf).siIdx (ix2 r c) ⟨List.idxOf (0 : Fin 2) (rowGather N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the column axis: the start index map does not name it (start 0), it is not a batching axis, and it is the one
    -- kept axis, read by the result's offset axis 1, whose coordinate is c
    show (rowGather N R C wf).start (ix2 r c) idx 1 + (rowGather N R C wf).batchCoord (ix2 r c) 1
        + (rowGather N R C wf).offCoord (ix2 r c) 1 = c.val
    have h1 : (1 : Fin 2) ∉ (rowGather N R C wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    have hk : (1 : Fin 2) ∈ (rowGather N R C wf).sKept :=
      (GatherDims.mem_sKept _ _).mpr ⟨by show (1 : Fin 2) ∉ [(0 : Fin 2)]; decide, List.not_mem_nil⟩
    unfold GatherDims.offCoord
    rw [dif_pos hk]
    rfl

/-! ## Three blocks of columns side by side -/

/-- Three `[R, K]` blocks concatenated along the columns read, at `(r, k)`, the first block when `k < K`, the second
    when `k < 2 K`, else the third, at the column's offset inside its block. -/
theorem concat3_cols_apply {R K : Nat} (x y z : (⟨2, ![R, K]⟩ : Shape).Idx → α)
    (h : Shape.Concatenates [(⟨2, ![R, K]⟩ : Shape), ⟨2, ![R, K]⟩, ⟨2, ![R, K]⟩] ⟨2, ![R, K + K + K]⟩ 1)
    (r : Fin R) (k : Fin (K + K + K)) :
    concatenate ⟨2, ![R, K + K + K]⟩ 1 [⟨⟨2, ![R, K]⟩, x⟩, ⟨⟨2, ![R, K]⟩, y⟩, ⟨⟨2, ![R, K]⟩, z⟩] h (ix2 r k)
      = if h1 : k.val < K then x (ix2 r ⟨k.val, h1⟩)
        else if h2 : k.val < K + K then y (ix2 r ⟨k.val - K, by omega⟩)
        else z (ix2 r ⟨k.val - (K + K), by have := k.isLt; omega⟩) := by
  -- off the column axis a block's index and the result's index have the same coordinate (the row r)
  have hoff : ∀ (i : Fin K) (b : Fin 2), b.cast (rfl : (2:Nat) = 2) ≠ (1 : Fin 2) →
      ((ix2 r i : (⟨2, ![R, K]⟩ : Shape).Idx) b).val = ((ix2 r k : (⟨2, ![R, K + K + K]⟩ : Shape).Idx) (b.cast rfl)).val := by
    intro i b hb
    match b with
    | ⟨0, _⟩ => rfl
    | ⟨1, _⟩ => exact absurd rfl hb
  split
  · next h1 =>
    -- the first block: no columns before it
    refine concatenate_apply_piece (t := ⟨2, ![R, K + K + K]⟩) (1 : Fin 2)
      [⟨⟨2, ![R, K]⟩, x⟩, ⟨⟨2, ![R, K]⟩, y⟩, ⟨⟨2, ![R, K]⟩, z⟩] h (ix2 r k) 0 (by simp) ⟨2, ![R, K]⟩ x rfl rfl 0 rfl
      (ix2 r ⟨k.val, h1⟩) (hoff _) ?_
    show 0 + k.val = k.val
    omega
  · next h1 =>
    split
    · next h2 =>
      -- the second block: K columns before it
      refine concatenate_apply_piece (t := ⟨2, ![R, K + K + K]⟩) (1 : Fin 2)
        [⟨⟨2, ![R, K]⟩, x⟩, ⟨⟨2, ![R, K]⟩, y⟩, ⟨⟨2, ![R, K]⟩, z⟩] h (ix2 r k) 1 (by simp) ⟨2, ![R, K]⟩ y rfl rfl K ?_
        (ix2 r ⟨k.val - K, by omega⟩) (hoff _) ?_
      · show K + 0 = K
        omega
      · show K + (k.val - K) = k.val
        omega
    · next h2 =>
      -- the third block: K + K columns before it
      refine concatenate_apply_piece (t := ⟨2, ![R, K + K + K]⟩) (1 : Fin 2)
        [⟨⟨2, ![R, K]⟩, x⟩, ⟨⟨2, ![R, K]⟩, y⟩, ⟨⟨2, ![R, K]⟩, z⟩] h (ix2 r k) 2 (by simp) ⟨2, ![R, K]⟩ z rfl rfl (K + K) ?_
        (ix2 r ⟨k.val - (K + K), by have := k.isLt; omega⟩) (hoff _) ?_
      · show K + (K + 0) = K + K
        omega
      · show K + K + (k.val - (K + K)) = k.val
        omega

/-- A column of `R` words made from a vector of `R` words (`v[:, None]`) reads, at `(r, 0)`, the vector's word `r`. -/
theorem col_of_vec_apply {R w : Nat} (v : IVec ⟨1, ![R]⟩ w)
    (h : (⟨1, ![R]⟩ : Shape).BroadcastsInDim ⟨2, ![R, 1]⟩ ![0]) (r : Fin R) :
    broadcastInDim (⟨2, ![R, 1]⟩ : Shape) ![0] h v (ix2 r (0 : Fin 1)) = v (ix1 r) := by
  -- the operand's one axis goes to the result's axis 0; when R = 1 that axis is a unit axis and its only coordinate is 0
  refine broadcastInDim_apply _ h v _ _ ?_
  intro a
  obtain rfl : a = 0 := Subsingleton.elim _ _
  show (r : Nat) = if R = 1 then 0 else (r : Nat)
  split
  · next h1 => have := r.isLt; omega
  · rfl

end Cert.LibRows

end
-- ==== Proof.KMsgBody.lean ====
/-
  What the message kernel's body leaves in its two output blocks, entry by entry: row `r` of the forward block is the
  perceptron of (row `r` of the source block, row `r` of the target block, row `r` of the edge block), and row `r` of the
  backward block the perceptron of (target row, source row, edge row). On the extended reals a change of float format
  is the identity, a matrix product into zeros is the plain sum of products, and the positive part is `max · 0`.
-/
import proofs.«128451_j72730976190873_1_alg».proof.Proof.Gen.KernelIdeal.Frame
import proofs.«128451_j72730976190873_1_alg».proof.Proof.Spec
import proofs.«128451_j72730976190873_1_alg».proof.Proof.LibPlainDot
import proofs.«128451_j72730976190873_1_alg».proof.Proof.LibRows
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KMsgBody

open Cert.KernelIdeal Cert.KernelIdeal.Gen Idealize.ShloMosaic Idealize.ShloMosaic.ValueIdx Cert.Spec

/-! ## The two matrix products' index maps, axis by axis -/

theorem lhsA_0 (i : S2048x128.Idx) (q : dot_S2048x384_S384x128_S2048x128_1_0_0_1_n_n.contr.Idx) :
    (dot_S2048x384_S384x128_S2048x128_1_0_0_1_n_n.lhsIdx i q 0).val = (i 0).val := by
  unfold DotDims.lhsIdx
  rw [dif_neg (show ¬(0 : Fin S2048x384.rank) ∈ dot_S2048x384_S384x128_S2048x128_1_0_0_1_n_n.lhsBatch by decide), dif_pos (show (0 : Fin S2048x384.rank) ∈ dot_S2048x384_S384x128_S2048x128_1_0_0_1_n_n.lhsNonContracting by decide)]
  rfl
theorem lhsA_1 (i : S2048x128.Idx) (q : dot_S2048x384_S384x128_S2048x128_1_0_0_1_n_n.contr.Idx) :
    (dot_S2048x384_S384x128_S2048x128_1_0_0_1_n_n.lhsIdx i q 1).val = (q ⟨0, by decide⟩).val :=
  dot_S2048x384_S384x128_S2048x128_1_0_0_1_n_n.lhsIdx_val_of_single rfl i q
theorem rhsA_0 (i : S2048x128.Idx) (q : dot_S2048x384_S384x128_S2048x128_1_0_0_1_n_n.contr.Idx) :
    (dot_S2048x384_S384x128_S2048x128_1_0_0_1_n_n.rhsIdx i q 0).val = (q ⟨0, by decide⟩).val :=
  dot_S2048x384_S384x128_S2048x128_1_0_0_1_n_n.rhsIdx_val_of_single rfl i q
theorem rhsA_1 (i : S2048x128.Idx) (q : dot_S2048x384_S384x128_S2048x128_1_0_0_1_n_n.contr.Idx) :
    (dot_S2048x384_S384x128_S2048x128_1_0_0_1_n_n.rhsIdx i q 1).val = (i 1).val := by
  unfold DotDims.rhsIdx
  rw [dif_neg (show ¬(1 : Fin S384x128.rank) ∈ dot_S2048x384_S384x128_S2048x128_1_0_0_1_n_n.rhsBatch by decide), dif_pos (show (1 : Fin S384x128.rank) ∈ dot_S2048x384_S384x128_S2048x128_1_0_0_1_n_n.rhsNonContracting by decide)]
  rfl

theorem lhsB_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhsB_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhsB_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhsB_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-! ## One affine layer at an entry -/

/-- The 384-to-128 layer: the product of the narrowed operands into zeros, plus the bias laid along the rows, is the
    affine layer on the entry's row (narrowing is the identity on the extended reals). -/
theorem layerA_apply (X : FVec Ideal S2048x384 .bf16) (W : Vec Ideal S384x128 .f32) (b : Vec Ideal S128 .f32)
    (p : Fin 2048) (j : Fin 128) :
    addf (matmul dot_S2048x384_S384x128_S2048x128_1_0_0_1_n_n none X (truncf .bf16 W bitsLt_bf16_f32)
        (constant (F := Ideal) S2048x128 .f32 0x00000000#32))
      (broadcastTo S2048x128 (shapeCast S1x128 b shapeCasts_S128_S1x128) broadcasts_S1x128_S2048x128) (ix2 p j)
      = dense (fun k => X (ix2 p k)) W b j := by
  show FloatOps.matmul dot_S2048x384_S384x128_S2048x128_1_0_0_1_n_n none X (truncf .bf16 W bitsLt_bf16_f32)
        (constant (F := Ideal) S2048x128 .f32 0x00000000#32) (ix2 p j)
      + broadcastTo S2048x128 (shapeCast S1x128 b shapeCasts_S128_S1x128) broadcasts_S1x128_S2048x128 (ix2 p j) = _
  rw [Ideal.matmul_constant_zero_apply, Cert.LibPlainDot.bias_row_apply]
  unfold dense
  congr 1
  exact Cert.LibPlainDot.sum_plain dot_S2048x384_S384x128_S2048x128_1_0_0_1_n_n rfl rfl lhsA_0 lhsA_1 rhsA_0 rhsA_1 X W p j

/-- The 128-to-128 layer, likewise. -/
theorem layerB_apply (X : FVec Ideal S2048x128 .bf16) (W : Vec Ideal S128x128 .f32) (b : Vec Ideal S128 .f32)
    (p : Fin 2048) (j : Fin 128) :
    addf (matmul dot_S2048x128_S128x128_S2048x128_1_0_0_1_n_n none X (truncf .bf16 W bitsLt_bf16_f32)
        (constant (F := Ideal) S2048x128 .f32 0x00000000#32))
      (broadcastTo S2048x128 (shapeCast S1x128 b shapeCasts_S128_S1x128) broadcasts_S1x128_S2048x128) (ix2 p j)
      = dense (fun k => X (ix2 p k)) W b j := by
  show FloatOps.matmul dot_S2048x128_S128x128_S2048x128_1_0_0_1_n_n none X (truncf .bf16 W bitsLt_bf16_f32)
        (constant (F := Ideal) S2048x128 .f32 0x00000000#32) (ix2 p j)
      + broadcastTo S2048x128 (shapeCast S1x128 b shapeCasts_S128_S1x128) broadcasts_S1x128_S2048x128 (ix2 p j) = _
  rw [Ideal.matmul_constant_zero_apply, Cert.LibPlainDot.bias_row_apply]
  unfold dense
  congr 1
  exact Cert.LibPlainDot.sum_plain dot_S2048x128_S128x128_S2048x128_1_0_0_1_n_n rfl rfl lhsB_0 lhsB_1 rhsB_0 rhsB_1 X W p j

/-- The maximum with the zero word, then narrowed: the positive part. -/
theorem relu_apply (Y : FVec Ideal S2048x128 .f32) (p : Fin 2048) (j : Fin 128) :
    truncf .bf16 (maximumf Y (broadcast S2048x128 (Scalar.ofBits (F := Ideal) .f32 0x00000000#32))) bitsLt_bf16_f32 (ix2 p j)
      = relu (Y (ix2 p j)) := by
  show max (Y (ix2 p j)) (Scalar.ofBits (F := Ideal) .f32 0x00000000#32) = max (Y (ix2 p j)) 0
  rw [Cert.LibPlainDot.scalar_zero]

/-- Three 128-column blocks (each a block cast to its own shape) side by side, narrowed, read along row r: the three
    rows laid end to end. -/
theorem cat3_apply (x y z : Vec Ideal S2048x128 .f32) (r : Fin 2048) (k : Fin 384) :
    truncf (F := Ideal) (φ := .f32) .bf16 (concatenate S2048x384 1
        [⟨S2048x128, shapeCast S2048x128 x shapeCasts_S2048x128_S2048x128⟩,
          ⟨S2048x128, shapeCast S2048x128 y shapeCasts_S2048x128_S2048x128⟩,
          ⟨S2048x128, shapeCast S2048x128 z shapeCasts_S2048x128_S2048x128⟩]
        concatenates_S2048x128_S2048x128_S2048x128_S2048x384_d1) bitsLt_bf16_f32 (ix2 r k)
      = cat3 (row x r) (row y r) (row z r) k := by
  have hx : shapeCast S2048x128 x shapeCasts_S2048x128_S2048x128 = x := shapeCast_self x _
  have hy : shapeCast S2048x128 y shapeCasts_S2048x128_S2048x128 = y := shapeCast_self y _
  have hz : shapeCast S2048x128 z shapeCasts_S2048x128_S2048x128 = z := shapeCast_self z _
  rw [hx, hy, hz]
  show concatenate S2048x384 1 [⟨S2048x128, x⟩, ⟨S2048x128, y⟩, ⟨S2048x128, z⟩]
        concatenates_S2048x128_S2048x128_S2048x128_S2048x384_d1 (ix2 r k) = _
  exact Cert.LibRows.concat3_cols_apply (R := 2048) (K := 128) x y z
    concatenates_S2048x128_S2048x128_S2048x128_S2048x384_d1 r k

/-! ## The body's blocks at an entry -/

/-- The offsets `(0, 0)` are zero on both axes. -/
theorem zeros2 : (![0, 0] : Fin 2 → Nat) = fun _ => 0 := funext fun a => by fin_cases a <;> rfl
/-- The offset `(0)` is zero on its axis. -/
theorem zeros1 : (![0] : Fin 1 → Nat) = fun _ => 0 := funext fun a => by fin_cases a; rfl

/-- The forward output block at `(r, j)`. -/
theorem out_fwd_apply (x0 x1 x2 : Vec Ideal S2048x128 .f32) (x3 : Vec Ideal S384x128 .f32) (x4 : Vec Ideal S128 .f32)
    (x5 : Vec Ideal S128x128 .f32) (x6 : Vec Ideal S128 .f32) (x7 : Vec Ideal S128x128 .f32) (x8 : Vec Ideal S128 .f32)
    (r : Fin 2048) (j : Fin 128) :
    out0_9 (F := Ideal) x0 x1 x2 x3 x4 x5 x6 x7 x8 (ix2 r j)
      = mlp x3 x4 x5 x6 x7 x8 (row x0 r) (row x1 r) (row x2 r) j := by
  unfold out0_9
  rw [View.canon_unit_zero zeros2]
  simp only [View.ld_unit_zero (S := S2048x128) zeros2, View.ld_unit_zero (S := S384x128) zeros2,
    View.ld_unit_zero (S := S128x128) zeros2, View.ld_unit_zero (S := S128) zeros1]
  unfold k0_pay8 k0_pay2 k0_pay3 k0_pay4 k0_pay5 k0_pay6 k0_pay7
  unfold mlp
  -- from the outside in: third layer, positive part, second layer, positive part, first layer, the three rows
  refine (layerB_apply _ x7 x8 r j).trans ?_
  refine congrArg (fun f => dense f x7 x8 j) (funext fun k2 => ?_)
  refine (relu_apply _ r k2).trans (congrArg relu ?_)
  refine (layerB_apply _ x5 x6 r k2).trans ?_
  refine congrArg (fun f => dense f x5 x6 k2) (funext fun k1 => ?_)
  refine (relu_apply _ r k1).trans (congrArg relu ?_)
  refine (layerA_apply _ x3 x4 r k1).trans ?_
  refine congrArg (fun f => dense f x3 x4 k1) (funext fun k0 => ?_)
  exact cat3_apply x0 x1 x2 r k0

/-- The backward output block at `(r, j)`: the first two rows change places. -/
theorem out_rev_apply (x0 x1 x2 : Vec Ideal S2048x128 .f32) (x3 : Vec Ideal S384x128 .f32) (x4 : Vec Ideal S128 .f32)
    (x5 : Vec Ideal S128x128 .f32) (x6 : Vec Ideal S128 .f32) (x7 : Vec Ideal S128x128 .f32) (x8 : Vec Ideal S128 .f32)
    (r : Fin 2048) (j : Fin 128) :
    out0_10 (F := Ideal) x0 x1 x2 x3 x4 x5 x6 x7 x8 (ix2 r j)
      = mlp x3 x4 x5 x6 x7 x8 (row x1 r) (row x0 r) (row x2 r) j := by
  unfold out0_10
  rw [View.canon_unit_zero zeros2]
  simp only [View.ld_unit_zero (S := S2048x128) zeros2, View.ld_unit_zero (S := S384x128) zeros2,
    View.ld_unit_zero (S := S128x128) zeros2, View.ld_unit_zero (S := S128) zeros1]
  unfold k0_pay1 k0_pay2 k0_pay3 k0_pay4 k0_pay5 k0_pay6 k0_pay7
  unfold mlp
  -- from the outside in: third layer, positive part, second layer, positive part, first layer, the three rows
  refine (layerB_apply _ x7 x8 r j).trans ?_
  refine congrArg (fun f => dense f x7 x8 j) (funext fun k2 => ?_)
  refine (relu_apply _ r k2).trans (congrArg relu ?_)
  refine (layerB_apply _ x5 x6 r k2).trans ?_
  refine congrArg (fun f => dense f x5 x6 k2) (funext fun k1 => ?_)
  refine (relu_apply _ r k1).trans (congrArg relu ?_)
  refine (layerA_apply _ x3 x4 r k1).trans ?_
  refine congrArg (fun f => dense f x3 x4 k1) (funext fun k0 => ?_)
  exact cat3_apply x1 x0 x2 r k0

end Cert.KMsgBody

end
-- ==== Proof.KGruBody.lean ====
/-
  What the node-update kernel's body leaves in its output block, entry by entry: row `r` is the three gated recurrent
  updates of row `r` of the node block against row `r` of the aggregate block. The kernel's logistic is
  `1 / (1 + e⁻ˣ)` on the extended reals, its slices of the 384 gate columns are the three blocks of 128.
-/
import proofs.«128451_j72730976190873_1_alg».proof.Proof.Gen.KernelIdeal.Frame
import proofs.«128451_j72730976190873_1_alg».proof.Proof.Spec
import proofs.«128451_j72730976190873_1_alg».proof.Proof.LibPlainDot
import proofs.«128451_j72730976190873_1_alg».proof.Proof.LibRows
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KGruBody

open Cert.KernelIdeal Cert.KernelIdeal.Gen Idealize.ShloMosaic Idealize.ShloMosaic.ValueIdx Cert.Spec

/-- Two zero offsets, however spelt, are the zero offsets. -/
theorem hz2 : (![0, 0] : Fin 2 → Nat) = fun _ => 0 := funext fun a => by
  match a with
  | ⟨0, _⟩ => rfl
  | ⟨1, _⟩ => rfl

/-- One zero offset is the zero offset. -/
theorem hz1 : (![0] : Fin 1 → Nat) = fun _ => 0 := funext fun a => by
  match a with
  | ⟨0, _⟩ => rfl

/-! ## The product's dimension numbers, axis by axis -/

/-- The left operand is read at the entry's row. -/
theorem dl0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide),
    dif_pos (show (0 : Fin S2000x128.rank) ∈ dot_S2000x128_S128x384_S2000x384_1_0_0_1_n_n.lhsNonContracting by decide)]
  rfl

/-- The left operand's column is the contraction coordinate. -/
theorem dl1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q

/-- The right operand's row is the contraction coordinate. -/
theorem dr0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q

/-- The right operand is read at the entry's column. -/
theorem dr1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide),
    dif_pos (show (1 : Fin S128x384.rank) ∈ dot_S2000x128_S128x384_S2000x384_1_0_0_1_n_n.rhsNonContracting by decide)]
  rfl

/-! ## One affine layer of 384 gate columns -/

/-- The rounded operands' product accumulated into zeros, plus the bias laid along the rows, at `(p, k)`: the affine
    layer of row `p`. On the extended reals the rounding to the narrow format is the identity. -/
theorem gates_apply (X : FVec Ideal S2000x128 .f32) (W : FVec Ideal S128x384 .f32) (b : FVec Ideal S384 .f32)
    (p : Fin 2000) (k : Fin 384) :
    addf (matmul dot_S2000x128_S128x384_S2000x384_1_0_0_1_n_n none (truncf .bf16 X bitsLt_bf16_f32)
            (truncf .bf16 W bitsLt_bf16_f32) (constant (F := Ideal) S2000x384 .f32 0x00000000#32))
        (broadcastTo S2000x384 (shapeCast S1x384 b shapeCasts_S384_S1x384) broadcasts_S1x384_S2000x384) (ix2 p k)
      = dense (row X p) W b k := by
  show (matmul dot_S2000x128_S128x384_S2000x384_1_0_0_1_n_n none (truncf .bf16 X bitsLt_bf16_f32)
            (truncf .bf16 W bitsLt_bf16_f32) (constant (F := Ideal) S2000x384 .f32 0x00000000#32)) (ix2 p k)
        + (broadcastTo S2000x384 (shapeCast S1x384 b shapeCasts_S384_S1x384) broadcasts_S1x384_S2000x384) (ix2 p k) = _
  rw [Cert.LibPlainDot.bias_row_apply]
  refine congrArg (· + b (ix1 k)) ?_
  exact Cert.LibPlainDot.matmul_plain_apply dot_S2000x128_S128x384_S2000x384_1_0_0_1_n_n rfl rfl dl0 dl1 dr0 dr1 none X W p k

/-! ## The three blocks of 128 among the 384 gate columns -/

theorem sl0 (g : FVec Ideal S2000x384 .f32) (p : Fin 2000) (j : Fin 128) :
    extractStridedSlice S2000x128 ![0, 0] g slices_S2000x384_o0_0_S2000x128 (ix2 p j) = g (ix2 p (c0 j)) :=
  slice2_axis1_apply 0 g _ p j (c0 j) (Nat.zero_add _).symm

theorem sl1 (g : FVec Ideal S2000x384 .f32) (p : Fin 2000) (j : Fin 128) :
    extractStridedSlice S2000x128 ![0, 128] g slices_S2000x384_o0_128_S2000x128 (ix2 p j) = g (ix2 p (c1 j)) :=
  slice2_axis1_apply 128 g _ p j (c1 j) rfl

theorem sl2 (g : FVec Ideal S2000x384 .f32) (p : Fin 2000) (j : Fin 128) :
    extractStridedSlice S2000x128 ![0, 256] g slices_S2000x384_o0_256_S2000x128 (ix2 p j) = g (ix2 p (c2 j)) :=
  slice2_axis1_apply 256 g _ p j (c2 j) rfl

/-! ## One gated recurrent update, entry by entry -/

/-- The update's arithmetic at `(p, j)` from the two gate blocks `gi`, `gh` and the state `h`: the reset and update
    gates are logistics of the first and second blocks' sums, the candidate the hyperbolic tangent of the third
    input block plus the reset gate times the third state block. -/
theorem cell_apply (gi gh : FVec Ideal S2000x384 .f32) (h : FVec Ideal S2000x128 .f32) (p : Fin 2000) (j : Fin 128) :
    addf
        (mulf
          (subf (broadcast S2000x128 (Scalar.ofBits (F := Ideal) .f32 0x3F800000#32))
            (logistic (addf (extractStridedSlice S2000x128 ![0, 128] gi slices_S2000x384_o0_128_S2000x128)
              (extractStridedSlice S2000x128 ![0, 128] gh slices_S2000x384_o0_128_S2000x128))))
          (tanh (addf (extractStridedSlice S2000x128 ![0, 256] gi slices_S2000x384_o0_256_S2000x128)
            (mulf
              (logistic (addf (extractStridedSlice S2000x128 ![0, 0] gi slices_S2000x384_o0_0_S2000x128)
                (extractStridedSlice S2000x128 ![0, 0] gh slices_S2000x384_o0_0_S2000x128)))
              (extractStridedSlice S2000x128 ![0, 256] gh slices_S2000x384_o0_256_S2000x128)))))
        (mulf
          (logistic (addf (extractStridedSlice S2000x128 ![0, 128] gi slices_S2000x384_o0_128_S2000x128)
            (extractStridedSlice S2000x128 ![0, 128] gh slices_S2000x384_o0_128_S2000x128)))
          h) (ix2 p j)
      = (1 - Ideal.logistic (gi (ix2 p (c1 j)) + gh (ix2 p (c1 j))))
            * Ideal.tanh (gi (ix2 p (c2 j)) + Ideal.logistic (gi (ix2 p (c0 j)) + gh (ix2 p (c0 j))) * gh (ix2 p (c2 j)))
          + Ideal.logistic (gi (ix2 p (c1 j)) + gh (ix2 p (c1 j))) * h (ix2 p j) := by
  simp only [addf, mulf, subf, tanh, logistic, broadcast, sl0, sl1, sl2, Ideal.addf_def, Ideal.mulf_def, Ideal.subf_def,
    Ideal.tanh_def, Ideal.logistic_def, Ideal.ofBits_def, Cert.Spec.ofBits_one]

/-! ## The three updates as the kernel writes them -/

/-- The first update: input the node block, state the aggregate block. -/
theorem pay3_apply (x0 x1 : FVec Ideal S2000x128 .f32) (W U : FVec Ideal S128x384 .f32) (b c : FVec Ideal S384 .f32)
    (p : Fin 2000) (j : Fin 128) :
    k1_pay3 (F := Ideal) x0 x1 W U b c (ix2 p j) = gru W U b c (row x0 p) (row x1 p) j := by
  simp only [k1_pay3, k1_pay2, shapeCast_self]
  refine (cell_apply _ _ _ p j).trans ?_
  simp only [gates_apply]
  rfl

/-- The second update: input the aggregate block, state the first update's result `h1`. -/
theorem pay7_apply (h1 x1 : FVec Ideal S2000x128 .f32) (W U : FVec Ideal S128x384 .f32) (b c : FVec Ideal S384 .f32)
    (p : Fin 2000) (j : Fin 128) :
    k1_pay7 (F := Ideal) h1 (k1_pay4 x1) (truncf .bf16 h1 bitsLt_bf16_f32) (k1_pay6 W) U b c (ix2 p j)
      = gru W U b c (row x1 p) (row h1 p) j := by
  simp only [k1_pay7, k1_pay4, k1_pay6, k1_pay2, shapeCast_self]
  refine (cell_apply _ _ _ p j).trans ?_
  simp only [gates_apply]
  rfl

/-- The third update's arithmetic over its two gate blocks, the first two input blocks passed in already cut. -/
theorem pay1_apply (gi gh : FVec Ideal S2000x384 .f32) (h : FVec Ideal S2000x128 .f32) (p : Fin 2000) (j : Fin 128) :
    k1_pay1 (F := Ideal) h gi gh (extractStridedSlice S2000x128 ![0, 0] gi slices_S2000x384_o0_0_S2000x128)
        (extractStridedSlice S2000x128 ![0, 128] gi slices_S2000x384_o0_128_S2000x128) (ix2 p j)
      = (1 - Ideal.logistic (gi (ix2 p (c1 j)) + gh (ix2 p (c1 j))))
            * Ideal.tanh (gi (ix2 p (c2 j)) + Ideal.logistic (gi (ix2 p (c0 j)) + gh (ix2 p (c0 j))) * gh (ix2 p (c2 j)))
          + Ideal.logistic (gi (ix2 p (c1 j)) + gh (ix2 p (c1 j))) * h (ix2 p j) := by
  simp only [k1_pay1]
  exact cell_apply gi gh h p j

/-- The output block at `(r, j)`. -/
theorem out_apply (x0 x1 : Vec Ideal S2000x128 .f32)
    (x2 x3 : Vec Ideal S128x384 .f32) (x4 x5 : Vec Ideal S384 .f32)
    (x6 x7 : Vec Ideal S128x384 .f32) (x8 x9 : Vec Ideal S384 .f32)
    (x10 x11 : Vec Ideal S128x384 .f32) (x12 x13 : Vec Ideal S384 .f32)
    (r : Fin 2000) (j : Fin 128) :
    out1_14 (F := Ideal) x0 x1 x2 x3 x4 x5 x6 x7 x8 x9 x10 x11 x12 x13 (ix2 r j)
      = gru3 x2 x3 x4 x5 x6 x7 x8 x9 x10 x11 x12 x13 (row x0 r) (row x1 r) j := by
  unfold out1_14
  rw [View.canon_unit_zero hz2]
  simp only [View.ld_unit_zero (S := S2000x128) hz2, View.ld_unit_zero (S := S128x384) hz2,
    View.ld_unit_zero (S := S384) hz1]
  simp only [k1_pay10, k1_pay11]
  refine (pay1_apply _ _ _ r j).trans ?_
  simp only [k1_pay8, k1_pay9, k1_pay5, gates_apply]
  have e1 : row (k1_pay3 (F := Ideal) x0 x1 x2 x3 x4 x5) r = gru x2 x3 x4 x5 (row x0 r) (row x1 r) :=
    funext fun c => pay3_apply x0 x1 x2 x3 x4 x5 r c
  have e2 : row (k1_pay7 (F := Ideal) (k1_pay3 x0 x1 x2 x3 x4 x5) (k1_pay4 x1)
        (truncf .bf16 (k1_pay3 x0 x1 x2 x3 x4 x5) bitsLt_bf16_f32) (k1_pay6 x6) x7 x8 x9) r
      = gru x6 x7 x8 x9 (row x1 r) (row (k1_pay3 (F := Ideal) x0 x1 x2 x3 x4 x5) r) :=
    funext fun c => pay7_apply (k1_pay3 x0 x1 x2 x3 x4 x5) x1 x6 x7 x8 x9 r c
  rw [pay7_apply, e2, e1]
  rfl

end Cert.KGruBody

end
-- ==== Proof.KArr0.lean ====
/-
  From blocks to arrays for the message kernel. The grid has 245 points; point `t` reads rows `2048 t … 2048 t + 2047` of
  the three edge-indexed inputs and the whole of each weight, and writes the same rows of the two outputs. Every row of
  an output lies in exactly the block of the point `row / 2048`, so after the run each output array is the perceptron
  applied along the rows of the inputs as the region found them.
-/
import proofs.«128451_j72730976190873_1_alg».proof.Proof.Gen.KernelIdeal.Frame
import proofs.«128451_j72730976190873_1_alg».proof.Proof.Spec
import Idealize.ShloMosaic.Lib.ValueIdx
import Idealize.ShloMosaic.Lib.Pipeline.Value

set_option maxRecDepth 16384

noncomputable section

namespace Cert.KArr0

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

/-! ## Where each window's block lies -/

/-- The block index of each window at each of the 245 points: the row-blocked windows (the three edge-indexed
    inputs and the two outputs) are at block `t` of the rows and block 0 of the columns; each weight window is at
    block 0 on every axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- An index of the forward output array is in point `t`'s block iff each coordinate is in the block's range. -/
theorem mem_blk_fwd (t : Fin cfg0.N) (i : S501760x128.Idx) :
    i ∈ ((cfg0.win 9).blk t).view.set ↔ ∀ a : Fin 2, win0_9.index t a * S2048x128.size a ≤ (i a).val ∧ (i a).val < win0_9.index t a * S2048x128.size a + S2048x128.size a := by
  show i ∈ ((View.whole main_v19_0).slice (win0_9.rect t)).set ↔ _
  rw [View.set_slice_whole, Rect.mem_set_unit]
  exact Iff.rfl

/-- Row `R` of the forward output lies in the block of the point `R / 2048`. -/
theorem cover_fwd (i : S501760x128.Idx) :
    ∃ t : Fin cfg0.N, (cfg0.win 9).flush t = true ∧ i ∈ ((cfg0.win 9).blk t).view.set := by
  have hi0 : (i 0).val < 501760 := (i 0).isLt
  have hi1 : (i 1).val < 128 := (i 1).isLt
  have ht : (i 0).val / 2048 < 245 := by omega
  obtain ⟨-, -, -, -, -, -, e0, e1, -⟩ := idx_facts ⟨(i 0).val / 2048, ht⟩
  refine ⟨⟨(i 0).val / 2048, ht⟩, flush0_9 _, ?_⟩
  rw [mem_blk_fwd]
  intro a
  match a with
  | ⟨0, _⟩ =>
    show win0_9.index ⟨(i 0).val / 2048, ht⟩ (0 : Fin 2) * 2048 ≤ (i 0).val ∧ (i 0).val < win0_9.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_9.index ⟨(i 0).val / 2048, ht⟩ (1 : Fin 2) * 128 ≤ (i 1).val ∧ (i 1).val < win0_9.index ⟨(i 0).val / 2048, ht⟩ (1 : Fin 2) * 128 + 128
    rw [e1]
    omega

/-- An index of the backward output array is in point `t`'s block iff each coordinate is in the block's range. -/
theorem mem_blk_rev (t : Fin cfg0.N) (i : S501760x128.Idx) :
    i ∈ ((cfg0.win 10).blk t).view.set ↔ ∀ a : Fin 2, win0_10.index t a * S2048x128.size a ≤ (i a).val ∧ (i a).val < win0_10.index t a * S2048x128.size a + S2048x128.size a := by
  show i ∈ ((View.whole main_v19_1).slice (win0_10.rect t)).set ↔ _
  rw [View.set_slice_whole, Rect.mem_set_unit]
  exact Iff.rfl

/-- Row `R` of the backward output lies in the block of the point `R / 2048`. -/
theorem cover_rev (i : S501760x128.Idx) :
    ∃ t : Fin cfg0.N, (cfg0.win 10).flush t = true ∧ i ∈ ((cfg0.win 10).blk t).view.set := by
  have hi0 : (i 0).val < 501760 := (i 0).isLt
  have hi1 : (i 1).val < 128 := (i 1).isLt
  have ht : (i 0).val / 2048 < 245 := by omega
  obtain ⟨-, -, -, -, -, -, -, -, e0, e1, -⟩ := idx_facts ⟨(i 0).val / 2048, ht⟩
  refine ⟨⟨(i 0).val / 2048, ht⟩, flush0_10 _, ?_⟩
  rw [mem_blk_rev]
  intro a
  match a with
  | ⟨0, _⟩ =>
    show win0_10.index ⟨(i 0).val / 2048, ht⟩ (0 : Fin 2) * 2048 ≤ (i 0).val ∧ (i 0).val < win0_10.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_10.index ⟨(i 0).val / 2048, ht⟩ (1 : Fin 2) * 128 ≤ (i 1).val ∧ (i 1).val < win0_10.index ⟨(i 0).val / 2048, ht⟩ (1 : Fin 2) * 128 + 128
    rw [e1]
    omega

/-! ## The input blocks, read off their arrays -/

/-- Window 0's block at point `t`, read along its row `r`, is row `2048 t + r` of its array. -/
theorem row_iblk_0 (c : Dev nD) (t : Fin cfg0.N) (r : Fin 2048) (h : t.val * 2048 + r.val < 501760) :
    row (R := 2048) (C := 128) (iblk0 (F := Ideal) V c 0 t) r = row (R := 501760) (C := 128) (V c main_v11) ⟨t.val * 2048 + r.val, h⟩ := by
  obtain ⟨a0, a1, b0, b1, c0, c1, -⟩ := idx_facts t
  funext col
  show V c main_v11 (((cfg0.win 0).blk t).view.emb (ix2 r col)) = V c main_v11 (ix2 (⟨t.val * 2048 + r.val, h⟩ : Fin 501760) col)
  refine congrArg (V c main_v11) (funext fun a => Fin.ext ?_)
  match a with
  | ⟨0, _⟩ =>
    show win0_0.index t (0 : Fin 2) * 2048 + 1 * r.val = t.val * 2048 + r.val
    omega
  | ⟨1, _⟩ =>
    show win0_0.index t (1 : Fin 2) * 128 + 1 * col.val = col.val
    omega

/-- Window 1's block at point `t`, read along its row `r`, is row `2048 t + r` of its array. -/
theorem row_iblk_1 (c : Dev nD) (t : Fin cfg0.N) (r : Fin 2048) (h : t.val * 2048 + r.val < 501760) :
    row (R := 2048) (C := 128) (iblk0 (F := Ideal) V c 1 t) r = row (R := 501760) (C := 128) (V c main_v18) ⟨t.val * 2048 + r.val, h⟩ := by
  obtain ⟨a0, a1, b0, b1, c0, c1, -⟩ := idx_facts t
  funext col
  show V c main_v18 (((cfg0.win 1).blk t).view.emb (ix2 r col)) = V c main_v18 (ix2 (⟨t.val * 2048 + r.val, h⟩ : Fin 501760) col)
  refine congrArg (V c main_v18) (funext fun a => Fin.ext ?_)
  match a with
  | ⟨0, _⟩ =>
    show win0_1.index t (0 : Fin 2) * 2048 + 1 * r.val = t.val * 2048 + r.val
    omega
  | ⟨1, _⟩ =>
    show win0_1.index t (1 : Fin 2) * 128 + 1 * col.val = col.val
    omega

/-- Window 2's block at point `t`, read along its row `r`, is row `2048 t + r` of its array. -/
theorem row_iblk_2 (c : Dev nD) (t : Fin cfg0.N) (r : Fin 2048) (h : t.val * 2048 + r.val < 501760) :
    row (R := 2048) (C := 128) (iblk0 (F := Ideal) V c 2 t) r = row (R := 501760) (C := 128) (V c main_v4) ⟨t.val * 2048 + r.val, h⟩ := by
  obtain ⟨a0, a1, b0, b1, c0, c1, -⟩ := idx_facts t
  funext col
  show V c main_v4 (((cfg0.win 2).blk t).view.emb (ix2 r col)) = V c main_v4 (ix2 (⟨t.val * 2048 + r.val, h⟩ : Fin 501760) col)
  refine congrArg (V c main_v4) (funext fun a => Fin.ext ?_)
  match a with
  | ⟨0, _⟩ =>
    show win0_2.index t (0 : Fin 2) * 2048 + 1 * r.val = t.val * 2048 + r.val
    omega
  | ⟨1, _⟩ =>
    show win0_2.index t (1 : Fin 2) * 128 + 1 * col.val = col.val
    omega

/-- Window 3's block at every point is its whole array. -/
theorem iblk_3 (c : Dev nD) (t : Fin cfg0.N) : (iblk0 (F := Ideal) V c 3 t : Vec Ideal S384x128 .f32) = V c main_arg5 := by
  obtain ⟨-, -, -, -, -, -, -, -, -, -, d0, d1, e0, f0, f1, g0, h0, h1, k0⟩ := idx_facts t
  funext y
  show V c main_arg5 (((cfg0.win 3).blk t).view.emb y) = V c main_arg5 y
  refine congrArg (V c main_arg5) (funext fun a => Fin.ext ?_)
  match a with
  | ⟨0, _⟩ =>
    show win0_3.index t (0 : Fin 2) * 384 + 1 * (y 0).val = (y 0).val
    omega
  | ⟨1, _⟩ =>
    show win0_3.index t (1 : Fin 2) * 128 + 1 * (y 1).val = (y 1).val
    omega

/-- Window 4's block at every point is its whole array. -/
theorem iblk_4 (c : Dev nD) (t : Fin cfg0.N) : (iblk0 (F := Ideal) V c 4 t : Vec Ideal S128 .f32) = V c main_arg6 := by
  obtain ⟨-, -, -, -, -, -, -, -, -, -, d0, d1, e0, f0, f1, g0, h0, h1, k0⟩ := idx_facts t
  funext y
  show V c main_arg6 (((cfg0.win 4).blk t).view.emb y) = V c main_arg6 y
  refine congrArg (V c main_arg6) (funext fun a => Fin.ext ?_)
  match a with
  | ⟨0, _⟩ =>
    show win0_4.index t (0 : Fin 1) * 128 + 1 * (y 0).val = (y 0).val
    omega

/-- Window 5's block at every point is its whole array. -/
theorem iblk_5 (c : Dev nD) (t : Fin cfg0.N) : (iblk0 (F := Ideal) V c 5 t : Vec Ideal S128x128 .f32) = V c main_arg7 := by
  obtain ⟨-, -, -, -, -, -, -, -, -, -, d0, d1, e0, f0, f1, g0, h0, h1, k0⟩ := idx_facts t
  funext y
  show V c main_arg7 (((cfg0.win 5).blk t).view.emb y) = V c main_arg7 y
  refine congrArg (V c main_arg7) (funext fun a => Fin.ext ?_)
  match a with
  | ⟨0, _⟩ =>
    show win0_5.index t (0 : Fin 2) * 128 + 1 * (y 0).val = (y 0).val
    omega
  | ⟨1, _⟩ =>
    show win0_5.index t (1 : Fin 2) * 128 + 1 * (y 1).val = (y 1).val
    omega

/-- Window 6's block at every point is its whole array. -/
theorem iblk_6 (c : Dev nD) (t : Fin cfg0.N) : (iblk0 (F := Ideal) V c 6 t : Vec Ideal S128 .f32) = V c main_arg8 := by
  obtain ⟨-, -, -, -, -, -, -, -, -, -, d0, d1, e0, f0, f1, g0, h0, h1, k0⟩ := idx_facts t
  funext y
  show V c main_arg8 (((cfg0.win 6).blk t).view.emb y) = V c main_arg8 y
  refine congrArg (V c main_arg8) (funext fun a => Fin.ext ?_)
  match a with
  | ⟨0, _⟩ =>
    show win0_6.index t (0 : Fin 1) * 128 + 1 * (y 0).val = (y 0).val
    omega

/-- Window 7's block at every point is its whole array. -/
theorem iblk_7 (c : Dev nD) (t : Fin cfg0.N) : (iblk0 (F := Ideal) V c 7 t : Vec Ideal S128x128 .f32) = V c main_arg9 := by
  obtain ⟨-, -, -, -, -, -, -, -, -, -, d0, d1, e0, f0, f1, g0, h0, h1, k0⟩ := idx_facts t
  funext y
  show V c main_arg9 (((cfg0.win 7).blk t).view.emb y) = V c main_arg9 y
  refine congrArg (V c main_arg9) (funext fun a => Fin.ext ?_)
  match a with
  | ⟨0, _⟩ =>
    show win0_7.index t (0 : Fin 2) * 128 + 1 * (y 0).val = (y 0).val
    omega
  | ⟨1, _⟩ =>
    show win0_7.index t (1 : Fin 2) * 128 + 1 * (y 1).val = (y 1).val
    omega

/-- Window 8's block at every point is its whole array. -/
theorem iblk_8 (c : Dev nD) (t : Fin cfg0.N) : (iblk0 (F := Ideal) V c 8 t : Vec Ideal S128 .f32) = V c main_arg10 := by
  obtain ⟨-, -, -, -, -, -, -, -, -, -, d0, d1, e0, f0, f1, g0, h0, h1, k0⟩ := idx_facts t
  funext y
  show V c main_arg10 (((cfg0.win 8).blk t).view.emb y) = V c main_arg10 y
  refine congrArg (V c main_arg10) (funext fun a => Fin.ext ?_)
  match a with
  | ⟨0, _⟩ =>
    show win0_8.index t (0 : Fin 1) * 128 + 1 * (y 0).val = (y 0).val
    omega

/-! ## What a point writes back -/

/-- What point `t` writes back to the forward output is block `t` of the perceptron applied along the rows. -/
theorem flushed_fwd
    (hbody : ∀ (x0 x1 x2 : Vec Ideal S2048x128 .f32) (x3 : Vec Ideal S384x128 .f32) (x4 : Vec Ideal S128 .f32)
      (x5 : Vec Ideal S128x128 .f32) (x6 : Vec Ideal S128 .f32) (x7 : Vec Ideal S128x128 .f32) (x8 : Vec Ideal S128 .f32)
      (r : Fin 2048) (j : Fin 128),
      out0_9 (F := Ideal) x0 x1 x2 x3 x4 x5 x6 x7 x8 (ix2 r j) = mlp x3 x4 x5 x6 x7 x8 (row x0 r) (row x1 r) (row x2 r) j)
    (c : Dev nD) (t : Fin cfg0.N) :
    (dat0 (F := Ideal) V c).flushed 9 t = ((cfg0.win 9).blk t).view.read (Elt Ideal)
      (mapRows3 (R := 501760) (mlp (V c main_arg5) (V c main_arg6) (V c main_arg7) (V c main_arg8) (V c main_arg9) (V c main_arg10))
        (V c main_v11) (V c main_v18) (V c main_v4)) := by
  show (cfg0.win 9).cut (grid0.coords t) ((dat0 V c).after 9 t) = _
  rw [after0_9]
  funext y
  obtain ⟨r, j, rfl⟩ : ∃ (r : Fin 2048) (j : Fin 128), y = ix2 r j :=
    ⟨⟨(y 0).val, (y 0).isLt⟩, ⟨(y 1).val, (y 1).isLt⟩, funext fun a => Fin.ext (by
      match a with
      | ⟨0, _⟩ => rfl
      | ⟨1, _⟩ => rfl)⟩
  have ht : t.val < 245 := t.isLt
  have hr : r.val < 2048 := r.isLt
  have hR : t.val * 2048 + r.val < 501760 := by omega
  obtain ⟨-, -, -, -, -, -, p0, p1, q0, q1, -⟩ := idx_facts t
  have hemb : ((cfg0.win 9).blk t).view.emb (ix2 r j) = (ix2 (⟨t.val * 2048 + r.val, hR⟩ : Fin 501760) j : S501760x128.Idx) :=
    funext fun a => Fin.ext (by
      match a with
      | ⟨0, _⟩ =>
        show win0_9.index t (0 : Fin 2) * 2048 + 1 * r.val = t.val * 2048 + r.val
        omega
      | ⟨1, _⟩ =>
        show win0_9.index t (1 : Fin 2) * 128 + 1 * j.val = j.val
        omega)
  show out0_9 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (ix2 r j)
    = mapRows3 (R := 501760) (mlp (V c main_arg5) (V c main_arg6) (V c main_arg7) (V c main_arg8) (V c main_arg9) (V c main_arg10))
        (V c main_v11) (V c main_v18) (V c main_v4) (((cfg0.win 9).blk t).view.emb (ix2 r j))
  rw [hemb, mapRows3_apply]
  refine (hbody (iblk0 V c 0 t) (iblk0 V c 1 t) (iblk0 V c 2 t) (iblk0 V c 3 t) (iblk0 V c 4 t) (iblk0 V c 5 t)
      (iblk0 V c 6 t) (iblk0 V c 7 t) (iblk0 V c 8 t) r j).trans ?_
  rw [row_iblk_0 V c t r hR, row_iblk_1 V c t r hR, row_iblk_2 V c t r hR, iblk_3 V c t, iblk_4 V c t, iblk_5 V c t,
    iblk_6 V c t, iblk_7 V c t, iblk_8 V c t]

/-- What point `t` writes back to the backward output is block `t` of the perceptron applied along the rows. -/
theorem flushed_rev
    (hbody : ∀ (x0 x1 x2 : Vec Ideal S2048x128 .f32) (x3 : Vec Ideal S384x128 .f32) (x4 : Vec Ideal S128 .f32)
      (x5 : Vec Ideal S128x128 .f32) (x6 : Vec Ideal S128 .f32) (x7 : Vec Ideal S128x128 .f32) (x8 : Vec Ideal S128 .f32)
      (r : Fin 2048) (j : Fin 128),
      out0_10 (F := Ideal) x0 x1 x2 x3 x4 x5 x6 x7 x8 (ix2 r j) = mlp x3 x4 x5 x6 x7 x8 (row x1 r) (row x0 r) (row x2 r) j)
    (c : Dev nD) (t : Fin cfg0.N) :
    (dat0 (F := Ideal) V c).flushed 10 t = ((cfg0.win 10).blk t).view.read (Elt Ideal)
      (mapRows3 (R := 501760) (mlp (V c main_arg5) (V c main_arg6) (V c main_arg7) (V c main_arg8) (V c main_arg9) (V c main_arg10))
        (V c main_v18) (V c main_v11) (V c main_v4)) := by
  show (cfg0.win 10).cut (grid0.coords t) ((dat0 V c).after 10 t) = _
  rw [after0_10]
  funext y
  obtain ⟨r, j, rfl⟩ : ∃ (r : Fin 2048) (j : Fin 128), y = ix2 r j :=
    ⟨⟨(y 0).val, (y 0).isLt⟩, ⟨(y 1).val, (y 1).isLt⟩, funext fun a => Fin.ext (by
      match a with
      | ⟨0, _⟩ => rfl
      | ⟨1, _⟩ => rfl)⟩
  have ht : t.val < 245 := t.isLt
  have hr : r.val < 2048 := r.isLt
  have hR : t.val * 2048 + r.val < 501760 := by omega
  obtain ⟨-, -, -, -, -, -, p0, p1, q0, q1, -⟩ := idx_facts t
  have hemb : ((cfg0.win 10).blk t).view.emb (ix2 r j) = (ix2 (⟨t.val * 2048 + r.val, hR⟩ : Fin 501760) j : S501760x128.Idx) :=
    funext fun a => Fin.ext (by
      match a with
      | ⟨0, _⟩ =>
        show win0_10.index t (0 : Fin 2) * 2048 + 1 * r.val = t.val * 2048 + r.val
        omega
      | ⟨1, _⟩ =>
        show win0_10.index t (1 : Fin 2) * 128 + 1 * j.val = j.val
        omega)
  show out0_10 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (ix2 r j)
    = mapRows3 (R := 501760) (mlp (V c main_arg5) (V c main_arg6) (V c main_arg7) (V c main_arg8) (V c main_arg9) (V c main_arg10))
        (V c main_v18) (V c main_v11) (V c main_v4) (((cfg0.win 10).blk t).view.emb (ix2 r j))
  rw [hemb, mapRows3_apply]
  refine (hbody (iblk0 V c 0 t) (iblk0 V c 1 t) (iblk0 V c 2 t) (iblk0 V c 3 t) (iblk0 V c 4 t) (iblk0 V c 5 t)
      (iblk0 V c 6 t) (iblk0 V c 7 t) (iblk0 V c 8 t) r j).trans ?_
  rw [row_iblk_0 V c t r hR, row_iblk_1 V c t r hR, row_iblk_2 V c t r hR, iblk_3 V c t, iblk_4 V c t, iblk_5 V c t,
    iblk_6 V c t, iblk_7 V c t, iblk_8 V c t]

/-! ## The arrays after the run -/

/-- The forward output array after the run, given what the body leaves in the forward block entry by entry. -/
theorem arr_fwd
    (hbody : ∀ (x0 x1 x2 : Vec Ideal S2048x128 .f32) (x3 : Vec Ideal S384x128 .f32) (x4 : Vec Ideal S128 .f32)
      (x5 : Vec Ideal S128x128 .f32) (x6 : Vec Ideal S128 .f32) (x7 : Vec Ideal S128x128 .f32) (x8 : Vec Ideal S128 .f32)
      (r : Fin 2048) (j : Fin 128),
      out0_9 (F := Ideal) x0 x1 x2 x3 x4 x5 x6 x7 x8 (ix2 r j) = mlp x3 x4 x5 x6 x7 x8 (row x0 r) (row x1 r) (row x2 r) j)
    (c : Dev nD) :
    (dat0 (F := Ideal) V c).arrAt 9 cfg0.N
      = mapRows3 (R := 501760) (mlp (V c main_arg5) (V c main_arg6) (V c main_arg7) (V c main_arg8) (V c main_arg9) (V c main_arg10))
          (V c main_v11) (V c main_v18) (V c main_v4) := by
  -- every row lies in the block of the point `row / 2048`, and each point writes back its block of the row-wise perceptron
  exact (dat0 (F := Ideal) V c).arrAt_eq_of_cover 9 _ (fun t _ => flushed_fwd V hbody c t) cover_fwd

/-- The backward output array after the run, given what the body leaves in the backward block: the source and
    target rows change places. -/
theorem arr_rev
    (hbody : ∀ (x0 x1 x2 : Vec Ideal S2048x128 .f32) (x3 : Vec Ideal S384x128 .f32) (x4 : Vec Ideal S128 .f32)
      (x5 : Vec Ideal S128x128 .f32) (x6 : Vec Ideal S128 .f32) (x7 : Vec Ideal S128x128 .f32) (x8 : Vec Ideal S128 .f32)
      (r : Fin 2048) (j : Fin 128),
      out0_10 (F := Ideal) x0 x1 x2 x3 x4 x5 x6 x7 x8 (ix2 r j) = mlp x3 x4 x5 x6 x7 x8 (row x1 r) (row x0 r) (row x2 r) j)
    (c : Dev nD) :
    (dat0 (F := Ideal) V c).arrAt 10 cfg0.N
      = mapRows3 (R := 501760) (mlp (V c main_arg5) (V c main_arg6) (V c main_arg7) (V c main_arg8) (V c main_arg9) (V c main_arg10))
          (V c main_v18) (V c main_v11) (V c main_v4) := by
  -- the same tiling; the body's backward block has the source and target rows exchanged
  exact (dat0 (F := Ideal) V c).arrAt_eq_of_cover 10 _ (fun t _ => flushed_rev V hbody c t) cover_rev

end Cert.KArr0

end
-- ==== Proof.KArr1.lean ====
/-
  From blocks to the array for the node-update kernel. The grid has 25 points; point `t` reads rows `2000 t … 2000 t + 1999`
  of the node rows and of the aggregate and the whole of each weight, and writes the same rows of the output. Every row
  of the output lies in exactly the block of the point `row / 2000`, so after the run the output array is the three gated
  updates applied along the rows of the inputs as the region found them.
-/
import proofs.«128451_j72730976190873_1_alg».proof.Proof.Gen.KernelIdeal.Frame
import proofs.«128451_j72730976190873_1_alg».proof.Proof.Spec
import Idealize.ShloMosaic.Lib.ValueIdx
import Idealize.ShloMosaic.Lib.Pipeline.Value

set_option maxRecDepth 16384

noncomputable section

namespace Cert.KArr1

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

/-- Where each window's block sits at point `t`: the node rows, the aggregate and the output at block `t` along the
    rows and block 0 along the columns; every weight at block 0 on every axis. Decided over the 25 points. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_14.index t (0 : Fin 2) = t.val ∧ win1_14.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ win1_4.index t (0 : Fin 1) = 0
    ∧ win1_5.index t (0 : Fin 1) = 0
    ∧ (win1_6.index t (0 : Fin 2) = 0 ∧ win1_6.index t (1 : Fin 2) = 0)
    ∧ (win1_7.index t (0 : Fin 2) = 0 ∧ win1_7.index t (1 : Fin 2) = 0)
    ∧ win1_8.index t (0 : Fin 1) = 0
    ∧ win1_9.index t (0 : Fin 1) = 0
    ∧ (win1_10.index t (0 : Fin 2) = 0 ∧ win1_10.index t (1 : Fin 2) = 0)
    ∧ (win1_11.index t (0 : Fin 2) = 0 ∧ win1_11.index t (1 : Fin 2) = 0)
    ∧ win1_12.index t (0 : Fin 1) = 0
    ∧ win1_13.index t (0 : Fin 1) = 0 :=
  (by decide +kernel : ∀ t : Fin grid1.N, _)

/-- A point is one of 25. -/
theorem point_lt (t : Fin cfg1.N) : t.val < 25 := by
  have h : t.val < grid1.N := t.isLt
  rw [N_1] at h
  exact h

/-- Entry `(r, j)` of the output's block at point `t` is entry `(2000 t + r, j)` of the output array. -/
theorem emb_out (t : Fin cfg1.N) (r : Fin 2000) (j : Fin 128) (h : t.val * 2000 + r.val < 50000) :
    ((cfg1.win 14).blk t).view.emb (ix2 r j) = ix2 (⟨t.val * 2000 + r.val, h⟩ : Fin 50000) j := by
  obtain ⟨-, -, ⟨e0, e1⟩, -⟩ := idx_facts t
  funext a; apply Fin.ext
  match a with
  | ⟨0, _⟩ => show win1_14.index t (0 : Fin 2) * 2000 + 1 * r.val = t.val * 2000 + r.val; omega
  | ⟨1, _⟩ => show win1_14.index t (1 : Fin 2) * 128 + 1 * j.val = j.val; omega

/-- Row `r` of the node rows' block at point `t` is row `2000 t + r` of the node rows. -/
theorem row_nodes (c : Dev nD) (t : Fin cfg1.N) (r : Fin 2000) (h : t.val * 2000 + r.val < 50000) :
    row (iblk1 V c 0 t) r = row (V c main_arg0) ⟨t.val * 2000 + r.val, h⟩ := by
  obtain ⟨⟨e0, e1⟩, -⟩ := idx_facts t
  unfold iblk1
  funext col
  show V c main_arg0 (((cfg1.win 0).blk t).view.emb (ix2 r col)) = V c main_arg0 (ix2 (⟨t.val * 2000 + r.val, h⟩ : Fin 50000) col)
  refine congrArg _ ?_
  funext a; apply Fin.ext
  match a with
  | ⟨0, _⟩ => show win1_0.index t (0 : Fin 2) * 2000 + 1 * r.val = t.val * 2000 + r.val; omega
  | ⟨1, _⟩ => show win1_0.index t (1 : Fin 2) * 128 + 1 * col.val = col.val; omega

/-- Row `r` of the aggregate's block at point `t` is row `2000 t + r` of the aggregate. -/
theorem row_agg (c : Dev nD) (t : Fin cfg1.N) (r : Fin 2000) (h : t.val * 2000 + r.val < 50000) :
    row (iblk1 V c 1 t) r = row (V c main_v28) ⟨t.val * 2000 + r.val, h⟩ := by
  obtain ⟨-, ⟨e0, e1⟩, -⟩ := idx_facts t
  unfold iblk1
  funext col
  show V c main_v28 (((cfg1.win 1).blk t).view.emb (ix2 r col)) = V c main_v28 (ix2 (⟨t.val * 2000 + r.val, h⟩ : Fin 50000) col)
  refine congrArg _ ?_
  funext a; apply Fin.ext
  match a with
  | ⟨0, _⟩ => show win1_1.index t (0 : Fin 2) * 2000 + 1 * r.val = t.val * 2000 + r.val; omega
  | ⟨1, _⟩ => show win1_1.index t (1 : Fin 2) * 128 + 1 * col.val = col.val; omega

/-- The block of the first update's input weight at any point is the whole array. -/
theorem blk_w2 (c : Dev nD) (t : Fin cfg1.N) : iblk1 V c 2 t = V c main_arg11 := by
  obtain ⟨-, -, -, ⟨e0, e1⟩, -⟩ := idx_facts t
  unfold iblk1
  funext y
  show V c main_arg11 (((cfg1.win 2).blk t).view.emb y) = V c main_arg11 y
  refine congrArg _ ?_
  funext a; apply Fin.ext
  match a with
  | ⟨0, _⟩ => show win1_2.index t (0 : Fin 2) * 128 + 1 * (y 0).val = (y 0).val; omega
  | ⟨1, _⟩ => show win1_2.index t (1 : Fin 2) * 384 + 1 * (y 1).val = (y 1).val; omega

/-- The block of the first update's state weight at any point is the whole array. -/
theorem blk_w3 (c : Dev nD) (t : Fin cfg1.N) : iblk1 V c 3 t = V c main_arg12 := by
  obtain ⟨-, -, -, -, ⟨e0, e1⟩, -⟩ := idx_facts t
  unfold iblk1
  funext y
  show V c main_arg12 (((cfg1.win 3).blk t).view.emb y) = V c main_arg12 y
  refine congrArg _ ?_
  funext a; apply Fin.ext
  match a with
  | ⟨0, _⟩ => show win1_3.index t (0 : Fin 2) * 128 + 1 * (y 0).val = (y 0).val; omega
  | ⟨1, _⟩ => show win1_3.index t (1 : Fin 2) * 384 + 1 * (y 1).val = (y 1).val; omega

/-- The block of the first update's input bias at any point is the whole array. -/
theorem blk_w4 (c : Dev nD) (t : Fin cfg1.N) : iblk1 V c 4 t = V c main_arg13 := by
  obtain ⟨-, -, -, -, -, e0, -⟩ := idx_facts t
  unfold iblk1
  funext y
  show V c main_arg13 (((cfg1.win 4).blk t).view.emb y) = V c main_arg13 y
  refine congrArg _ ?_
  funext a; apply Fin.ext
  match a with
  | ⟨0, _⟩ => show win1_4.index t (0 : Fin 1) * 384 + 1 * (y 0).val = (y 0).val; omega

/-- The block of the first update's state bias at any point is the whole array. -/
theorem blk_w5 (c : Dev nD) (t : Fin cfg1.N) : iblk1 V c 5 t = V c main_arg14 := by
  obtain ⟨-, -, -, -, -, -, e0, -⟩ := idx_facts t
  unfold iblk1
  funext y
  show V c main_arg14 (((cfg1.win 5).blk t).view.emb y) = V c main_arg14 y
  refine congrArg _ ?_
  funext a; apply Fin.ext
  match a with
  | ⟨0, _⟩ => show win1_5.index t (0 : Fin 1) * 384 + 1 * (y 0).val = (y 0).val; omega

/-- The block of the second update's input weight at any point is the whole array. -/
theorem blk_w6 (c : Dev nD) (t : Fin cfg1.N) : iblk1 V c 6 t = V c main_arg15 := by
  obtain ⟨-, -, -, -, -, -, -, ⟨e0, e1⟩, -⟩ := idx_facts t
  unfold iblk1
  funext y
  show V c main_arg15 (((cfg1.win 6).blk t).view.emb y) = V c main_arg15 y
  refine congrArg _ ?_
  funext a; apply Fin.ext
  match a with
  | ⟨0, _⟩ => show win1_6.index t (0 : Fin 2) * 128 + 1 * (y 0).val = (y 0).val; omega
  | ⟨1, _⟩ => show win1_6.index t (1 : Fin 2) * 384 + 1 * (y 1).val = (y 1).val; omega

/-- The block of the second update's state weight at any point is the whole array. -/
theorem blk_w7 (c : Dev nD) (t : Fin cfg1.N) : iblk1 V c 7 t = V c main_arg16 := by
  obtain ⟨-, -, -, -, -, -, -, -, ⟨e0, e1⟩, -⟩ := idx_facts t
  unfold iblk1
  funext y
  show V c main_arg16 (((cfg1.win 7).blk t).view.emb y) = V c main_arg16 y
  refine congrArg _ ?_
  funext a; apply Fin.ext
  match a with
  | ⟨0, _⟩ => show win1_7.index t (0 : Fin 2) * 128 + 1 * (y 0).val = (y 0).val; omega
  | ⟨1, _⟩ => show win1_7.index t (1 : Fin 2) * 384 + 1 * (y 1).val = (y 1).val; omega

/-- The block of the second update's input bias at any point is the whole array. -/
theorem blk_w8 (c : Dev nD) (t : Fin cfg1.N) : iblk1 V c 8 t = V c main_arg17 := by
  obtain ⟨-, -, -, -, -, -, -, -, -, e0, -⟩ := idx_facts t
  unfold iblk1
  funext y
  show V c main_arg17 (((cfg1.win 8).blk t).view.emb y) = V c main_arg17 y
  refine congrArg _ ?_
  funext a; apply Fin.ext
  match a with
  | ⟨0, _⟩ => show win1_8.index t (0 : Fin 1) * 384 + 1 * (y 0).val = (y 0).val; omega

/-- The block of the second update's state bias at any point is the whole array. -/
theorem blk_w9 (c : Dev nD) (t : Fin cfg1.N) : iblk1 V c 9 t = V c main_arg18 := by
  obtain ⟨-, -, -, -, -, -, -, -, -, -, e0, -⟩ := idx_facts t
  unfold iblk1
  funext y
  show V c main_arg18 (((cfg1.win 9).blk t).view.emb y) = V c main_arg18 y
  refine congrArg _ ?_
  funext a; apply Fin.ext
  match a with
  | ⟨0, _⟩ => show win1_9.index t (0 : Fin 1) * 384 + 1 * (y 0).val = (y 0).val; omega

/-- The block of the third update's input weight at any point is the whole array. -/
theorem blk_w10 (c : Dev nD) (t : Fin cfg1.N) : iblk1 V c 10 t = V c main_arg19 := by
  obtain ⟨-, -, -, -, -, -, -, -, -, -, -, ⟨e0, e1⟩, -⟩ := idx_facts t
  unfold iblk1
  funext y
  show V c main_arg19 (((cfg1.win 10).blk t).view.emb y) = V c main_arg19 y
  refine congrArg _ ?_
  funext a; apply Fin.ext
  match a with
  | ⟨0, _⟩ => show win1_10.index t (0 : Fin 2) * 128 + 1 * (y 0).val = (y 0).val; omega
  | ⟨1, _⟩ => show win1_10.index t (1 : Fin 2) * 384 + 1 * (y 1).val = (y 1).val; omega

/-- The block of the third update's state weight at any point is the whole array. -/
theorem blk_w11 (c : Dev nD) (t : Fin cfg1.N) : iblk1 V c 11 t = V c main_arg20 := by
  obtain ⟨-, -, -, -, -, -, -, -, -, -, -, -, ⟨e0, e1⟩, -⟩ := idx_facts t
  unfold iblk1
  funext y
  show V c main_arg20 (((cfg1.win 11).blk t).view.emb y) = V c main_arg20 y
  refine congrArg _ ?_
  funext a; apply Fin.ext
  match a with
  | ⟨0, _⟩ => show win1_11.index t (0 : Fin 2) * 128 + 1 * (y 0).val = (y 0).val; omega
  | ⟨1, _⟩ => show win1_11.index t (1 : Fin 2) * 384 + 1 * (y 1).val = (y 1).val; omega

/-- The block of the third update's input bias at any point is the whole array. -/
theorem blk_w12 (c : Dev nD) (t : Fin cfg1.N) : iblk1 V c 12 t = V c main_arg21 := by
  obtain ⟨-, -, -, -, -, -, -, -, -, -, -, -, -, e0, -⟩ := idx_facts t
  unfold iblk1
  funext y
  show V c main_arg21 (((cfg1.win 12).blk t).view.emb y) = V c main_arg21 y
  refine congrArg _ ?_
  funext a; apply Fin.ext
  match a with
  | ⟨0, _⟩ => show win1_12.index t (0 : Fin 1) * 384 + 1 * (y 0).val = (y 0).val; omega

/-- The block of the third update's state bias at any point is the whole array. -/
theorem blk_w13 (c : Dev nD) (t : Fin cfg1.N) : iblk1 V c 13 t = V c main_arg22 := by
  obtain ⟨-, -, -, -, -, -, -, -, -, -, -, -, -, -, e0⟩ := idx_facts t
  unfold iblk1
  funext y
  show V c main_arg22 (((cfg1.win 13).blk t).view.emb y) = V c main_arg22 y
  refine congrArg _ ?_
  funext a; apply Fin.ext
  match a with
  | ⟨0, _⟩ => show win1_13.index t (0 : Fin 1) * 384 + 1 * (y 0).val = (y 0).val; omega

/-- What point `t` writes back is block `t` of the three gated updates applied along the rows of the inputs. -/
theorem flushed_out
    (hbody : ∀ (x0 x1 : Vec Ideal S2000x128 .f32) (x2 x3 : Vec Ideal S128x384 .f32) (x4 x5 : Vec Ideal S384 .f32)
      (x6 x7 : Vec Ideal S128x384 .f32) (x8 x9 : Vec Ideal S384 .f32)
      (x10 x11 : Vec Ideal S128x384 .f32) (x12 x13 : Vec Ideal S384 .f32) (r : Fin 2000) (j : Fin 128),
      out1_14 (F := Ideal) x0 x1 x2 x3 x4 x5 x6 x7 x8 x9 x10 x11 x12 x13 (ix2 r j)
        = gru3 x2 x3 x4 x5 x6 x7 x8 x9 x10 x11 x12 x13 (row x0 r) (row x1 r) j)
    (c : Dev nD) (t : Fin cfg1.N) :
    (dat1 (F := Ideal) V c).flushed 14 t
      = ((cfg1.win 14).blk t).view.read (Elt Ideal)
          (mapRows2 (R := 50000)
            (gru3 (V c main_arg11) (V c main_arg12) (V c main_arg13) (V c main_arg14)
              (V c main_arg15) (V c main_arg16) (V c main_arg17) (V c main_arg18)
              (V c main_arg19) (V c main_arg20) (V c main_arg21) (V c main_arg22))
            (V c main_arg0) (V c main_v28)) := by
  show (cfg1.win 14).cut (grid1.coords t) ((dat1 V c).after 14 t) = _
  rw [after1_14]
  funext y
  obtain ⟨r, j, rfl⟩ : ∃ (r : Fin 2000) (j : Fin 128), y = ix2 r j := ⟨y 0, y 1, eq_ix2 y⟩
  have ht := point_lt t
  have hr : t.val * 2000 + r.val < 50000 := by have := r.isLt; omega
  show out1_14 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t)
        (iblk1 V c 12 t) (iblk1 V c 13 t) (ix2 r j)
      = mapRows2 (R := 50000)
          (gru3 (V c main_arg11) (V c main_arg12) (V c main_arg13) (V c main_arg14)
            (V c main_arg15) (V c main_arg16) (V c main_arg17) (V c main_arg18)
            (V c main_arg19) (V c main_arg20) (V c main_arg21) (V c main_arg22))
          (V c main_arg0) (V c main_v28) (((cfg1.win 14).blk t).view.emb (ix2 r j))
  rw [emb_out t r j hr, mapRows2_apply]
  refine (hbody (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t)
        (iblk1 V c 12 t) (iblk1 V c 13 t) r j).trans ?_
  rw [row_nodes V c t r hr, row_agg V c t r hr, blk_w2 V c t, blk_w3 V c t, blk_w4 V c t, blk_w5 V c t, blk_w6 V c t,
    blk_w7 V c t, blk_w8 V c t, blk_w9 V c t, blk_w10 V c t, blk_w11 V c t, blk_w12 V c t, blk_w13 V c t]

/-- An index of the output array is in point `t`'s block iff each coordinate is in the block's range on its axis. -/
theorem mem_blk_out (t : Fin cfg1.N) (i : S50000x128.Idx) :
    i ∈ ((cfg1.win 14).blk t).view.set
      ↔ ∀ a : Fin 2, win1_14.index t a * S2000x128.size a ≤ (i a).val
          ∧ (i a).val < win1_14.index t a * S2000x128.size a + S2000x128.size a := by
  show i ∈ ((View.whole main_v29).slice (win1_14.rect t)).set ↔ _
  rw [View.set_slice_whole, Rect.mem_set_unit]
  exact Iff.rfl

/-- The 25 blocks of 2000 rows tile the output: row `R` lies in the block of point `R / 2000`. -/
theorem cover_out (i : S50000x128.Idx) :
    ∃ t : Fin cfg1.N, (cfg1.win 14).flush t = true ∧ i ∈ ((cfg1.win 14).blk t).view.set := by
  have hi0 : (i 0).val < 50000 := (i 0).isLt
  have hi1 : (i 1).val < 128 := (i 1).isLt
  have hN : grid1.N = 25 := N_1
  let t : Fin cfg1.N := ⟨(i 0).val / 2000, by show (i 0).val / 2000 < grid1.N; omega⟩
  obtain ⟨-, -, ⟨e0, e1⟩, -⟩ := idx_facts t
  have hv : t.val = (i 0).val / 2000 := rfl
  refine ⟨t, flush1_14 t, ?_⟩
  rw [mem_blk_out]
  intro a
  match a with
  | ⟨0, _⟩ =>
    show win1_14.index t (0 : Fin 2) * 2000 ≤ (i 0).val ∧ (i 0).val < win1_14.index t (0 : Fin 2) * 2000 + 2000
    omega
  | ⟨1, _⟩ =>
    show win1_14.index t (1 : Fin 2) * 128 ≤ (i 1).val ∧ (i 1).val < win1_14.index t (1 : Fin 2) * 128 + 128
    omega

/-- The output array after the run, given what the body leaves in the output block entry by entry. -/
theorem arr_out
    (hbody : ∀ (x0 x1 : Vec Ideal S2000x128 .f32) (x2 x3 : Vec Ideal S128x384 .f32) (x4 x5 : Vec Ideal S384 .f32)
      (x6 x7 : Vec Ideal S128x384 .f32) (x8 x9 : Vec Ideal S384 .f32)
      (x10 x11 : Vec Ideal S128x384 .f32) (x12 x13 : Vec Ideal S384 .f32) (r : Fin 2000) (j : Fin 128),
      out1_14 (F := Ideal) x0 x1 x2 x3 x4 x5 x6 x7 x8 x9 x10 x11 x12 x13 (ix2 r j)
        = gru3 x2 x3 x4 x5 x6 x7 x8 x9 x10 x11 x12 x13 (row x0 r) (row x1 r) j)
    (c : Dev nD) :
    (dat1 (F := Ideal) V c).arrAt 14 cfg1.N
      = mapRows2 (R := 50000)
          (gru3 (V c main_arg11) (V c main_arg12) (V c main_arg13) (V c main_arg14)
            (V c main_arg15) (V c main_arg16) (V c main_arg17) (V c main_arg18)
            (V c main_arg19) (V c main_arg20) (V c main_arg21) (V c main_arg22))
          (V c main_arg0) (V c main_v28) := by
  exact (dat1 (F := Ideal) V c).arrAt_eq_of_cover 14 _ (fun t _ => flushed_out V hbody c t) cover_out

end Cert.KArr1

end
-- ==== Proof.KHost0.lean ====
/-
  The host stretches before the message kernel, read at an index. The node rows get one zero row appended; the two
  index vectors are padded with 1760 copies of the word 50000 (the appended row), the edge features with 1760 zero
  rows; the gather index wraps a negative word by 50001. A word in `[0, 50000)` is not negative, names a row of the
  extended table that is a row of the node rows, so the gathered row of an edge `e < 500000` is the node row its word
  names. No host operation writes an argument.
-/
import proofs.«128451_j72730976190873_1_alg».proof.Proof.Gen.KernelIdeal.Frame
import proofs.«128451_j72730976190873_1_alg».proof.Proof.Spec
import proofs.«128451_j72730976190873_1_alg».proof.Proof.LibRows
import Idealize.ShloMosaic.Lib.StableHlo.Run
import Idealize.ShloMosaic.Lib.KernelVsHost
import Idealize.ShloMosaic.Lib.ValueIdx
import Idealize.ShloMosaic.Lib.ValueLayout
import Idealize.ShloMosaic.Lib.Pipeline.Value

set_option maxRecDepth 16384

noncomputable section

namespace Cert.KHost0

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (m : (ℓ : Loc nD τ sig) → Buf (Elt Ideal) ℓ) (ρ : Dev nD → PrngReg)

/-- One stretch of host operations none of which writes the buffer read: the read passes to the contents before it. -/
local macro "skip_stretch " ops:ident : tactic => `(tactic|
  (refine Eq.trans (StableHlo.after_of_forall_not_mem _ _ (List.forall_iff_forall_mem.mp ?_)) ?_
   · simp only [$ops:ident, List.flatten_cons, List.flatten_nil, List.append_nil, List.cons_append,
       List.nil_append, List.Forall, StableHlo.nullary_writes, StableHlo.unary_writes, StableHlo.binary_writes,
       StableHlo.ternary_writes, StableHlo.quaternary_writes, StableHlo.reshape_writes, StableHlo.binaryIndexed_writes,
       Finset.mem_singleton]
     repeat' apply And.intro
     all_goals exact StableHlo.devRef_ne_of_ne (by decide)))

/-! ## The host operations read at an index, over plain arrays -/

section AtIndex
variable {α : Type}

/-- A vector of 500000 padded at its high end to 501760 reads the vector below 500000. -/
theorem padVec_lo (hp : S500000.Pads (![0] : Fin 1 → Nat) ![1760] ![0] S501760) (hu : 0 < S_.numel)
    (x : S500000.Idx → α) (v : S_.Idx → α) (e : Fin 500000) :
    pad S501760 ![0] ![1760] ![0] x v hp hu (ix1 (e.castLE (by decide : 500000 ≤ 501760))) = x (ix1 e) := by
  refine pad_apply_of_inside _ _ _ x v hp hu _ (ix1 e) fun a => ?_
  obtain rfl : a = 0 := Subsingleton.elim _ _
  show e.val = 0 + e.val * (0 + 1)
  omega

/-- … and the padding value from 500000 on. -/
theorem padVec_hi (hp : S500000.Pads (![0] : Fin 1 → Nat) ![1760] ![0] S501760) (hu : 0 < S_.numel)
    (x : S500000.Idx → α) (v : S_.Idx → α) (e : Fin 501760) (he : 500000 ≤ e.val) :
    pad S501760 ![0] ![1760] ![0] x v hp hu (ix1 e) = v (Shape.Idx.first hu) := by
  refine pad_apply_of_not_inside _ _ _ x v hp hu _ (0 : Fin 1) ?_
  rintro ⟨-, -, h3⟩
  change (e.val - 0) / (0 + 1) < 500000 at h3
  omega

/-- A matrix of 500000 rows padded with rows at its high end to 501760 reads the matrix below row 500000. -/
theorem padMat_lo (hp : S500000x128.Pads (![0, 0] : Fin 2 → Nat) ![1760, 0] ![0, 0] S501760x128) (hu : 0 < S_.numel)
    (x : S500000x128.Idx → α) (v : S_.Idx → α) (e : Fin 500000) (j : Fin 128) :
    pad S501760x128 ![0, 0] ![1760, 0] ![0, 0] x v hp hu (ix2 (e.castLE (by decide : 500000 ≤ 501760)) j) = x (ix2 e j) := by
  refine pad_apply_of_inside _ _ _ x v hp hu _ (ix2 e j) fun a => ?_
  match a with
  | ⟨0, _⟩ => show e.val = 0 + e.val * (0 + 1); omega
  | ⟨1, _⟩ => show j.val = 0 + j.val * (0 + 1); omega

/-- The wrapped gather index of a word that is not negative is the word. -/
theorem wrap_of_nonneg (hb : S_.BroadcastsInDim S501760 (![] : Fin 0 → Fin S501760.rank)) (v : IVec S501760 32) (r : Fin 501760)
    (h0 : 0 ≤ (v (ix1 r)).toInt) :
    select (cmpi .slt v (broadcastInDim S501760 ![] hb (constantI S_ 32 0#32)))
      (addi v (broadcastInDim S501760 ![] hb (constantI S_ 32 50001#32))) v (ix1 r) = v (ix1 r) := by
  show Scalar.select (IntOp.cmpi .slt (v (ix1 r)) 0#32) _ _ = _
  have hz : IntOp.cmpi .slt (v (ix1 r)) 0#32 = 0#1 := by
    refine eq_zero_of_ne_one fun h1 => ?_
    have := IntOp.cmpi_slt.1 h1
    rw [show (0#32 : BitVec 32).toInt = 0 from by decide] at this
    omega
  rw [hz, select_zero]

/-- The rows gathered from a table of 50001 rows by an index vector, each word wrapped by 50001 where negative. -/
abbrev gathOf (x : S50001x128.Idx → α) (v : IVec S501760 32) : S501760x128.Idx → α :=
  Host.gather gather_S50001x128_S501760x1_S501760x128_1_0_n_n_0_1_1128 x
    (broadcastInDim S501760x1 ![0] bcast_S501760_S501760x1_0
      (select (cmpi .slt v (broadcastInDim S501760 ![] bcast_S_S501760 (constantI S_ 32 0#32)))
        (addi v (broadcastInDim S501760 ![] bcast_S_S501760 (constantI S_ 32 50001#32))) v))

/-- The rows gathered from the node rows with one more row appended: at a row whose word names a node, the gathered
    row is that node's. -/
theorem gather_ext_apply (ns : S50000x128.Idx → α) (z : S1x128.Idx → α) (v : IVec S501760 32) (r : Fin 501760) (j : Fin 128)
    (w : BitVec 32) (hv : v (ix1 r) = w) (h0 : 0 ≤ w.toInt) (h1 : w.toInt < 50000) :
    gathOf (concatenate S50001x128 0 [⟨S50000x128, ns⟩, ⟨S1x128, z⟩] concatenates_S50000x128_S1x128_S50001x128_d0) v (ix2 r j)
      = ns (ix2 ⟨w.toInt.toNat, by omega⟩ j) := by
  subst hv
  -- the index column at row r is the word itself: the column reads the vector, and the wrap leaves a word that is not negative
  have hw : broadcastInDim S501760x1 ![0] bcast_S501760_S501760x1_0
      (select (cmpi .slt v (broadcastInDim S501760 ![] bcast_S_S501760 (constantI S_ 32 0#32)))
        (addi v (broadcastInDim S501760 ![] bcast_S_S501760 (constantI S_ 32 50001#32))) v) (ix2 r (0 : Fin 1)) = v (ix1 r) := by
    rw [Cert.LibRows.col_of_vec_apply, wrap_of_nonneg bcast_S_S501760 v r h0]
  unfold gathOf
  show Host.gather (Cert.LibRows.rowGather 50001 501760 128 gather_S50001x128_S501760x1_S501760x128_1_0_n_n_0_1_1128_wf) _ _ (ix2 r j) = _
  rw [Cert.LibRows.gather_rows_apply (by decide)]
  -- the clamp to the last row of the extended table does nothing below 50000, and such a row is a node row
  have key : ∀ (k : Fin 50001) (k' : Fin 50000), k'.val = k.val →
      concatenate S50001x128 0 [⟨S50000x128, ns⟩, ⟨S1x128, z⟩] concatenates_S50000x128_S1x128_S50001x128_d0 (ix2 k j) = ns (ix2 k' j) :=
    fun k k' hk =>
      concatenate_pair_apply_left (t := S50001x128) (s₁ := S50000x128) (s₂ := S1x128) (0 : Fin 2) ns z
        concatenates_S50000x128_S1x128_S50001x128_d0 (ix2 k j) rfl (ix2 k' j) fun b => match b with
          | ⟨0, _⟩ => hk
          | ⟨1, _⟩ => rfl
  refine key _ _ ?_
  show (v (ix1 r)).toInt.toNat = min (_ : BitVec 32).toInt.toNat (50001 - 1)
  rw [hw]; omega

end AtIndex

/-! ## Each stretch of host operations, from any contents at its entry -/

section Stretch
variable (V : Valuation τ sig (Elt Ideal))

theorem s0_v1 : StableHlo.after hostOps0 V (Proc.devRef .tc main_v1)
    = concatenate S50001x128 0 [⟨S50000x128, V (Proc.devRef .tc main_arg0)⟩,
        ⟨S1x128, broadcastInDim S1x128 ![] bcast_S_S1x128 (constant (F := Ideal) S_ .f32 0x00000000#32)⟩]
        concatenates_S50000x128_S1x128_S50001x128_d0 := by
  simp only [hostOps0]; after_results <;> rfl
theorem s0_c : StableHlo.after hostOps0 V (Proc.devRef .tc main_c) = constantI S_ 32 50000#32 := by
  simp only [hostOps0]; after_results <;> rfl
theorem s1_v2 : StableHlo.after hostOps0_1 V (Proc.devRef .tc main_v2)
    = pad S501760 ![0] ![1760] ![0] (V (Proc.devRef .tc main_arg2)) (V (Proc.devRef .tc main_c)) pads_S500000_S501760_017600 h_S_ := by
  simp only [hostOps0_1]; after_results <;> rfl
theorem s2_c : StableHlo.after hostOps0_2 V (Proc.devRef .tc main_c_0) = constantI S_ 32 50000#32 := by
  simp only [hostOps0_2]; after_results <;> rfl
theorem s3_v3 : StableHlo.after hostOps0_3 V (Proc.devRef .tc main_v3)
    = pad S501760 ![0] ![1760] ![0] (V (Proc.devRef .tc main_arg3)) (V (Proc.devRef .tc main_c_0)) pads_S500000_S501760_017600 h_S_ := by
  simp only [hostOps0_3]; after_results <;> rfl
theorem s4_c : StableHlo.after hostOps0_4 V (Proc.devRef .tc main_c_1) = constantI S_ 32 0#32 := by
  simp only [hostOps0_4]; after_results <;> rfl
theorem s5_v4 : StableHlo.after hostOps0_5 V (Proc.devRef .tc main_v4)
    = pad S501760x128 ![0, 0] ![1760, 0] ![0, 0] (V (Proc.devRef .tc main_arg1))
        (sitofp (F := Ideal) .f32 (V (Proc.devRef .tc main_c_1))) pads_S500000x128_S501760x128_017600_000 h_S_ := by
  simp only [hostOps0_5]; after_results <;> rfl

theorem s6_v11 : StableHlo.after hostOps0_6 V (Proc.devRef .tc main_v11)
    = gathOf (α := EReal) (V (Proc.devRef .tc main_v1)) (V (Proc.devRef .tc main_v2)) := by
  simp only [hostOps0_6]; after_results_simp <;> rfl
theorem s6_v18 : StableHlo.after hostOps0_6 V (Proc.devRef .tc main_v18)
    = gathOf (α := EReal) (V (Proc.devRef .tc main_v1)) (V (Proc.devRef .tc main_v3)) := by
  simp only [hostOps0_6]; after_results_simp <;> rfl

end Stretch

/-! ## The buffers when the message kernel is entered -/

/-- The node rows with one zero row appended. -/
abbrev ext (c : Dev nD) : S50001x128.Idx → EReal :=
  concatenate S50001x128 0 [⟨S50000x128, m ((c : Thread nD τ).loc main_arg0)⟩,
    ⟨S1x128, broadcastInDim S1x128 ![] bcast_S_S1x128 (constant (F := Ideal) S_ .f32 0x00000000#32)⟩]
    concatenates_S50000x128_S1x128_S50001x128_d0
/-- The source-index vector padded with the word 50000. -/
abbrev pad2 (c : Dev nD) : IVec S501760 32 :=
  pad S501760 ![0] ![1760] ![0] (m ((c : Thread nD τ).loc main_arg2)) (constantI S_ 32 50000#32) pads_S500000_S501760_017600 h_S_
/-- The target-index vector padded with the word 50000. -/
abbrev pad3 (c : Dev nD) : IVec S501760 32 :=
  pad S501760 ![0] ![1760] ![0] (m ((c : Thread nD τ).loc main_arg3)) (constantI S_ 32 50000#32) pads_S500000_S501760_017600 h_S_

/-- The extended table is made in the first stretch and not written again. -/
theorem W6_v1 (c : Dev nD) : W6 m ρ c (Proc.devRef .tc main_v1) = ext m c := by
  skip_stretch hostOps0_5
  skip_stretch hostOps0_4
  skip_stretch hostOps0_3
  skip_stretch hostOps0_2
  skip_stretch hostOps0_1
  exact s0_v1 _

/-- The padded source-index vector is made in the second stretch, from the argument and the constant of the first. -/
theorem W6_v2 (c : Dev nD) : W6 m ρ c (Proc.devRef .tc main_v2) = pad2 m c := by
  skip_stretch hostOps0_5
  skip_stretch hostOps0_4
  skip_stretch hostOps0_3
  skip_stretch hostOps0_2
  refine (s1_v2 _).trans ?_
  have e1 : W1 m ρ c (Proc.devRef .tc main_arg2) = m ((c : Thread nD τ).loc main_arg2) := by
    skip_stretch hostOps0
    rfl
  have e2 : W1 m ρ c (Proc.devRef .tc main_c) = constantI S_ 32 50000#32 := s0_c _
  rw [e1, e2]

/-- The padded target-index vector is made in the fourth stretch, from the argument and the constant of the third. -/
theorem W6_v3 (c : Dev nD) : W6 m ρ c (Proc.devRef .tc main_v3) = pad3 m c := by
  skip_stretch hostOps0_5
  skip_stretch hostOps0_4
  refine (s3_v3 _).trans ?_
  have e1 : W3 m ρ c (Proc.devRef .tc main_arg3) = m ((c : Thread nD τ).loc main_arg3) := by
    skip_stretch hostOps0_2
    skip_stretch hostOps0_1
    skip_stretch hostOps0
    rfl
  have e2 : W3 m ρ c (Proc.devRef .tc main_c_0) = constantI S_ 32 50000#32 := s2_c _
  rw [e1, e2]

theorem V7_v2_eq (c : Dev nD) : V7 m ρ c main_v2 = pad2 m c := by
  show W7 m ρ c (Proc.devRef .tc main_v2) = _
  skip_stretch hostOps0_6
  exact W6_v2 m ρ c

theorem V7_v3_eq (c : Dev nD) : V7 m ρ c main_v3 = pad3 m c := by
  show W7 m ρ c (Proc.devRef .tc main_v3) = _
  skip_stretch hostOps0_6
  exact W6_v3 m ρ c

/-- The padded edge features are made in the sixth stretch, from the argument and a padding value. -/
theorem V7_v4_eq (c : Dev nD) : V7 m ρ c main_v4
    = pad S501760x128 ![0, 0] ![1760, 0] ![0, 0] (m ((c : Thread nD τ).loc main_arg1))
        (sitofp (F := Ideal) .f32 (W5 m ρ c (Proc.devRef .tc main_c_1))) pads_S500000x128_S501760x128_017600_000 h_S_ := by
  show W7 m ρ c (Proc.devRef .tc main_v4) = _
  skip_stretch hostOps0_6
  refine (s5_v4 _).trans ?_
  have e1 : W5 m ρ c (Proc.devRef .tc main_arg1) = m ((c : Thread nD τ).loc main_arg1) := by
    skip_stretch hostOps0_4
    skip_stretch hostOps0_3
    skip_stretch hostOps0_2
    skip_stretch hostOps0_1
    skip_stretch hostOps0
    rfl
  rw [e1]

/-- The two gathers of the last stretch read the extended table by the padded index vectors. -/
theorem V7_v11_eq (c : Dev nD) : V7 m ρ c main_v11 = gathOf (α := EReal) (ext m c) (pad2 m c) := by
  show StableHlo.after hostOps0_6 (W6 m ρ c) (Proc.devRef .tc main_v11) = _
  rw [s6_v11, W6_v1, W6_v2]
theorem V7_v18_eq (c : Dev nD) : V7 m ρ c main_v18 = gathOf (α := EReal) (ext m c) (pad3 m c) := by
  show StableHlo.after hostOps0_6 (W6 m ρ c) (Proc.devRef .tc main_v18) = _
  rw [s6_v18, W6_v1, W6_v3]

/-- A row of a matrix at a column is the matrix there. -/
private theorem row_at {R C : Nat} (X : Mat R C) (r : Fin R) (j : Fin C) : row X r j = X (ix2 r j) := rfl

/-- A row gathered from the extended table whose index word names a node is that node's row. -/
theorem gathOf_row (ns : Mat 50000 128) (z : S1x128.Idx → EReal) (v : IVec S501760 32) (r : Fin 501760) (w : BitVec 32)
    (hv : v (ix1 r) = w) (h0 : 0 ≤ w.toInt) (h1 : w.toInt < 50000) :
    row (R := 501760) (C := 128)
        (gathOf (concatenate S50001x128 0 [⟨S50000x128, ns⟩, ⟨S1x128, z⟩] concatenates_S50000x128_S1x128_S50001x128_d0) v) r
      = nodeRow ns w := by
  funext j
  rw [row_at, gather_ext_apply ns z v r j w hv h0 h1]
  -- the word below 50000 is its own clamp to the last node
  unfold nodeRow
  rw [row_at]
  refine congrArg (fun k : Fin 50000 => ns (ix2 k j)) (Fin.ext ?_)
  show w.toInt.toNat = min w.toInt.toNat 49999
  omega

/-! ## The statements -/

/-- The six weights of the perceptron are as launched when the message kernel is entered. -/
theorem V7_arg5 (c : Dev nD) : V7 m ρ c main_arg5 = m ((c : Thread nD τ).loc main_arg5) := by
  show W7 m ρ c (Proc.devRef .tc main_arg5) = _
  skip_stretch hostOps0_6
  skip_stretch hostOps0_5
  skip_stretch hostOps0_4
  skip_stretch hostOps0_3
  skip_stretch hostOps0_2
  skip_stretch hostOps0_1
  skip_stretch hostOps0
  rfl
theorem V7_arg6 (c : Dev nD) : V7 m ρ c main_arg6 = m ((c : Thread nD τ).loc main_arg6) := by
  show W7 m ρ c (Proc.devRef .tc main_arg6) = _
  skip_stretch hostOps0_6
  skip_stretch hostOps0_5
  skip_stretch hostOps0_4
  skip_stretch hostOps0_3
  skip_stretch hostOps0_2
  skip_stretch hostOps0_1
  skip_stretch hostOps0
  rfl
theorem V7_arg7 (c : Dev nD) : V7 m ρ c main_arg7 = m ((c : Thread nD τ).loc main_arg7) := by
  show W7 m ρ c (Proc.devRef .tc main_arg7) = _
  skip_stretch hostOps0_6
  skip_stretch hostOps0_5
  skip_stretch hostOps0_4
  skip_stretch hostOps0_3
  skip_stretch hostOps0_2
  skip_stretch hostOps0_1
  skip_stretch hostOps0
  rfl
theorem V7_arg8 (c : Dev nD) : V7 m ρ c main_arg8 = m ((c : Thread nD τ).loc main_arg8) := by
  show W7 m ρ c (Proc.devRef .tc main_arg8) = _
  skip_stretch hostOps0_6
  skip_stretch hostOps0_5
  skip_stretch hostOps0_4
  skip_stretch hostOps0_3
  skip_stretch hostOps0_2
  skip_stretch hostOps0_1
  skip_stretch hostOps0
  rfl
theorem V7_arg9 (c : Dev nD) : V7 m ρ c main_arg9 = m ((c : Thread nD τ).loc main_arg9) := by
  show W7 m ρ c (Proc.devRef .tc main_arg9) = _
  skip_stretch hostOps0_6
  skip_stretch hostOps0_5
  skip_stretch hostOps0_4
  skip_stretch hostOps0_3
  skip_stretch hostOps0_2
  skip_stretch hostOps0_1
  skip_stretch hostOps0
  rfl
theorem V7_arg10 (c : Dev nD) : V7 m ρ c main_arg10 = m ((c : Thread nD τ).loc main_arg10) := by
  show W7 m ρ c (Proc.devRef .tc main_arg10) = _
  skip_stretch hostOps0_6
  skip_stretch hostOps0_5
  skip_stretch hostOps0_4
  skip_stretch hostOps0_3
  skip_stretch hostOps0_2
  skip_stretch hostOps0_1
  skip_stretch hostOps0
  rfl

/-- The padded source-index vector: the argument's word below 500000, the word 50000 from there on. -/
theorem V7_v2_lo (c : Dev nD) (e : Fin 500000) :
    V7 m ρ c main_v2 (ix1 (e.castLE (by decide : 500000 ≤ 501760))) = m ((c : Thread nD τ).loc main_arg2) (ix1 e) := by
  rw [V7_v2_eq]
  exact padVec_lo _ _ _ _ e
theorem V7_v2_hi (c : Dev nD) (e : Fin 501760) (he : 500000 ≤ e.val) : V7 m ρ c main_v2 (ix1 e) = 50000#32 := by
  rw [V7_v2_eq]
  exact padVec_hi _ _ _ _ e he
/-- The padded target-index vector, likewise. -/
theorem V7_v3_lo (c : Dev nD) (e : Fin 500000) :
    V7 m ρ c main_v3 (ix1 (e.castLE (by decide : 500000 ≤ 501760))) = m ((c : Thread nD τ).loc main_arg3) (ix1 e) := by
  rw [V7_v3_eq]
  exact padVec_lo _ _ _ _ e
theorem V7_v3_hi (c : Dev nD) (e : Fin 501760) (he : 500000 ≤ e.val) : V7 m ρ c main_v3 (ix1 e) = 50000#32 := by
  rw [V7_v3_eq]
  exact padVec_hi _ _ _ _ e he

/-- The padded edge features below 500000 are the argument's rows. -/
theorem V7_v4_lo (c : Dev nD) (e : Fin 500000) :
    row (R := 501760) (C := 128) (V7 m ρ c main_v4) (e.castLE (by decide : 500000 ≤ 501760))
      = row (R := 500000) (C := 128) (m ((c : Thread nD τ).loc main_arg1)) e := by
  funext j
  show V7 m ρ c main_v4 (ix2 (e.castLE (by decide : 500000 ≤ 501760)) j) = m ((c : Thread nD τ).loc main_arg1) (ix2 e j)
  rw [V7_v4_eq]
  exact padMat_lo _ _ _ _ e j

/-- The gathered source row of an edge below 500000 whose word names a node is that node's row. -/
theorem V7_v11_lo (c : Dev nD) (e : Fin 500000)
    (h0 : 0 ≤ (m ((c : Thread nD τ).loc main_arg2) (ix1 e)).toInt) (h1 : (m ((c : Thread nD τ).loc main_arg2) (ix1 e)).toInt < 50000) :
    row (R := 501760) (C := 128) (V7 m ρ c main_v11) (e.castLE (by decide : 500000 ≤ 501760))
      = nodeRow (m ((c : Thread nD τ).loc main_arg0)) (m ((c : Thread nD τ).loc main_arg2) (ix1 e)) := by
  rw [V7_v11_eq]
  exact gathOf_row _ _ _ _ _ (padVec_lo _ _ _ _ e) h0 h1
/-- The gathered target row, likewise. -/
theorem V7_v18_lo (c : Dev nD) (e : Fin 500000)
    (h0 : 0 ≤ (m ((c : Thread nD τ).loc main_arg3) (ix1 e)).toInt) (h1 : (m ((c : Thread nD τ).loc main_arg3) (ix1 e)).toInt < 50000) :
    row (R := 501760) (C := 128) (V7 m ρ c main_v18) (e.castLE (by decide : 500000 ≤ 501760))
      = nodeRow (m ((c : Thread nD τ).loc main_arg0)) (m ((c : Thread nD τ).loc main_arg3) (ix1 e)) := by
  rw [V7_v18_eq]
  exact gathOf_row _ _ _ _ _ (padVec_lo _ _ _ _ e) h0 h1

end Cert.KHost0

end
-- ==== Proof.LibRowScatter.lean ====
/-
  A general fact about adding update rows into the rows of a matrix that an index vector names, on the extended reals.

  The row scatter-add leaves at row `n` the operand's row plus the sum of the update rows whose index word, read signed,
  is `n`; a word that names no row of the operand contributes nothing.
-/
import Idealize.ShloMosaic.PureOps
import Idealize.ShloMosaic.PureOps.Ideal
import Idealize.ShloMosaic.PureOps.Ideal.Laws
import Idealize.ShloMosaic.Lib.ValueIdx

noncomputable section

open scoped BigOperators

namespace Cert.LibRowScatter

open Idealize.ShloMosaic Idealize.ShloMosaic.ValueIdx

/-- The dimension numbers of `x.at[idx].add(upd)` for `x : [N, C]`, a column of indices `idx : [R, 1]` and update rows
    `upd : [R, C]`: axis 0 is inserted and indexed, axis 1 is the window axis. -/
abbrev rowScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The operand's axes that are not inserted: only axis 1, the column axis. -/
theorem sKept_eq {N R C : Nat} (wf : ScatterDims.WF ⟨2, ![N, C]⟩ ⟨2, ![R, 1]⟩ ⟨2, ![R, C]⟩ [1] [0] [0] 1) :
    (rowScatter N R C wf).sKept = [1] := by
  show (List.finRange 2).filter (fun a : Fin 2 => decide (a ∉ ([0] : List (Fin 2)))) = [1]
  decide

/-- On the row axis the window of update `(r, c')` starts at the word `idx[r, 0]`, read signed. -/
theorem start_zero {N R C w : Nat} (wf : ScatterDims.WF ⟨2, ![N, C]⟩ ⟨2, ![R, 1]⟩ ⟨2, ![R, C]⟩ [1] [0] [0] 1)
    (idx : IVec ⟨2, ![R, 1]⟩ w) (r : Fin R) (c' : Fin C) :
    (rowScatter N R C wf).start (ix2 r c') idx 0 = (idx (ix2 r (0 : Fin 1))).toInt := by
  unfold ScatterDims.start
  rw [dif_pos (show (0 : Fin 2) ∈ (rowScatter N R C wf).scatterDimsToOperandDims from List.mem_singleton.mpr rfl)]
  congr 2
  funext b; refine Fin.ext ?_
  match b with
  | ⟨0, _⟩ => rfl
  | ⟨1, _⟩ => rfl

/-- On the column axis, which no index component names, the window starts at `0`. -/
theorem start_one {N R C w : Nat} (wf : ScatterDims.WF ⟨2, ![N, C]⟩ ⟨2, ![R, 1]⟩ ⟨2, ![R, C]⟩ [1] [0] [0] 1)
    (idx : IVec ⟨2, ![R, 1]⟩ w) (r : Fin R) (c' : Fin C) :
    (rowScatter N R C wf).start (ix2 r c') idx 1 = 0 := by
  unfold ScatterDims.start
  rw [dif_neg (show (1 : Fin 2) ∉ ([0] : List (Fin 2)) by decide)]

/-- The row axis is inserted, so the window coordinate there is `0`. -/
theorem window_zero {N R C : Nat} (wf : ScatterDims.WF ⟨2, ![N, C]⟩ ⟨2, ![R, 1]⟩ ⟨2, ![R, C]⟩ [1] [0] [0] 1)
    (r : Fin R) (c' : Fin C) :
    (rowScatter N R C wf).window (ix2 r c') 0 = 0 := by
  unfold ScatterDims.window
  rw [dif_neg (show (0 : Fin 2) ∉ (rowScatter N R C wf).sKept by
    rw [sKept_eq]; show (0 : Fin 2) ∉ ([1] : List (Fin 2)); decide)]

/-- On the column axis the window coordinate of update `(r, c')` is its column `c'`. -/
theorem window_one {N R C : Nat} (wf : ScatterDims.WF ⟨2, ![N, C]⟩ ⟨2, ![R, 1]⟩ ⟨2, ![R, C]⟩ [1] [0] [0] 1)
    (r : Fin R) (c' : Fin C) :
    (rowScatter N R C wf).window (ix2 r c') 1 = c'.val := by
  unfold ScatterDims.window
  rw [dif_pos (show (1 : Fin 2) ∈ (rowScatter N R C wf).sKept by
    rw [sKept_eq]; exact List.mem_singleton.mpr rfl)]
  rfl

/-- WHERE AN UPDATE LANDS: update `(r, c')` lands on operand element `(n, c)` exactly when the word `idx[r, 0]`, read
    signed, is `n` and the columns agree. The landing index is start plus window coordinate on each axis, `idx[r, 0] + 0`
    on the rows and `0 + c'` on the columns; it exists when both are inside the operand, and the column always is. -/
theorem resultIdx?_iff {N R C w : Nat} (wf : ScatterDims.WF ⟨2, ![N, C]⟩ ⟨2, ![R, 1]⟩ ⟨2, ![R, C]⟩ [1] [0] [0] 1)
    (idx : IVec ⟨2, ![R, 1]⟩ w) (r : Fin R) (c' c : Fin C) (n : Fin N) :
    (rowScatter N R C wf).resultIdx? (ix2 r c') idx = some (ix2 n c)
      ↔ (idx (ix2 r (0 : Fin 1))).toInt = (n.val : Int) ∧ c' = c := by
  unfold ScatterDims.resultIdx?
  split
  · -- the landing index is inside the operand: compare it with `(n, c)` coordinate by coordinate
    rename_i h
    rw [Option.some.injEq]
    constructor
    · intro hf
      have h0 := congrArg Fin.val (congrFun hf (0 : Fin 2))
      have h1 := congrArg Fin.val (congrFun hf (1 : Fin 2))
      have g0 := (h (0 : Fin 2)).1
      simp only [start_zero, start_one, window_zero, window_one] at h0 h1 g0
      refine ⟨?_, Fin.ext ?_⟩
      · have : ((ix2 n c : (⟨2, ![N, C]⟩ : Shape).Idx) (0 : Fin 2)).val = n.val := rfl
        omega
      · have : ((ix2 n c : (⟨2, ![N, C]⟩ : Shape).Idx) (1 : Fin 2)).val = c.val := rfl
        omega
    · rintro ⟨ht, rfl⟩
      funext a
      refine Fin.ext ?_
      match a with
      | ⟨0, _⟩ =>
        show ((rowScatter N R C wf).start (ix2 r c') idx 0 + ((rowScatter N R C wf).window (ix2 r c') 0 : Int)).toNat = n.val
        rw [start_zero, window_zero, ht]; simp
      | ⟨1, _⟩ =>
        show ((rowScatter N R C wf).start (ix2 r c') idx 1 + ((rowScatter N R C wf).window (ix2 r c') 1 : Int)).toNat = c'.val
        rw [start_one, window_one]; simp
  · -- the landing index leaves the operand: then `idx[r, 0]` is no row number, so it is not `n`
    rename_i h
    constructor
    · intro hf; exact absurd hf (by simp)
    · rintro ⟨ht, rfl⟩
      exfalso; apply h
      intro a
      match a with
      | ⟨0, _⟩ =>
        show 0 ≤ (rowScatter N R C wf).start (ix2 r c') idx 0 + ((rowScatter N R C wf).window (ix2 r c') 0 : Int) ∧
          (rowScatter N R C wf).start (ix2 r c') idx 0 + ((rowScatter N R C wf).window (ix2 r c') 0 : Int) < (N : Int)
        rw [start_zero, window_zero, ht]
        have := n.isLt
        constructor <;> omega
      | ⟨1, _⟩ =>
        show 0 ≤ (rowScatter N R C wf).start (ix2 r c') idx 1 + ((rowScatter N R C wf).window (ix2 r c') 1 : Int) ∧
          (rowScatter N R C wf).start (ix2 r c') idx 1 + ((rowScatter N R C wf).window (ix2 r c') 1 : Int) < (C : Int)
        rw [start_one, window_one]
        have := c'.isLt
        constructor <;> omega

/-- THE ROW SCATTER-ADD READ AT `(n, c)`, on the extended reals: the operand's entry plus the sum, over the update rows
    `r`, of `upd[r, c]` where the word `idx[r, 0]`, read signed, is `n` (and of nothing where it is not). -/
theorem scatterAdd_rows_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (n : Fin N) (c : Fin C) :
    Ideal.hostScatterAdd (rowScatter N R C wf) x idx upd (ix2 n c)
      = x (ix2 n c) + ∑ r : Fin R, if (idx (ix2 r (0 : Fin 1))).toInt = (n.val : Int) then upd (ix2 r c) else 0 := by
  -- the sum over the updates that land on `(n, c)` is the sum over all updates of each update where it lands there and 0
  -- where it does not; split it by row and column: in row `r` only column `c` can land there, and it does exactly when
  -- the word `idx[r, 0]` is `n`
  unfold Ideal.hostScatterAdd
  congr 1
  rw [Finset.sum_filter, sum_idx2]
  refine Finset.sum_congr rfl (fun r _ => ?_)
  simp only [resultIdx?_iff]
  by_cases ht : (idx (ix2 r (0 : Fin 1))).toInt = (n.val : Int)
  · simp only [ht, true_and, if_true]
    rw [Finset.sum_ite_eq' Finset.univ c (fun b => upd (ix2 r b))]
    simp
  · simp only [ht, false_and, if_false]
    exact Finset.sum_const_zero

end Cert.LibRowScatter

end
-- ==== Proof.KHost1.lean ====
/-
  The host stretch between the two kernels, read at an index, and what the message kernel leaves untouched. Each of the
  two message arrays is added, row by row, into 50001 zero rows at the row its (padded) index word names; the first 50000
  rows of the two sums are added. So the aggregate at node `n` is the sum of the forward message rows whose target word is
  `n` plus the sum of the backward message rows whose source word is `n`.
-/
import proofs.«128451_j72730976190873_1_alg».proof.Proof.Gen.KernelIdeal.Frame
import proofs.«128451_j72730976190873_1_alg».proof.Proof.Spec
import proofs.«128451_j72730976190873_1_alg».proof.Proof.LibRows
import proofs.«128451_j72730976190873_1_alg».proof.Proof.LibRowScatter
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KHost1

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (m : (ℓ : Loc nD τ sig) → Buf (Elt Ideal) ℓ) (ρ : Dev nD → PrngReg)

/-- The message kernel writes only its two outputs: the padded index vectors are as it found them. -/
theorem V8_v2 (c : Dev nD) : V8 m ρ c main_v2 = V7 m ρ c main_v2 := W8_of_ne m ρ c main_v2 (by decide)
theorem V8_v3 (c : Dev nD) : V8 m ρ c main_v3 = V7 m ρ c main_v3 := W8_of_ne m ρ c main_v3 (by decide)

/-- The two message arrays as the message kernel leaves them, and the aggregate as the node-update kernel finds it,
    each at its literal type. -/
abbrev fwdArr (c : Dev nD) : Mat 501760 128 := V8 m ρ c main_v19_0
abbrev revArr (c : Dev nD) : Mat 501760 128 := V8 m ρ c main_v19_1
abbrev aggArr (c : Dev nD) : Mat 50000 128 := V9 m ρ c main_v28
/-- The padded index vectors at their literal type. -/
abbrev srcPad (c : Dev nD) : (⟨1, ![501760]⟩ : Shape).Idx → BitVec 32 := V7 m ρ c main_v2
abbrev tgtPad (c : Dev nD) : (⟨1, ![501760]⟩ : Shape).Idx → BitVec 32 := V7 m ρ c main_v3

/-! ## One half of the aggregate, over any index vector and any update array -/

/-- The printed scatter of 501760 update rows into 50001 rows of 128 is the row scatter-add. -/
theorem scatterAdd_eq (x : (⟨2, ![50001, 128]⟩ : Shape).Idx → EReal) (i : IVec ⟨2, ![501760, 1]⟩ 32) (u : Mat 501760 128) :
    Host.scatterAdd (F := Ideal) (φ := .f32) scatter_S50001x128_S501760x1_S501760x128_1_0_0_1 x i u
      = Ideal.hostScatterAdd
          (Cert.LibRowScatter.rowScatter 50001 501760 128 scatter_S50001x128_S501760x1_S501760x128_1_0_0_1_wf) x i u := rfl

/-- The broadcast zero word reads the real zero everywhere. -/
theorem zeros_apply (k : Fin 50001) (j : Fin 128) :
    broadcastInDim S50001x128 ![] bcast_S_S50001x128 (constant (F := Ideal) S_ FTy.f32 0#32) (ix2 k j) = (0 : EReal) := by
  rw [broadcastInDim_apply _ bcast_S_S50001x128 _ _ ix0 (fun a => a.elim0), constant_apply]
  exact Ideal.ofBits_zero_f32

/-- One half of the aggregate: the update rows added, row by row, into 50001 zero rows at the row each index word names,
    cut to the first 50000 rows, read at `(n, j)`. It is the sum of the update rows whose word, read signed, is `n`; a word
    that names row 50000 or no row at all adds nothing to the rows kept. -/
theorem scatter_slice_apply (iv : (⟨1, ![501760]⟩ : Shape).Idx → BitVec 32) (upd : Mat 501760 128) (n : Fin 50000) (j : Fin 128) :
    extractStridedSlice S50000x128 ![0, 0]
        (Host.scatterAdd (F := Ideal) (φ := .f32) scatter_S50001x128_S501760x1_S501760x128_1_0_0_1
          (broadcastInDim S50001x128 ![] bcast_S_S50001x128 (constant (F := Ideal) S_ FTy.f32 0#32))
          (broadcastInDim S501760x1 ![0] bcast_S501760_S501760x1_0 iv)
          upd)
        slices_S50001x128_S50000x128_0_0 (ix2 n j)
      = ∑ e : Fin 501760, if (iv (ix1 e)).toInt = (n.val : Int) then upd (ix2 e j) else 0 := by
  refine (slice2_axis0_apply 0 _ slices_S50001x128_S50000x128_0_0 n j ⟨n.val, by omega⟩ (by simp)).trans ?_
  rw [scatterAdd_eq, Cert.LibRowScatter.scatterAdd_rows_apply, zeros_apply, zero_add]
  refine Finset.sum_congr rfl (fun e _ => ?_)
  rw [Cert.LibRows.col_of_vec_apply]

/-- The two sums added: what the stretch leaves at (n, j), over any two index vectors and any two update arrays. -/
theorem agg_apply (iv3 iv2 : (⟨1, ![501760]⟩ : Shape).Idx → BitVec 32) (u0 u1 : Mat 501760 128) (n : Fin 50000) (j : Fin 128) :
    addf (extractStridedSlice S50000x128 ![0, 0]
        (Host.scatterAdd (F := Ideal) (φ := .f32) scatter_S50001x128_S501760x1_S501760x128_1_0_0_1
          (broadcastInDim S50001x128 ![] bcast_S_S50001x128 (constant (F := Ideal) S_ FTy.f32 0#32))
          (broadcastInDim S501760x1 ![0] bcast_S501760_S501760x1_0 iv3)
          u0)
        slices_S50001x128_S50000x128_0_0 : FVec Ideal S50000x128 .f32)
      (extractStridedSlice S50000x128 ![0, 0]
        (Host.scatterAdd (F := Ideal) (φ := .f32) scatter_S50001x128_S501760x1_S501760x128_1_0_0_1
          (broadcastInDim S50001x128 ![] bcast_S_S50001x128 (constant (F := Ideal) S_ FTy.f32 0#32))
          (broadcastInDim S501760x1 ![0] bcast_S501760_S501760x1_0 iv2)
          u1)
        slices_S50001x128_S50000x128_0_0 : FVec Ideal S50000x128 .f32) (ix2 n j)
      = (∑ e : Fin 501760, if (iv3 (ix1 e)).toInt = (n.val : Int) then u0 (ix2 e j) else 0)
        + (∑ e : Fin 501760, if (iv2 (ix1 e)).toInt = (n.val : Int) then u1 (ix2 e j) else 0) := by
  rw [addf_apply, scatter_slice_apply, scatter_slice_apply]

/-- THE AGGREGATE at `(n, j)` when the node-update kernel is entered. -/
theorem V9_v28_apply (c : Dev nD) (n : Fin 50000) (j : Fin 128) :
    aggArr m ρ c (ix2 n j)
      = (∑ e : Fin 501760, if (tgtPad m ρ c (ix1 e)).toInt = (n.val : Int) then fwdArr m ρ c (ix2 e j) else 0)
        + (∑ e : Fin 501760, if (srcPad m ρ c (ix1 e)).toInt = (n.val : Int) then revArr m ρ c (ix2 e j) else 0) := by
  -- the two padded index vectors are as the message kernel found them
  have e3 : W8 m ρ c (Proc.devRef .tc main_v3) = V7 m ρ c main_v3 := V8_v3 m ρ c
  have e2 : W8 m ρ c (Proc.devRef .tc main_v2) = V7 m ρ c main_v2 := V8_v2 m ρ c
  -- the aggregate's buffer after the eleven operations is their composed term over the buffers the message kernel left
  show StableHlo.after hostOps1 (W8 m ρ c) (Proc.devRef .tc main_v28) (ix2 n j) = _
  after_results
  rw [e3, e2]
  exact agg_apply (V7 m ρ c main_v3) (V7 m ρ c main_v2) (W8 m ρ c (Proc.devRef .tc main_v19_0))
    (W8 m ρ c (Proc.devRef .tc main_v19_1)) n j

/-- The node rows and the twelve weights of the updates are as launched when the node-update kernel is entered. -/
-- each is an input of the node-update kernel, which leaves its inputs as it found them, and as an argument it ends as launched;
-- so it was as launched when that kernel was entered
theorem V9_arg0 (c : Dev nD) : V9 m ρ c main_arg0 = m ((c : Thread nD τ).loc main_arg0) :=
  ((W10_arr m ρ c 0).trans (((dat1 (V9 m ρ) c).arrAt_in 0 rfl _).trans (A_eq1 (V9 m ρ) c 0))).symm.trans
    (W10_main_arg0 m ρ c)
theorem V9_arg11 (c : Dev nD) : V9 m ρ c main_arg11 = m ((c : Thread nD τ).loc main_arg11) :=
  ((W10_arr m ρ c 2).trans (((dat1 (V9 m ρ) c).arrAt_in 2 rfl _).trans (A_eq1 (V9 m ρ) c 2))).symm.trans
    (W10_main_arg11 m ρ c)
theorem V9_arg12 (c : Dev nD) : V9 m ρ c main_arg12 = m ((c : Thread nD τ).loc main_arg12) :=
  ((W10_arr m ρ c 3).trans (((dat1 (V9 m ρ) c).arrAt_in 3 rfl _).trans (A_eq1 (V9 m ρ) c 3))).symm.trans
    (W10_main_arg12 m ρ c)
theorem V9_arg13 (c : Dev nD) : V9 m ρ c main_arg13 = m ((c : Thread nD τ).loc main_arg13) :=
  ((W10_arr m ρ c 4).trans (((dat1 (V9 m ρ) c).arrAt_in 4 rfl _).trans (A_eq1 (V9 m ρ) c 4))).symm.trans
    (W10_main_arg13 m ρ c)
theorem V9_arg14 (c : Dev nD) : V9 m ρ c main_arg14 = m ((c : Thread nD τ).loc main_arg14) :=
  ((W10_arr m ρ c 5).trans (((dat1 (V9 m ρ) c).arrAt_in 5 rfl _).trans (A_eq1 (V9 m ρ) c 5))).symm.trans
    (W10_main_arg14 m ρ c)
theorem V9_arg15 (c : Dev nD) : V9 m ρ c main_arg15 = m ((c : Thread nD τ).loc main_arg15) :=
  ((W10_arr m ρ c 6).trans (((dat1 (V9 m ρ) c).arrAt_in 6 rfl _).trans (A_eq1 (V9 m ρ) c 6))).symm.trans
    (W10_main_arg15 m ρ c)
theorem V9_arg16 (c : Dev nD) : V9 m ρ c main_arg16 = m ((c : Thread nD τ).loc main_arg16) :=
  ((W10_arr m ρ c 7).trans (((dat1 (V9 m ρ) c).arrAt_in 7 rfl _).trans (A_eq1 (V9 m ρ) c 7))).symm.trans
    (W10_main_arg16 m ρ c)
theorem V9_arg17 (c : Dev nD) : V9 m ρ c main_arg17 = m ((c : Thread nD τ).loc main_arg17) :=
  ((W10_arr m ρ c 8).trans (((dat1 (V9 m ρ) c).arrAt_in 8 rfl _).trans (A_eq1 (V9 m ρ) c 8))).symm.trans
    (W10_main_arg17 m ρ c)
theorem V9_arg18 (c : Dev nD) : V9 m ρ c main_arg18 = m ((c : Thread nD τ).loc main_arg18) :=
  ((W10_arr m ρ c 9).trans (((dat1 (V9 m ρ) c).arrAt_in 9 rfl _).trans (A_eq1 (V9 m ρ) c 9))).symm.trans
    (W10_main_arg18 m ρ c)
theorem V9_arg19 (c : Dev nD) : V9 m ρ c main_arg19 = m ((c : Thread nD τ).loc main_arg19) :=
  ((W10_arr m ρ c 10).trans (((dat1 (V9 m ρ) c).arrAt_in 10 rfl _).trans (A_eq1 (V9 m ρ) c 10))).symm.trans
    (W10_main_arg19 m ρ c)
theorem V9_arg20 (c : Dev nD) : V9 m ρ c main_arg20 = m ((c : Thread nD τ).loc main_arg20) :=
  ((W10_arr m ρ c 11).trans (((dat1 (V9 m ρ) c).arrAt_in 11 rfl _).trans (A_eq1 (V9 m ρ) c 11))).symm.trans
    (W10_main_arg20 m ρ c)
theorem V9_arg21 (c : Dev nD) : V9 m ρ c main_arg21 = m ((c : Thread nD τ).loc main_arg21) :=
  ((W10_arr m ρ c 12).trans (((dat1 (V9 m ρ) c).arrAt_in 12 rfl _).trans (A_eq1 (V9 m ρ) c 12))).symm.trans
    (W10_main_arg21 m ρ c)
theorem V9_arg22 (c : Dev nD) : V9 m ρ c main_arg22 = m ((c : Thread nD τ).loc main_arg22) :=
  ((W10_arr m ρ c 13).trans (((dat1 (V9 m ρ) c).arrAt_in 13 rfl _).trans (A_eq1 (V9 m ρ) c 13))).symm.trans
    (W10_main_arg22 m ρ c)

end Cert.KHost1

end
-- ==== Proof.KValue.lean ====
/-
  The kernel program's result as one function of its arguments. After the run the result buffer holds what the
  node-update kernel's write-backs leave; that array is the three gated updates along the rows of the node rows and of
  the aggregate as the kernel found them; the aggregate is the two row sums of the message arrays; the message arrays
  are the perceptron along the rows of the gathered rows. An edge past the 500000-th carries the word 50000, which is
  no node below 50000, so it adds to no aggregate row that is kept; an edge below it carries its argument's words, and
  those name nodes, so its gathered rows are the node rows they name.
-/
import proofs.«128451_j72730976190873_1_alg».proof.Proof.KMsgBody
import proofs.«128451_j72730976190873_1_alg».proof.Proof.KGruBody
import proofs.«128451_j72730976190873_1_alg».proof.Proof.KArr0
import proofs.«128451_j72730976190873_1_alg».proof.Proof.KArr1
import proofs.«128451_j72730976190873_1_alg».proof.Proof.KHost0
import proofs.«128451_j72730976190873_1_alg».proof.Proof.KHost1

set_option maxRecDepth 16384

noncomputable section

open scoped BigOperators

namespace Cert.KValue

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (m : (ℓ : Loc nD τ sig) → Buf (Elt Ideal) ℓ) (ρ : Dev nD → PrngReg)

/-- The word 50000 read signed. -/
theorem toInt_pad : (50000#32 : BitVec 32).toInt = 50000 := by decide

/-- The forward message array at an edge below 500000 is that edge's forward message. -/
theorem fwd_lo (c : Dev nD)
    (hfi : ∀ e : Fin 500000, 0 ≤ (m ((c : Thread nD τ).loc main_arg2) (ix1 e)).toInt ∧ (m ((c : Thread nD τ).loc main_arg2) (ix1 e)).toInt < 50000)
    (hti : ∀ e : Fin 500000, 0 ≤ (m ((c : Thread nD τ).loc main_arg3) (ix1 e)).toInt ∧ (m ((c : Thread nD τ).loc main_arg3) (ix1 e)).toInt < 50000)
    (e : Fin 500000) (j : Fin 128) :
    KHost1.fwdArr m ρ c (ix2 (e.castLE (by decide : 500000 ≤ 501760)) j)
      = msgF (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) e j := by
  have hA : KHost1.fwdArr m ρ c = (dat0 (F := Ideal) (V7 m ρ) c).arrAt 9 cfg0.N := (hF0 m ρ c 9).symm
  rw [hA, KArr0.arr_fwd (V7 m ρ) KMsgBody.out_fwd_apply c, mapRows3_apply, KHost0.V7_v11_lo m ρ c e (hfi e).1 (hfi e).2,
    KHost0.V7_v18_lo m ρ c e (hti e).1 (hti e).2, KHost0.V7_v4_lo m ρ c e,
    KHost0.V7_arg5, KHost0.V7_arg6, KHost0.V7_arg7, KHost0.V7_arg8, KHost0.V7_arg9, KHost0.V7_arg10]
  rfl

/-- The backward message array at an edge below 500000 is that edge's backward message. -/
theorem rev_lo (c : Dev nD)
    (hfi : ∀ e : Fin 500000, 0 ≤ (m ((c : Thread nD τ).loc main_arg2) (ix1 e)).toInt ∧ (m ((c : Thread nD τ).loc main_arg2) (ix1 e)).toInt < 50000)
    (hti : ∀ e : Fin 500000, 0 ≤ (m ((c : Thread nD τ).loc main_arg3) (ix1 e)).toInt ∧ (m ((c : Thread nD τ).loc main_arg3) (ix1 e)).toInt < 50000)
    (e : Fin 500000) (j : Fin 128) :
    KHost1.revArr m ρ c (ix2 (e.castLE (by decide : 500000 ≤ 501760)) j)
      = msgR (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) e j := by
  have hA : KHost1.revArr m ρ c = (dat0 (F := Ideal) (V7 m ρ) c).arrAt 10 cfg0.N := (hF0 m ρ c 10).symm
  rw [hA, KArr0.arr_rev (V7 m ρ) KMsgBody.out_rev_apply c, mapRows3_apply, KHost0.V7_v11_lo m ρ c e (hfi e).1 (hfi e).2,
    KHost0.V7_v18_lo m ρ c e (hti e).1 (hti e).2, KHost0.V7_v4_lo m ρ c e,
    KHost0.V7_arg5, KHost0.V7_arg6, KHost0.V7_arg7, KHost0.V7_arg8, KHost0.V7_arg9, KHost0.V7_arg10]
  rfl

/-- A sum over the padded edges, keyed by a padded index vector that carries the word 50000 past the 500000-th edge,
    is the sum over the edges of the argument, at any node below 50000. -/
theorem seg_pad (idxP : (⟨1, ![501760]⟩ : Shape).Idx → BitVec 32) (idx : (⟨1, ![500000]⟩ : Shape).Idx → BitVec 32)
    (A : Mat 501760 128) (msg : Fin 500000 → Fin 128 → EReal)
    (hlo : ∀ e : Fin 500000, idxP (ix1 (e.castLE (by decide : 500000 ≤ 501760))) = idx (ix1 e))
    (hhi : ∀ e : Fin 501760, 500000 ≤ e.val → idxP (ix1 e) = 50000#32)
    (hA : ∀ (e : Fin 500000) (j : Fin 128), A (ix2 (e.castLE (by decide : 500000 ≤ 501760)) j) = msg e j)
    (n : Fin 50000) (j : Fin 128) :
    (∑ e : Fin 501760, if (idxP (ix1 e)).toInt = (n.val : Int) then A (ix2 e j) else 0)
      = segSum (fun e => idx (ix1 e)) msg n.val j := by
  rw [sum_castLE (by decide : 500000 ≤ 501760)]
  · unfold segSum
    refine Finset.sum_congr rfl fun e _ => ?_
    rw [hlo e, hA e j]
  · intro e he
    rw [hhi e he, toInt_pad, if_neg]
    have := n.isLt
    omega

/-- THE RESULT: after the run the result buffer is the specification's array of the arguments. -/
theorem result_eq_G (c : Dev nD)
    (hfi : ∀ e : Fin 500000, 0 ≤ (m ((c : Thread nD τ).loc main_arg2) (ix1 e)).toInt ∧ (m ((c : Thread nD τ).loc main_arg2) (ix1 e)).toInt < 50000)
    (hti : ∀ e : Fin 500000, 0 ≤ (m ((c : Thread nD τ).loc main_arg3) (ix1 e)).toInt ∧ (m ((c : Thread nD τ).loc main_arg3) (ix1 e)).toInt < 50000) :
    W10 m ρ c (Proc.devRef .tc main_v29) = G (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  have hW : W10 m ρ c (Proc.devRef .tc main_v29) = (dat1 (F := Ideal) (V9 m ρ) c).arrAt 14 cfg1.N := W10_arr m ρ c 14
  rw [hW, KArr1.arr_out (V9 m ρ) KGruBody.out_apply c]
  funext i
  obtain ⟨n, j, rfl⟩ : ∃ (n : Fin 50000) (j : Fin 128), i = ix2 n j := ⟨i 0, i 1, eq_ix2 i⟩
  rw [mapRows2_apply, G_apply]
  unfold out
  have hagg : row (R := 50000) (C := 128) (V9 m ρ c main_v28) n
      = agg (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) n := by
    funext j'
    show KHost1.aggArr m ρ c (ix2 n j') = _
    rw [KHost1.V9_v28_apply m ρ c n j',
      seg_pad (KHost1.tgtPad m ρ c) (m ((c : Thread nD τ).loc main_arg3)) (KHost1.fwdArr m ρ c) (msgF (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
        (fun e => KHost0.V7_v3_lo m ρ c e) (fun e he => KHost0.V7_v3_hi m ρ c e he) (fun e j => fwd_lo m ρ c hfi hti e j) n j',
      seg_pad (KHost1.srcPad m ρ c) (m ((c : Thread nD τ).loc main_arg2)) (KHost1.revArr m ρ c) (msgR (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
        (fun e => KHost0.V7_v2_lo m ρ c e) (fun e he => KHost0.V7_v2_hi m ρ c e he) (fun e j => rev_lo m ρ c hfi hti e j) n j']
    rfl
  rw [hagg, KHost1.V9_arg0, KHost1.V9_arg11, KHost1.V9_arg12, KHost1.V9_arg13, KHost1.V9_arg14, KHost1.V9_arg15,
    KHost1.V9_arg16, KHost1.V9_arg17, KHost1.V9_arg18, KHost1.V9_arg19, KHost1.V9_arg20, KHost1.V9_arg21, KHost1.V9_arg22]

end Cert.KValue

end
-- ==== Proof.RefRun.lean ====
/-
  The reference program's run, read over its stages. The program is a straight line of 206 host operations; every
  weakly fair execution ends with each buffer at the fold of the operations over the launch contents. The fold is
  evaluated stretch by stretch: a stretch reads a few buffers the stretches before it left and writes the next stage,
  so the result buffer ends at the last stage of the arguments, and no operation writes an argument.
-/
import proofs.«128451_j72730976190873_1_alg».proof.Proof.RefRunOps
import proofs.«128451_j72730976190873_1_alg».proof.Proof.RefRead
import Idealize.ShloMosaic.Lib.StableHlo.Run

set_option maxRecDepth 8192

noncomputable section

namespace Cert.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The stretch of `n` operations from position `i`. -/
abbrev seg (i n : Nat) : List (HloOp τ sig (Elt F)) := ((ops (F := F)).drop i).take n

/-! ## The arguments, and stretches that keep them -/

/-- The program's arguments. -/
def args : List (Ref sig .tc) :=
  [main_arg0, main_arg1, main_arg2, main_arg3, main_arg4, main_arg5, main_arg6, main_arg7, main_arg8, main_arg9, main_arg10, main_arg11,
    main_arg12, main_arg13, main_arg14, main_arg15, main_arg16, main_arg17, main_arg18, main_arg19, main_arg20, main_arg21, main_arg22]

/-- `W` holds at every argument what `B` holds there. -/
def Kept (B W : Valuation τ sig (Elt F)) : Prop := ∀ r ∈ args, W (Proc.devRef .tc r) = B (Proc.devRef .tc r)

theorem kept_refl (B : Valuation τ sig (Elt F)) : Kept B B := fun _ _ => rfl

/-- An operation that writes one buffer of a list writes inside the list. -/
theorem writes_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.2 (List.mem_toFinset.2 (List.mem_map_of_mem h))

/-- A stretch that writes only inside `L`, none of it an argument, keeps the arguments. -/
theorem kept_step {B W : Valuation τ sig (Elt F)} {l : List (HloOp τ sig (Elt F))} {L : List (Ref sig .tc)}
    (hW : l.Forall fun op => op.writes ⊆ (L.map (Proc.devRef (τ := τ) .tc)).toFinset) (hd : ∀ r ∈ args, r ∉ L)
    (hk : Kept B W) : Kept B (after l W) :=
  fun r hr => (after_of_writes_sub l W hW (hd r hr)).trans (hk r hr)

section Stages
variable (B : Valuation τ sig (Elt F))

/-- The stages the stretches hand on, at the arguments `B` holds. -/
abbrev s6 :=
  val_main_v6 (F := F) (B (Proc.devRef .tc main_arg0)) (B (Proc.devRef .tc main_arg2))
abbrev s13 :=
  val_main_v13 (F := F) (B (Proc.devRef .tc main_arg0)) (B (Proc.devRef .tc main_arg3))
abbrev s14 :=
  val_main_v14 (F := F) (B (Proc.devRef .tc main_arg0)) (B (Proc.devRef .tc main_arg1)) (B (Proc.devRef .tc main_arg2))
    (B (Proc.devRef .tc main_arg3))
abbrev s28 :=
  val_main_v28 (F := F) (B (Proc.devRef .tc main_arg0)) (B (Proc.devRef .tc main_arg1)) (B (Proc.devRef .tc main_arg2))
    (B (Proc.devRef .tc main_arg3)) (B (Proc.devRef .tc main_arg5)) (B (Proc.devRef .tc main_arg6))
    (B (Proc.devRef .tc main_arg7)) (B (Proc.devRef .tc main_arg8)) (B (Proc.devRef .tc main_arg9))
    (B (Proc.devRef .tc main_arg10))
abbrev s31 :=
  val_main_v31 (F := F) (B (Proc.devRef .tc main_arg0)) (B (Proc.devRef .tc main_arg1)) (B (Proc.devRef .tc main_arg2))
    (B (Proc.devRef .tc main_arg3)) (B (Proc.devRef .tc main_arg5)) (B (Proc.devRef .tc main_arg6))
    (B (Proc.devRef .tc main_arg7)) (B (Proc.devRef .tc main_arg8)) (B (Proc.devRef .tc main_arg9))
    (B (Proc.devRef .tc main_arg10))
abbrev s38 :=
  val_main_v38 (F := F) (B (Proc.devRef .tc main_arg0)) (B (Proc.devRef .tc main_arg3))
abbrev s45 :=
  val_main_v45 (F := F) (B (Proc.devRef .tc main_arg0)) (B (Proc.devRef .tc main_arg2))
abbrev s46 :=
  val_main_v46 (F := F) (B (Proc.devRef .tc main_arg0)) (B (Proc.devRef .tc main_arg1)) (B (Proc.devRef .tc main_arg2))
    (B (Proc.devRef .tc main_arg3))
abbrev s60 :=
  val_main_v60 (F := F) (B (Proc.devRef .tc main_arg0)) (B (Proc.devRef .tc main_arg1)) (B (Proc.devRef .tc main_arg2))
    (B (Proc.devRef .tc main_arg3)) (B (Proc.devRef .tc main_arg5)) (B (Proc.devRef .tc main_arg6))
    (B (Proc.devRef .tc main_arg7)) (B (Proc.devRef .tc main_arg8)) (B (Proc.devRef .tc main_arg9))
    (B (Proc.devRef .tc main_arg10))
abbrev s64 :=
  val_main_v64 (F := F) (B (Proc.devRef .tc main_arg0)) (B (Proc.devRef .tc main_arg1)) (B (Proc.devRef .tc main_arg2))
    (B (Proc.devRef .tc main_arg3)) (B (Proc.devRef .tc main_arg5)) (B (Proc.devRef .tc main_arg6))
    (B (Proc.devRef .tc main_arg7)) (B (Proc.devRef .tc main_arg8)) (B (Proc.devRef .tc main_arg9))
    (B (Proc.devRef .tc main_arg10))
abbrev s100 :=
  val_main_v100 (F := F) (B (Proc.devRef .tc main_arg0)) (B (Proc.devRef .tc main_arg1)) (B (Proc.devRef .tc main_arg2))
    (B (Proc.devRef .tc main_arg3)) (B (Proc.devRef .tc main_arg5)) (B (Proc.devRef .tc main_arg6))
    (B (Proc.devRef .tc main_arg7)) (B (Proc.devRef .tc main_arg8)) (B (Proc.devRef .tc main_arg9))
    (B (Proc.devRef .tc main_arg10)) (B (Proc.devRef .tc main_arg11)) (B (Proc.devRef .tc main_arg12))
    (B (Proc.devRef .tc main_arg13)) (B (Proc.devRef .tc main_arg14))
abbrev s136 :=
  val_main_v136 (F := F) (B (Proc.devRef .tc main_arg0)) (B (Proc.devRef .tc main_arg1)) (B (Proc.devRef .tc main_arg2))
    (B (Proc.devRef .tc main_arg3)) (B (Proc.devRef .tc main_arg5)) (B (Proc.devRef .tc main_arg6))
    (B (Proc.devRef .tc main_arg7)) (B (Proc.devRef .tc main_arg8)) (B (Proc.devRef .tc main_arg9))
    (B (Proc.devRef .tc main_arg10)) (B (Proc.devRef .tc main_arg11)) (B (Proc.devRef .tc main_arg12))
    (B (Proc.devRef .tc main_arg13)) (B (Proc.devRef .tc main_arg14)) (B (Proc.devRef .tc main_arg15))
    (B (Proc.devRef .tc main_arg16)) (B (Proc.devRef .tc main_arg17)) (B (Proc.devRef .tc main_arg18))
abbrev s172 :=
  val_main_v172 (F := F) (B (Proc.devRef .tc main_arg0)) (B (Proc.devRef .tc main_arg1)) (B (Proc.devRef .tc main_arg2))
    (B (Proc.devRef .tc main_arg3)) (B (Proc.devRef .tc main_arg5)) (B (Proc.devRef .tc main_arg6))
    (B (Proc.devRef .tc main_arg7)) (B (Proc.devRef .tc main_arg8)) (B (Proc.devRef .tc main_arg9))
    (B (Proc.devRef .tc main_arg10)) (B (Proc.devRef .tc main_arg11)) (B (Proc.devRef .tc main_arg12))
    (B (Proc.devRef .tc main_arg13)) (B (Proc.devRef .tc main_arg14)) (B (Proc.devRef .tc main_arg15))
    (B (Proc.devRef .tc main_arg16)) (B (Proc.devRef .tc main_arg17)) (B (Proc.devRef .tc main_arg18))
    (B (Proc.devRef .tc main_arg19)) (B (Proc.devRef .tc main_arg20)) (B (Proc.devRef .tc main_arg21))
    (B (Proc.devRef .tc main_arg22))

variable {B}

/-! ## What each stretch writes -/

def L1 : List (Ref sig .tc) :=
  [main_c, main_v0, main_v1, main_c_0, main_v2, main_v3, main_v4, main_v5, main_v6]
def L2 : List (Ref sig .tc) :=
  [main_c_1, main_v7, main_v8, main_c_2, main_v9, main_v10, main_v11, main_v12, main_v13]
def L3 : List (Ref sig .tc) :=
  [main_v14]
def L4 : List (Ref sig .tc) :=
  [main_v15, main_v16, main_v17, main_v18, main_call0_cst, main_call0_v0, main_v19, main_v20, main_v21, main_v22,
    main_v23, main_call1_cst, main_call1_v0, main_v24, main_v25, main_v26, main_v27, main_v28]
def L5 : List (Ref sig .tc) :=
  [main_cst, main_v29, main_v30, main_v31]
def L6 : List (Ref sig .tc) :=
  [main_c_3, main_v32, main_v33, main_c_4, main_v34, main_v35, main_v36, main_v37, main_v38]
def L7 : List (Ref sig .tc) :=
  [main_c_5, main_v39, main_v40, main_c_6, main_v41, main_v42, main_v43, main_v44, main_v45]
def L8 : List (Ref sig .tc) :=
  [main_v46]
def L9 : List (Ref sig .tc) :=
  [main_v47, main_v48, main_v49, main_v50, main_call2_cst, main_call2_v0, main_v51, main_v52, main_v53, main_v54,
    main_v55, main_call3_cst, main_call3_v0, main_v56, main_v57, main_v58, main_v59, main_v60]
def L10 : List (Ref sig .tc) :=
  [main_cst_7, main_v61, main_v62, main_v63, main_v64]
def L11 : List (Ref sig .tc) :=
  [main_v65, main_v66, main_v67, main_v68, main_v69, main_v70, main_v71, main_v72, main_v73, main_v74, main_v75,
    main_v76, main_v77, main_v78, main_v79, main_v80, main_v81, main_cst_8, main_v82, main_v83, main_cst_9, main_v84,
    main_v85, main_v86, main_v87, main_v88, main_cst_10, main_v89, main_v90, main_cst_11, main_v91, main_v92,
    main_v93, main_v94, main_v95, main_cst_12, main_v96, main_v97, main_v98, main_v99, main_v100]
def L12 : List (Ref sig .tc) :=
  [main_v101, main_v102, main_v103, main_v104, main_v105, main_v106, main_v107, main_v108, main_v109, main_v110,
    main_v111, main_v112, main_v113, main_v114, main_v115, main_v116, main_v117, main_cst_13, main_v118, main_v119,
    main_cst_14, main_v120, main_v121, main_v122, main_v123, main_v124, main_cst_15, main_v125, main_v126,
    main_cst_16, main_v127, main_v128, main_v129, main_v130, main_v131, main_cst_17, main_v132, main_v133, main_v134,
    main_v135, main_v136]
def L13 : List (Ref sig .tc) :=
  [main_v137, main_v138, main_v139, main_v140, main_v141, main_v142, main_v143, main_v144, main_v145, main_v146,
    main_v147, main_v148, main_v149, main_v150, main_v151, main_v152, main_v153, main_cst_18, main_v154, main_v155,
    main_cst_19, main_v156, main_v157, main_v158, main_v159, main_v160, main_cst_20, main_v161, main_v162,
    main_cst_21, main_v163, main_v164, main_v165, main_v166, main_v167, main_cst_22, main_v168, main_v169, main_v170,
    main_v171, main_v172]

theorem wr1 : (seg (F := F) 0 9).Forall fun op => op.writes ⊆ (L1.map (Proc.devRef (τ := τ) .tc)).toFinset := by
  simp only [seg, ops, List.drop_succ_cons, List.drop_zero, List.take_succ_cons, List.take_zero]
  repeat' (first | refine ⟨?_, ?_⟩ | exact writes_sub_of_mem (by decide))
theorem wr2 : (seg (F := F) 9 9).Forall fun op => op.writes ⊆ (L2.map (Proc.devRef (τ := τ) .tc)).toFinset := by
  simp only [seg, ops, List.drop_succ_cons, List.drop_zero, List.take_succ_cons, List.take_zero]
  repeat' (first | refine ⟨?_, ?_⟩ | exact writes_sub_of_mem (by decide))
theorem wr3 : (seg (F := F) 18 1).Forall fun op => op.writes ⊆ (L3.map (Proc.devRef (τ := τ) .tc)).toFinset := by
  simp only [seg, ops, List.drop_succ_cons, List.drop_zero, List.take_succ_cons, List.take_zero]
  repeat' (first | refine ⟨?_, ?_⟩ | exact writes_sub_of_mem (by decide))
theorem wr4 : (seg (F := F) 19 18).Forall fun op => op.writes ⊆ (L4.map (Proc.devRef (τ := τ) .tc)).toFinset := by
  simp only [seg, ops, List.drop_succ_cons, List.drop_zero, List.take_succ_cons, List.take_zero]
  repeat' (first | refine ⟨?_, ?_⟩ | exact writes_sub_of_mem (by decide))
theorem wr5 : (seg (F := F) 37 4).Forall fun op => op.writes ⊆ (L5.map (Proc.devRef (τ := τ) .tc)).toFinset := by
  simp only [seg, ops, List.drop_succ_cons, List.drop_zero, List.take_succ_cons, List.take_zero]
  repeat' (first | refine ⟨?_, ?_⟩ | exact writes_sub_of_mem (by decide))
theorem wr6 : (seg (F := F) 41 9).Forall fun op => op.writes ⊆ (L6.map (Proc.devRef (τ := τ) .tc)).toFinset := by
  simp only [seg, ops, List.drop_succ_cons, List.drop_zero, List.take_succ_cons, List.take_zero]
  repeat' (first | refine ⟨?_, ?_⟩ | exact writes_sub_of_mem (by decide))
theorem wr7 : (seg (F := F) 50 9).Forall fun op => op.writes ⊆ (L7.map (Proc.devRef (τ := τ) .tc)).toFinset := by
  simp only [seg, ops, List.drop_succ_cons, List.drop_zero, List.take_succ_cons, List.take_zero]
  repeat' (first | refine ⟨?_, ?_⟩ | exact writes_sub_of_mem (by decide))
theorem wr8 : (seg (F := F) 59 1).Forall fun op => op.writes ⊆ (L8.map (Proc.devRef (τ := τ) .tc)).toFinset := by
  simp only [seg, ops, List.drop_succ_cons, List.drop_zero, List.take_succ_cons, List.take_zero]
  repeat' (first | refine ⟨?_, ?_⟩ | exact writes_sub_of_mem (by decide))
theorem wr9 : (seg (F := F) 60 18).Forall fun op => op.writes ⊆ (L9.map (Proc.devRef (τ := τ) .tc)).toFinset := by
  simp only [seg, ops, List.drop_succ_cons, List.drop_zero, List.take_succ_cons, List.take_zero]
  repeat' (first | refine ⟨?_, ?_⟩ | exact writes_sub_of_mem (by decide))
theorem wr10 : (seg (F := F) 78 5).Forall fun op => op.writes ⊆ (L10.map (Proc.devRef (τ := τ) .tc)).toFinset := by
  simp only [seg, ops, List.drop_succ_cons, List.drop_zero, List.take_succ_cons, List.take_zero]
  repeat' (first | refine ⟨?_, ?_⟩ | exact writes_sub_of_mem (by decide))
theorem wr11 : (seg (F := F) 83 41).Forall fun op => op.writes ⊆ (L11.map (Proc.devRef (τ := τ) .tc)).toFinset := by
  simp only [seg, ops, List.drop_succ_cons, List.drop_zero, List.take_succ_cons, List.take_zero]
  repeat' (first | refine ⟨?_, ?_⟩ | exact writes_sub_of_mem (by decide))
theorem wr12 : (seg (F := F) 124 41).Forall fun op => op.writes ⊆ (L12.map (Proc.devRef (τ := τ) .tc)).toFinset := by
  simp only [seg, ops, List.drop_succ_cons, List.drop_zero, List.take_succ_cons, List.take_zero]
  repeat' (first | refine ⟨?_, ?_⟩ | exact writes_sub_of_mem (by decide))
theorem wr13 : (seg (F := F) 165 41).Forall fun op => op.writes ⊆ (L13.map (Proc.devRef (τ := τ) .tc)).toFinset := by
  simp only [seg, ops, List.drop_succ_cons, List.drop_zero, List.take_succ_cons, List.take_zero]
  repeat' (first | refine ⟨?_, ?_⟩ | exact writes_sub_of_mem (by decide))

/-! ## Each stretch's result, from the stages it reads -/

theorem stage_v6 {W : Valuation τ sig (Elt F)} (hk : Kept B W) :
    after (seg 0 9) W (Proc.devRef .tc main_v6) = s6 B := by
  simp only [seg, ops, List.drop_succ_cons, List.drop_zero, List.take_succ_cons, List.take_zero]
  after_results_simp
  rw [hk main_arg0 (by decide), hk main_arg2 (by decide)]
  rfl

theorem stage_v13 {W : Valuation τ sig (Elt F)} (hk : Kept B W) :
    after (seg 9 9) W (Proc.devRef .tc main_v13) = s13 B := by
  simp only [seg, ops, List.drop_succ_cons, List.drop_zero, List.take_succ_cons, List.take_zero]
  after_results_simp
  rw [hk main_arg0 (by decide), hk main_arg3 (by decide)]
  rfl

theorem stage_v14 {W : Valuation τ sig (Elt F)} (hk : Kept B W) (h6 : W (Proc.devRef .tc main_v6) = s6 B) (h13 : W (Proc.devRef .tc main_v13) = s13 B) :
    after (seg 18 1) W (Proc.devRef .tc main_v14) = s14 B := by
  simp only [seg, ops, List.drop_succ_cons, List.drop_zero, List.take_succ_cons, List.take_zero]
  simp only [after_cons, after_nil]
  rw [nary_result]
  show concatenate S500000x384 1 [⟨S500000x128, W (Proc.devRef .tc main_v6)⟩, ⟨S500000x128, W (Proc.devRef .tc main_v13)⟩,
      ⟨S500000x128, W (Proc.devRef .tc main_arg1)⟩] concatenates_S500000x128_S500000x128_S500000x128_S500000x384_d1 = _
  rw [h6, h13, hk main_arg1 (by decide)]
  rfl

theorem stage_v28 {W : Valuation τ sig (Elt F)} (hk : Kept B W) (h14 : W (Proc.devRef .tc main_v14) = s14 B) :
    after (seg 19 18) W (Proc.devRef .tc main_v28) = s28 B := by
  simp only [seg, ops, List.drop_succ_cons, List.drop_zero, List.take_succ_cons, List.take_zero]
  after_results_simp
  rw [h14, hk main_arg5 (by decide), hk main_arg6 (by decide), hk main_arg7 (by decide), hk main_arg8 (by decide), hk main_arg9 (by decide), hk main_arg10 (by decide)]
  rfl

theorem stage_v31 {W : Valuation τ sig (Elt F)} (hk : Kept B W) (h28 : W (Proc.devRef .tc main_v28) = s28 B) :
    after (seg 37 4) W (Proc.devRef .tc main_v31) = s31 B := by
  simp only [seg, ops, List.drop_succ_cons, List.drop_zero, List.take_succ_cons, List.take_zero]
  after_results_simp
  rw [h28, hk main_arg3 (by decide)]
  rfl

theorem stage_v38 {W : Valuation τ sig (Elt F)} (hk : Kept B W) :
    after (seg 41 9) W (Proc.devRef .tc main_v38) = s38 B := by
  simp only [seg, ops, List.drop_succ_cons, List.drop_zero, List.take_succ_cons, List.take_zero]
  after_results_simp
  rw [hk main_arg0 (by decide), hk main_arg3 (by decide)]
  rfl

theorem stage_v45 {W : Valuation τ sig (Elt F)} (hk : Kept B W) :
    after (seg 50 9) W (Proc.devRef .tc main_v45) = s45 B := by
  simp only [seg, ops, List.drop_succ_cons, List.drop_zero, List.take_succ_cons, List.take_zero]
  after_results_simp
  rw [hk main_arg0 (by decide), hk main_arg2 (by decide)]
  rfl

theorem stage_v46 {W : Valuation τ sig (Elt F)} (hk : Kept B W) (h38 : W (Proc.devRef .tc main_v38) = s38 B) (h45 : W (Proc.devRef .tc main_v45) = s45 B) :
    after (seg 59 1) W (Proc.devRef .tc main_v46) = s46 B := by
  simp only [seg, ops, List.drop_succ_cons, List.drop_zero, List.take_succ_cons, List.take_zero]
  simp only [after_cons, after_nil]
  rw [nary_result]
  show concatenate S500000x384 1 [⟨S500000x128, W (Proc.devRef .tc main_v38)⟩, ⟨S500000x128, W (Proc.devRef .tc main_v45)⟩,
      ⟨S500000x128, W (Proc.devRef .tc main_arg1)⟩] concatenates_S500000x128_S500000x128_S500000x128_S500000x384_d1 = _
  rw [h38, h45, hk main_arg1 (by decide)]
  rfl

theorem stage_v60 {W : Valuation τ sig (Elt F)} (hk : Kept B W) (h46 : W (Proc.devRef .tc main_v46) = s46 B) :
    after (seg 60 18) W (Proc.devRef .tc main_v60) = s60 B := by
  simp only [seg, ops, List.drop_succ_cons, List.drop_zero, List.take_succ_cons, List.take_zero]
  after_results_simp
  rw [h46, hk main_arg5 (by decide), hk main_arg6 (by decide), hk main_arg7 (by decide), hk main_arg8 (by decide), hk main_arg9 (by decide), hk main_arg10 (by decide)]
  rfl

theorem stage_v64 {W : Valuation τ sig (Elt F)} (hk : Kept B W) (h31 : W (Proc.devRef .tc main_v31) = s31 B) (h60 : W (Proc.devRef .tc main_v60) = s60 B) :
    after (seg 78 5) W (Proc.devRef .tc main_v64) = s64 B := by
  simp only [seg, ops, List.drop_succ_cons, List.drop_zero, List.take_succ_cons, List.take_zero]
  after_results_simp
  rw [h31, h60, hk main_arg2 (by decide)]
  rfl

theorem stage_v100 {W : Valuation τ sig (Elt F)} (hk : Kept B W) (h64 : W (Proc.devRef .tc main_v64) = s64 B) :
    after (seg 83 41) W (Proc.devRef .tc main_v100) = s100 B := by
  simp only [seg, ops, List.drop_succ_cons, List.drop_zero, List.take_succ_cons, List.take_zero]
  after_results_simp
  rw [h64, hk main_arg0 (by decide), hk main_arg11 (by decide), hk main_arg12 (by decide), hk main_arg13 (by decide), hk main_arg14 (by decide)]
  rfl

theorem stage_v136 {W : Valuation τ sig (Elt F)} (hk : Kept B W) (h64 : W (Proc.devRef .tc main_v64) = s64 B) (h100 : W (Proc.devRef .tc main_v100) = s100 B) :
    after (seg 124 41) W (Proc.devRef .tc main_v136) = s136 B := by
  simp only [seg, ops, List.drop_succ_cons, List.drop_zero, List.take_succ_cons, List.take_zero]
  after_results_simp
  rw [h64, h100, hk main_arg15 (by decide), hk main_arg16 (by decide), hk main_arg17 (by decide), hk main_arg18 (by decide)]
  rfl

theorem stage_v172 {W : Valuation τ sig (Elt F)} (hk : Kept B W) (h100 : W (Proc.devRef .tc main_v100) = s100 B) (h136 : W (Proc.devRef .tc main_v136) = s136 B) :
    after (seg 165 41) W (Proc.devRef .tc main_v172) = s172 B := by
  simp only [seg, ops, List.drop_succ_cons, List.drop_zero, List.take_succ_cons, List.take_zero]
  after_results_simp
  rw [h100, h136, hk main_arg19 (by decide), hk main_arg20 (by decide), hk main_arg21 (by decide), hk main_arg22 (by decide)]
  rfl

/-! ## The whole line -/

/-- The fold of two stretches run one after the other is the fold of the second over the fold of the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The 206 operations are the thirteen stretches laid end to end. -/
theorem ops_split : (ops (F := F)) = seg 0 9 ++ (seg 9 9 ++ (seg 18 1 ++ (seg 19 18 ++ (seg 37 4 ++ (seg 41 9 ++ (seg 50 9 ++ (seg 59 1 ++ (seg 60 18 ++ (seg 78 5 ++ (seg 83 41 ++ (seg 124 41 ++ (seg 165 41)))))))))))) := rfl

/-- From any contents `B`, the fold of the whole line leaves the result buffer at the last stage of `B`'s arguments and
    keeps the arguments. -/
theorem run_facts (B : Valuation τ sig (Elt F)) :
    after (ops (F := F)) B (Proc.devRef .tc main_v172) = s172 B ∧ Kept B (after (ops (F := F)) B) := by
  rw [ops_split]
  simp only [after_app]
  have k0 : Kept B B := kept_refl B
  -- stretch 1: operations 0 to 8, writing v6
  have g6 := stage_v6 k0
  have k1 := kept_step wr1 (by decide) k0
  generalize after (seg 0 9) B = W1 at g6 k1 ⊢
  clear k0
  have f6 := g6
  clear g6
  -- stretch 2: operations 9 to 17, writing v13
  have g13 := stage_v13 k1
  have c6 := (after_of_writes_sub (seg 9 9) W1 wr2 (by decide : main_v6 ∉ L2)).trans f6
  have k2 := kept_step wr2 (by decide) k1
  generalize after (seg 9 9) W1 = W2 at g13 c6 k2 ⊢
  clear f6 k1
  have f13 := g13; have f6 := c6
  clear g13 c6
  -- stretch 3: operations 18 to 18, writing v14
  have g14 := stage_v14 k2 f6 f13
  have k3 := kept_step wr3 (by decide) k2
  generalize after (seg 18 1) W2 = W3 at g14 k3 ⊢
  clear f6 f13 k2
  have f14 := g14
  clear g14
  -- stretch 4: operations 19 to 36, writing v28
  have g28 := stage_v28 k3 f14
  have k4 := kept_step wr4 (by decide) k3
  generalize after (seg 19 18) W3 = W4 at g28 k4 ⊢
  clear f14 k3
  have f28 := g28
  clear g28
  -- stretch 5: operations 37 to 40, writing v31
  have g31 := stage_v31 k4 f28
  have k5 := kept_step wr5 (by decide) k4
  generalize after (seg 37 4) W4 = W5 at g31 k5 ⊢
  clear f28 k4
  have f31 := g31
  clear g31
  -- stretch 6: operations 41 to 49, writing v38
  have g38 := stage_v38 k5
  have c31 := (after_of_writes_sub (seg 41 9) W5 wr6 (by decide : main_v31 ∉ L6)).trans f31
  have k6 := kept_step wr6 (by decide) k5
  generalize after (seg 41 9) W5 = W6 at g38 c31 k6 ⊢
  clear f31 k5
  have f38 := g38; have f31 := c31
  clear g38 c31
  -- stretch 7: operations 50 to 58, writing v45
  have g45 := stage_v45 k6
  have c31 := (after_of_writes_sub (seg 50 9) W6 wr7 (by decide : main_v31 ∉ L7)).trans f31
  have c38 := (after_of_writes_sub (seg 50 9) W6 wr7 (by decide : main_v38 ∉ L7)).trans f38
  have k7 := kept_step wr7 (by decide) k6
  generalize after (seg 50 9) W6 = W7 at g45 c31 c38 k7 ⊢
  clear f31 f38 k6
  have f45 := g45; have f31 := c31; have f38 := c38
  clear g45 c31 c38
  -- stretch 8: operations 59 to 59, writing v46
  have g46 := stage_v46 k7 f38 f45
  have c31 := (after_of_writes_sub (seg 59 1) W7 wr8 (by decide : main_v31 ∉ L8)).trans f31
  have k8 := kept_step wr8 (by decide) k7
  generalize after (seg 59 1) W7 = W8 at g46 c31 k8 ⊢
  clear f31 f38 f45 k7
  have f46 := g46; have f31 := c31
  clear g46 c31
  -- stretch 9: operations 60 to 77, writing v60
  have g60 := stage_v60 k8 f46
  have c31 := (after_of_writes_sub (seg 60 18) W8 wr9 (by decide : main_v31 ∉ L9)).trans f31
  have k9 := kept_step wr9 (by decide) k8
  generalize after (seg 60 18) W8 = W9 at g60 c31 k9 ⊢
  clear f31 f46 k8
  have f60 := g60; have f31 := c31
  clear g60 c31
  -- stretch 10: operations 78 to 82, writing v64
  have g64 := stage_v64 k9 f31 f60
  have k10 := kept_step wr10 (by decide) k9
  generalize after (seg 78 5) W9 = W10 at g64 k10 ⊢
  clear f31 f60 k9
  have f64 := g64
  clear g64
  -- stretch 11: operations 83 to 123, writing v100
  have g100 := stage_v100 k10 f64
  have c64 := (after_of_writes_sub (seg 83 41) W10 wr11 (by decide : main_v64 ∉ L11)).trans f64
  have k11 := kept_step wr11 (by decide) k10
  generalize after (seg 83 41) W10 = W11 at g100 c64 k11 ⊢
  clear f64 k10
  have f100 := g100; have f64 := c64
  clear g100 c64
  -- stretch 12: operations 124 to 164, writing v136
  have g136 := stage_v136 k11 f64 f100
  have c100 := (after_of_writes_sub (seg 124 41) W11 wr12 (by decide : main_v100 ∉ L12)).trans f100
  have k12 := kept_step wr12 (by decide) k11
  generalize after (seg 124 41) W11 = W12 at g136 c100 k12 ⊢
  clear f64 f100 k11
  have f136 := g136; have f100 := c100
  clear g136 c100
  -- stretch 13: operations 165 to 205, writing v172
  have g172 := stage_v172 k12 f100 f136
  have k13 := kept_step wr13 (by decide) k12
  exact ⟨g172, k13⟩

end Stages

/-! ## The run -/

/-- Every weakly fair execution of the reference terminates with the result buffer at the last stage of the arguments
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v172) = val_main_v172 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) := by
  -- every buffer ends at the fold of the 206 operations over the launch contents; the fold is read off stretch by stretch
  refine (θ_run defs _ _).mono (fun _ h c => ?_)
    (run_seq scopedRefs_eq scopedSems_eq defs main (fun _ => ops) main_eq (fun _ => ops_sub) m ρ)
  obtain ⟨hv, hk⟩ := run_facts (F := F) (launchContents m c)
  exact ⟨(h c main_v172).trans hv,
    (h c main_arg0).trans (hk main_arg0 (by decide)), (h c main_arg1).trans (hk main_arg1 (by decide)),
    (h c main_arg2).trans (hk main_arg2 (by decide)), (h c main_arg3).trans (hk main_arg3 (by decide)),
    (h c main_arg4).trans (hk main_arg4 (by decide)), (h c main_arg5).trans (hk main_arg5 (by decide)),
    (h c main_arg6).trans (hk main_arg6 (by decide)), (h c main_arg7).trans (hk main_arg7 (by decide)),
    (h c main_arg8).trans (hk main_arg8 (by decide)), (h c main_arg9).trans (hk main_arg9 (by decide)),
    (h c main_arg10).trans (hk main_arg10 (by decide)), (h c main_arg11).trans (hk main_arg11 (by decide)),
    (h c main_arg12).trans (hk main_arg12 (by decide)), (h c main_arg13).trans (hk main_arg13 (by decide)),
    (h c main_arg14).trans (hk main_arg14 (by decide)), (h c main_arg15).trans (hk main_arg15 (by decide)),
    (h c main_arg16).trans (hk main_arg16 (by decide)), (h c main_arg17).trans (hk main_arg17 (by decide)),
    (h c main_arg18).trans (hk main_arg18 (by decide)), (h c main_arg19).trans (hk main_arg19 (by decide)),
    (h c main_arg20).trans (hk main_arg20 (by decide)), (h c main_arg21).trans (hk main_arg21 (by decide)),
    (h c main_arg22).trans (hk main_arg22 (by decide))⟩

end Cert.RefRun

end
-- ==== Proof.RefMlp.lean ====
/-
  The reference's two message stages, entry by entry. Edge `e`'s forward message is the perceptron of (row `e` of the
  gathered source rows, row `e` of the gathered target rows, row `e` of the edge features); its backward message swaps
  the first two. Each layer is a contraction over one axis plus a bias laid along the rows; the positive part is the
  maximum with the zero word.
-/
import proofs.«128451_j72730976190873_1_alg».proof.Proof.RefRead
import proofs.«128451_j72730976190873_1_alg».proof.Proof.Spec
import proofs.«128451_j72730976190873_1_alg».proof.Proof.LibRows
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RefMlp

open Cert.ReferenceIdeal Cert.ReferenceIdeal.Gen Cert.ReferenceIdeal.ReadP Idealize.ShloMosaic Idealize.ShloMosaic.ValueIdx Cert.Spec

variable (x0 : (⟨S50000x128, .f32⟩ : BufTy).Contents (Elt Ideal)) (x1 : (⟨S500000x128, .f32⟩ : BufTy).Contents (Elt Ideal))
  (x2 x3 : (⟨S500000, .i32⟩ : BufTy).Contents (Elt Ideal))
  (x5 : (⟨S384x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))

/-! ## The forward stage -/

/-- The first contraction reads its left operand at `(e, k)` … -/
theorem fwd_l1 (e : Fin 500000) (j : Fin 128) (k : Fin 384) : lidx_main_v15 (ix2 e j) k = ix2 e k :=
  funext fun a => Fin.ext (by match a with | ⟨0, _⟩ => rfl | ⟨1, _⟩ => rfl)
/-- … and its right operand at `(k, j)`. -/
theorem fwd_r1 (e : Fin 500000) (j : Fin 128) (k : Fin 384) : ridx_main_v15 (ix2 e j) k = ix2 k j :=
  funext fun a => Fin.ext (by match a with | ⟨0, _⟩ => rfl | ⟨1, _⟩ => rfl)
/-- The first bias, laid along the rows, is read at `j`. -/
theorem fwd_b1 (e : Fin 500000) (j : Fin 128) : idx_main_v16 (idx_main_v17 (ix2 e j)) = ix1 j :=
  funext fun a => Fin.ext (by match a with | ⟨0, _⟩ => rfl)

/-- The three blocks laid side by side, read at `(e, k)`, are the concatenated row of edge `e` at `k`. -/
theorem fwd_cat (e : Fin 500000) (k : Fin 384) :
    val_main_v14 (F := Ideal) x0 x1 x2 x3 (ix2 e k)
      = cat3 (row (R := 500000) (C := 128) (val_main_v6 (F := Ideal) x0 x2) e)
          (row (R := 500000) (C := 128) (val_main_v13 (F := Ideal) x0 x3) e) (row (R := 500000) (C := 128) x1 e) k := by
  unfold val_main_v14
  exact Cert.LibRows.concat3_cols_apply (R := 500000) (K := 128) (val_main_v6 (F := Ideal) x0 x2)
    (val_main_v13 (F := Ideal) x0 x3) x1 concatenates_S500000x128_S500000x128_S500000x128_S500000x384_d1 e k

/-- The first layer with its positive part, at `(e, j)`. -/
theorem fwd_h1 (e : Fin 500000) (j : Fin 128) :
    val_main_v19 (F := Ideal) x0 x1 x2 x3 x5 x6 (ix2 e j)
      = relu (dense (cat3 (row (R := 500000) (C := 128) (val_main_v6 (F := Ideal) x0 x2) e)
          (row (R := 500000) (C := 128) (val_main_v13 (F := Ideal) x0 x3) e) (row (R := 500000) (C := 128) x1 e)) x5 x6 j) := by
  rw [val_main_v19_apply, val_main_v18_apply, val_main_v15_apply, val_main_v17_apply, val_main_v16_apply,
    val_main_call0_v0_apply, val_main_call0_cst_apply]
  simp only [fwd_l1, fwd_r1, fwd_b1, fwd_cat, Ideal.addf_def, Ideal.maximumf_def, Ideal.ofBits_def, Ideal.ofBits_zero_f32]
  rfl

/-- The second contraction reads its left operand at `(e, k)` … -/
theorem fwd_l2 (e : Fin 500000) (j k : Fin 128) : lidx_main_v20 (ix2 e j) k = ix2 e k :=
  funext fun a => Fin.ext (by match a with | ⟨0, _⟩ => rfl | ⟨1, _⟩ => rfl)
/-- … and its right operand at `(k, j)`. -/
theorem fwd_r2 (e : Fin 500000) (j k : Fin 128) : ridx_main_v20 (ix2 e j) k = ix2 k j :=
  funext fun a => Fin.ext (by match a with | ⟨0, _⟩ => rfl | ⟨1, _⟩ => rfl)
/-- The second bias, laid along the rows, is read at `j`. -/
theorem fwd_b2 (e : Fin 500000) (j : Fin 128) : idx_main_v21 (idx_main_v22 (ix2 e j)) = ix1 j :=
  funext fun a => Fin.ext (by match a with | ⟨0, _⟩ => rfl)

/-- The second layer with its positive part, at `(e, j)`, over the first layer's row `e`. -/
theorem fwd_h2 (e : Fin 500000) (j : Fin 128) :
    val_main_v24 (F := Ideal) x0 x1 x2 x3 x5 x6 x7 x8 (ix2 e j)
      = relu (dense (fun k => val_main_v19 (F := Ideal) x0 x1 x2 x3 x5 x6 (ix2 e k)) x7 x8 j) := by
  rw [val_main_v24_apply, val_main_v23_apply, val_main_v20_apply, val_main_v22_apply, val_main_v21_apply,
    val_main_call1_v0_apply, val_main_call1_cst_apply]
  simp only [fwd_l2, fwd_r2, fwd_b2, Ideal.addf_def, Ideal.maximumf_def, Ideal.ofBits_def, Ideal.ofBits_zero_f32]
  rfl

/-- The third contraction reads its left operand at `(e, k)` … -/
theorem fwd_l3 (e : Fin 500000) (j k : Fin 128) : lidx_main_v25 (ix2 e j) k = ix2 e k :=
  funext fun a => Fin.ext (by match a with | ⟨0, _⟩ => rfl | ⟨1, _⟩ => rfl)
/-- … and its right operand at `(k, j)`. -/
theorem fwd_r3 (e : Fin 500000) (j k : Fin 128) : ridx_main_v25 (ix2 e j) k = ix2 k j :=
  funext fun a => Fin.ext (by match a with | ⟨0, _⟩ => rfl | ⟨1, _⟩ => rfl)
/-- The third bias, laid along the rows, is read at `j`. -/
theorem fwd_b3 (e : Fin 500000) (j : Fin 128) : idx_main_v26 (idx_main_v27 (ix2 e j)) = ix1 j :=
  funext fun a => Fin.ext (by match a with | ⟨0, _⟩ => rfl)

/-- The third layer, at `(e, j)`, over the second layer's row `e`. -/
theorem fwd_h3 (e : Fin 500000) (j : Fin 128) :
    val_main_v28 (F := Ideal) x0 x1 x2 x3 x5 x6 x7 x8 x9 x10 (ix2 e j)
      = dense (fun k => val_main_v24 (F := Ideal) x0 x1 x2 x3 x5 x6 x7 x8 (ix2 e k)) x9 x10 j := by
  rw [val_main_v28_apply, val_main_v25_apply, val_main_v27_apply, val_main_v26_apply]
  simp only [fwd_l3, fwd_r3, fwd_b3, Ideal.addf_def]
  rfl

/-- The forward message stage at `(e, j)`. -/
theorem msg_fwd_apply (e : Fin 500000) (j : Fin 128) :
    val_main_v28 (F := Ideal) x0 x1 x2 x3 x5 x6 x7 x8 x9 x10 (ix2 e j)
      = mlp x5 x6 x7 x8 x9 x10 (row (R := 500000) (C := 128) (val_main_v6 (F := Ideal) x0 x2) e)
          (row (R := 500000) (C := 128) (val_main_v13 (F := Ideal) x0 x3) e) (row (R := 500000) (C := 128) x1 e) j := by
  rw [fwd_h3]
  simp only [fwd_h2, fwd_h1]
  rfl

/-! ## The backward stage: the same operations on the rows in the other order -/

/-- The first contraction reads its left operand at `(e, k)` … -/
theorem rev_l1 (e : Fin 500000) (j : Fin 128) (k : Fin 384) : lidx_main_v47 (ix2 e j) k = ix2 e k :=
  funext fun a => Fin.ext (by match a with | ⟨0, _⟩ => rfl | ⟨1, _⟩ => rfl)
/-- … and its right operand at `(k, j)`. -/
theorem rev_r1 (e : Fin 500000) (j : Fin 128) (k : Fin 384) : ridx_main_v47 (ix2 e j) k = ix2 k j :=
  funext fun a => Fin.ext (by match a with | ⟨0, _⟩ => rfl | ⟨1, _⟩ => rfl)
/-- The first bias, laid along the rows, is read at `j`. -/
theorem rev_b1 (e : Fin 500000) (j : Fin 128) : idx_main_v48 (idx_main_v49 (ix2 e j)) = ix1 j :=
  funext fun a => Fin.ext (by match a with | ⟨0, _⟩ => rfl)

/-- The three blocks laid side by side, read at `(e, k)`, are the concatenated row of edge `e` at `k`. -/
theorem rev_cat (e : Fin 500000) (k : Fin 384) :
    val_main_v46 (F := Ideal) x0 x1 x2 x3 (ix2 e k)
      = cat3 (row (R := 500000) (C := 128) (val_main_v38 (F := Ideal) x0 x3) e)
          (row (R := 500000) (C := 128) (val_main_v45 (F := Ideal) x0 x2) e) (row (R := 500000) (C := 128) x1 e) k := by
  unfold val_main_v46
  exact Cert.LibRows.concat3_cols_apply (R := 500000) (K := 128) (val_main_v38 (F := Ideal) x0 x3)
    (val_main_v45 (F := Ideal) x0 x2) x1 concatenates_S500000x128_S500000x128_S500000x128_S500000x384_d1 e k

/-- The first layer with its positive part, at `(e, j)`. -/
theorem rev_h1 (e : Fin 500000) (j : Fin 128) :
    val_main_v51 (F := Ideal) x0 x1 x2 x3 x5 x6 (ix2 e j)
      = relu (dense (cat3 (row (R := 500000) (C := 128) (val_main_v38 (F := Ideal) x0 x3) e)
          (row (R := 500000) (C := 128) (val_main_v45 (F := Ideal) x0 x2) e) (row (R := 500000) (C := 128) x1 e)) x5 x6 j) := by
  rw [val_main_v51_apply, val_main_v50_apply, val_main_v47_apply, val_main_v49_apply, val_main_v48_apply,
    val_main_call2_v0_apply, val_main_call2_cst_apply]
  simp only [rev_l1, rev_r1, rev_b1, rev_cat, Ideal.addf_def, Ideal.maximumf_def, Ideal.ofBits_def, Ideal.ofBits_zero_f32]
  rfl

/-- The second contraction reads its left operand at `(e, k)` … -/
theorem rev_l2 (e : Fin 500000) (j k : Fin 128) : lidx_main_v52 (ix2 e j) k = ix2 e k :=
  funext fun a => Fin.ext (by match a with | ⟨0, _⟩ => rfl | ⟨1, _⟩ => rfl)
/-- … and its right operand at `(k, j)`. -/
theorem rev_r2 (e : Fin 500000) (j k : Fin 128) : ridx_main_v52 (ix2 e j) k = ix2 k j :=
  funext fun a => Fin.ext (by match a with | ⟨0, _⟩ => rfl | ⟨1, _⟩ => rfl)
/-- The second bias, laid along the rows, is read at `j`. -/
theorem rev_b2 (e : Fin 500000) (j : Fin 128) : idx_main_v53 (idx_main_v54 (ix2 e j)) = ix1 j :=
  funext fun a => Fin.ext (by match a with | ⟨0, _⟩ => rfl)

/-- The second layer with its positive part, at `(e, j)`, over the first layer's row `e`. -/
theorem rev_h2 (e : Fin 500000) (j : Fin 128) :
    val_main_v56 (F := Ideal) x0 x1 x2 x3 x5 x6 x7 x8 (ix2 e j)
      = relu (dense (fun k => val_main_v51 (F := Ideal) x0 x1 x2 x3 x5 x6 (ix2 e k)) x7 x8 j) := by
  rw [val_main_v56_apply, val_main_v55_apply, val_main_v52_apply, val_main_v54_apply, val_main_v53_apply,
    val_main_call3_v0_apply, val_main_call3_cst_apply]
  simp only [rev_l2, rev_r2, rev_b2, Ideal.addf_def, Ideal.maximumf_def, Ideal.ofBits_def, Ideal.ofBits_zero_f32]
  rfl

/-- The third contraction reads its left operand at `(e, k)` … -/
theorem rev_l3 (e : Fin 500000) (j k : Fin 128) : lidx_main_v57 (ix2 e j) k = ix2 e k :=
  funext fun a => Fin.ext (by match a with | ⟨0, _⟩ => rfl | ⟨1, _⟩ => rfl)
/-- … and its right operand at `(k, j)`. -/
theorem rev_r3 (e : Fin 500000) (j k : Fin 128) : ridx_main_v57 (ix2 e j) k = ix2 k j :=
  funext fun a => Fin.ext (by match a with | ⟨0, _⟩ => rfl | ⟨1, _⟩ => rfl)
/-- The third bias, laid along the rows, is read at `j`. -/
theorem rev_b3 (e : Fin 500000) (j : Fin 128) : idx_main_v58 (idx_main_v59 (ix2 e j)) = ix1 j :=
  funext fun a => Fin.ext (by match a with | ⟨0, _⟩ => rfl)

/-- The third layer, at `(e, j)`, over the second layer's row `e`. -/
theorem rev_h3 (e : Fin 500000) (j : Fin 128) :
    val_main_v60 (F := Ideal) x0 x1 x2 x3 x5 x6 x7 x8 x9 x10 (ix2 e j)
      = dense (fun k => val_main_v56 (F := Ideal) x0 x1 x2 x3 x5 x6 x7 x8 (ix2 e k)) x9 x10 j := by
  rw [val_main_v60_apply, val_main_v57_apply, val_main_v59_apply, val_main_v58_apply]
  simp only [rev_l3, rev_r3, rev_b3, Ideal.addf_def]
  rfl

/-- The backward message stage at `(e, j)`. -/
theorem msg_rev_apply (e : Fin 500000) (j : Fin 128) :
    val_main_v60 (F := Ideal) x0 x1 x2 x3 x5 x6 x7 x8 x9 x10 (ix2 e j)
      = mlp x5 x6 x7 x8 x9 x10 (row (R := 500000) (C := 128) (val_main_v38 (F := Ideal) x0 x3) e)
          (row (R := 500000) (C := 128) (val_main_v45 (F := Ideal) x0 x2) e) (row (R := 500000) (C := 128) x1 e) j := by
  rw [rev_h3]
  simp only [rev_h2, rev_h1]
  rfl

end Cert.RefMlp

end
-- ==== Proof.RefGru.lean ====
/-
  The reference's three gated recurrent stages, entry by entry, each over the stage before it: the first updates the
  aggregate against the node rows, the second the first result against the aggregate, the third the second result
  against the first. The reference spells the logistic as `1 / (1 + e⁻ˣ)`, which is the logistic on the extended reals.
-/
import proofs.«128451_j72730976190873_1_alg».proof.Proof.RefRead
import proofs.«128451_j72730976190873_1_alg».proof.Proof.Spec
import proofs.«128451_j72730976190873_1_alg».proof.Proof.LibRows
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RefGru

open Cert.ReferenceIdeal Cert.ReferenceIdeal.Gen Cert.ReferenceIdeal.ReadP Idealize.ShloMosaic Idealize.ShloMosaic.ValueIdx Cert.Spec

variable (x0 : (⟨S50000x128, .f32⟩ : BufTy).Contents (Elt Ideal)) (x1 : (⟨S500000x128, .f32⟩ : BufTy).Contents (Elt Ideal))
  (x2 x3 : (⟨S500000, .i32⟩ : BufTy).Contents (Elt Ideal))
  (x5 : (⟨S384x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))
  (x11 x12 : (⟨S128x384, .f32⟩ : BufTy).Contents (Elt Ideal)) (x13 x14 : (⟨S384, .f32⟩ : BufTy).Contents (Elt Ideal))
  (x15 x16 : (⟨S128x384, .f32⟩ : BufTy).Contents (Elt Ideal)) (x17 x18 : (⟨S384, .f32⟩ : BufTy).Contents (Elt Ideal))
  (x19 x20 : (⟨S128x384, .f32⟩ : BufTy).Contents (Elt Ideal)) (x21 x22 : (⟨S384, .f32⟩ : BufTy).Contents (Elt Ideal))

/-! ## The affine layer, read entry by entry -/

/-- A sum of products along the input's row `n` against column `k` of the weights, plus entry `k` of the bias, is the
    affine layer on that row at `k`. The three index functions are whatever read the row, the column and the bias. -/
theorem dense_of_reads (X : Mat 50000 128) (W : Mat 128 384) (b : Vc 384) (n : Fin 50000) (k : Fin 384)
    (li : Fin 128 → (⟨2, ![50000, 128]⟩ : Shape).Idx) (ri : Fin 128 → (⟨2, ![128, 384]⟩ : Shape).Idx)
    (bi : (⟨1, ![384]⟩ : Shape).Idx)
    (hl : ∀ q, li q = ix2 n q) (hr : ∀ q, ri q = ix2 q k) (hb : bi = ix1 k) :
    (∑ q : Fin 128, X (li q) * W (ri q)) + b bi = dense (row X n) W b k := by
  subst hb
  simp only [hl, hr]
  rfl

/-! ## The first update: input the node rows, state the aggregate -/

/-- The input's affine map of the first update at `(n, k)`: the affine layer on the input's row `n`. -/
theorem gi1 (n : Fin 50000) (k : Fin 384) :
    val_main_v68 (F := Ideal) x0 x11 x13 (ix2 n k) = dense (row (R := 50000) (C := 128) x0 n) x11 x13 k := by
  rw [val_main_v68_apply, val_main_v65_apply, val_main_v67_apply, val_main_v66_apply]
  exact dense_of_reads x0 x11 x13 n k _ _ _
    (fun q => funext fun a => Fin.ext (by match a with | ⟨0, _⟩ => rfl | ⟨1, _⟩ => rfl))
    (fun q => funext fun a => Fin.ext (by match a with | ⟨0, _⟩ => rfl | ⟨1, _⟩ => rfl))
    (funext fun a => Fin.ext (by match a with | ⟨0, _⟩ => rfl))

/-- The state's affine map of the first update at `(n, k)`: the affine layer on the state's row `n`. -/
theorem gh1 (n : Fin 50000) (k : Fin 384) :
    val_main_v72 (F := Ideal) x0 x1 x2 x3 x5 x6 x7 x8 x9 x10 x12 x14 (ix2 n k) = dense (row (R := 50000) (C := 128) (val_main_v64 (F := Ideal) x0 x1 x2 x3 x5 x6 x7 x8 x9 x10) n) x12 x14 k := by
  rw [val_main_v72_apply, val_main_v69_apply, val_main_v71_apply, val_main_v70_apply]
  exact dense_of_reads (val_main_v64 (F := Ideal) x0 x1 x2 x3 x5 x6 x7 x8 x9 x10) x12 x14 n k _ _ _
    (fun q => funext fun a => Fin.ext (by match a with | ⟨0, _⟩ => rfl | ⟨1, _⟩ => rfl))
    (fun q => funext fun a => Fin.ext (by match a with | ⟨0, _⟩ => rfl | ⟨1, _⟩ => rfl))
    (funext fun a => Fin.ext (by match a with | ⟨0, _⟩ => rfl))

/-- The first block of 128 columns of the input's affine map. -/
theorem gi1_c0 (n : Fin 50000) (j : Fin 128) :
    val_main_v73 (F := Ideal) x0 x11 x13 (ix2 n j) = dense (row (R := 50000) (C := 128) x0 n) x11 x13 (c0 j) := by
  have e : idx_main_v73 (ix2 n j) = ix2 n (c0 j) :=
    funext fun a => Fin.ext (by match a with | ⟨0, _⟩ => rfl | ⟨1, _⟩ => rfl)
  rw [val_main_v73_apply, e, gi1]

/-- The second block of 128 columns of the input's affine map. -/
theorem gi1_c1 (n : Fin 50000) (j : Fin 128) :
    val_main_v74 (F := Ideal) x0 x11 x13 (ix2 n j) = dense (row (R := 50000) (C := 128) x0 n) x11 x13 (c1 j) := by
  have e : idx_main_v74 (ix2 n j) = ix2 n (c1 j) :=
    funext fun a => Fin.ext (by match a with | ⟨0, _⟩ => rfl | ⟨1, _⟩ => rfl)
  rw [val_main_v74_apply, e, gi1]

/-- The third block of 128 columns of the input's affine map. -/
theorem gi1_c2 (n : Fin 50000) (j : Fin 128) :
    val_main_v75 (F := Ideal) x0 x11 x13 (ix2 n j) = dense (row (R := 50000) (C := 128) x0 n) x11 x13 (c2 j) := by
  have e : idx_main_v75 (ix2 n j) = ix2 n (c2 j) :=
    funext fun a => Fin.ext (by match a with | ⟨0, _⟩ => rfl | ⟨1, _⟩ => rfl)
  rw [val_main_v75_apply, e, gi1]

/-- The first block of 128 columns of the state's affine map. -/
theorem gh1_c0 (n : Fin 50000) (j : Fin 128) :
    val_main_v76 (F := Ideal) x0 x1 x2 x3 x5 x6 x7 x8 x9 x10 x12 x14 (ix2 n j) = dense (row (R := 50000) (C := 128) (val_main_v64 (F := Ideal) x0 x1 x2 x3 x5 x6 x7 x8 x9 x10) n) x12 x14 (c0 j) := by
  have e : idx_main_v76 (ix2 n j) = ix2 n (c0 j) :=
    funext fun a => Fin.ext (by match a with | ⟨0, _⟩ => rfl | ⟨1, _⟩ => rfl)
  rw [val_main_v76_apply, e, gh1]

/-- The second block of 128 columns of the state's affine map. -/
theorem gh1_c1 (n : Fin 50000) (j : Fin 128) :
    val_main_v77 (F := Ideal) x0 x1 x2 x3 x5 x6 x7 x8 x9 x10 x12 x14 (ix2 n j) = dense (row (R := 50000) (C := 128) (val_main_v64 (F := Ideal) x0 x1 x2 x3 x5 x6 x7 x8 x9 x10) n) x12 x14 (c1 j) := by
  have e : idx_main_v77 (ix2 n j) = ix2 n (c1 j) :=
    funext fun a => Fin.ext (by match a with | ⟨0, _⟩ => rfl | ⟨1, _⟩ => rfl)
  rw [val_main_v77_apply, e, gh1]

/-- The third block of 128 columns of the state's affine map. -/
theorem gh1_c2 (n : Fin 50000) (j : Fin 128) :
    val_main_v78 (F := Ideal) x0 x1 x2 x3 x5 x6 x7 x8 x9 x10 x12 x14 (ix2 n j) = dense (row (R := 50000) (C := 128) (val_main_v64 (F := Ideal) x0 x1 x2 x3 x5 x6 x7 x8 x9 x10) n) x12 x14 (c2 j) := by
  have e : idx_main_v78 (ix2 n j) = ix2 n (c2 j) :=
    funext fun a => Fin.ext (by match a with | ⟨0, _⟩ => rfl | ⟨1, _⟩ => rfl)
  rw [val_main_v78_apply, e, gh1]

/-- The reset gate: `1 / (1 + e^(-(gi₀ + gh₀)))` is the logistic of `gi₀ + gh₀`. -/
theorem r1 (n : Fin 50000) (j : Fin 128) :
    val_main_v85 (F := Ideal) x0 x1 x2 x3 x5 x6 x7 x8 x9 x10 x11 x12 x13 x14 (ix2 n j) = Ideal.logistic (dense (row (R := 50000) (C := 128) x0 n) x11 x13 (c0 j) + dense (row (R := 50000) (C := 128) (val_main_v64 (F := Ideal) x0 x1 x2 x3 x5 x6 x7 x8 x9 x10) n) x12 x14 (c0 j)) := by
  rw [val_main_v85_apply, val_main_v84_apply, val_main_cst_9_apply, val_main_v83_apply, val_main_v82_apply,
    val_main_cst_8_apply, val_main_v81_apply, val_main_v80_apply, val_main_v79_apply, gi1_c0, gh1_c0]
  simp only [Ideal.hostDivf_def, Ideal.addf_def, Ideal.hostUnary_exp_def, Ideal.hostNegf_def, Ideal.negf_def,
    Ideal.ofBits_def, Cert.Spec.ofBits_one]
  rfl

/-- The update gate: `1 / (1 + e^(-(gi₁ + gh₁)))` is the logistic of `gi₁ + gh₁`. -/
theorem z1 (n : Fin 50000) (j : Fin 128) :
    val_main_v92 (F := Ideal) x0 x1 x2 x3 x5 x6 x7 x8 x9 x10 x11 x12 x13 x14 (ix2 n j) = Ideal.logistic (dense (row (R := 50000) (C := 128) x0 n) x11 x13 (c1 j) + dense (row (R := 50000) (C := 128) (val_main_v64 (F := Ideal) x0 x1 x2 x3 x5 x6 x7 x8 x9 x10) n) x12 x14 (c1 j)) := by
  rw [val_main_v92_apply, val_main_v91_apply, val_main_cst_11_apply, val_main_v90_apply, val_main_v89_apply,
    val_main_cst_10_apply, val_main_v88_apply, val_main_v87_apply, val_main_v86_apply, gi1_c1, gh1_c1]
  simp only [Ideal.hostDivf_def, Ideal.addf_def, Ideal.hostUnary_exp_def, Ideal.hostNegf_def, Ideal.negf_def,
    Ideal.ofBits_def, Cert.Spec.ofBits_one]
  rfl

/-- The first update at `(n, j)`: input the node's row, state the node's aggregate row. -/
theorem h1_apply (n : Fin 50000) (j : Fin 128) :
    val_main_v100 (F := Ideal) x0 x1 x2 x3 x5 x6 x7 x8 x9 x10 x11 x12 x13 x14 (ix2 n j)
      = gru x11 x12 x13 x14 (row (R := 50000) (C := 128) x0 n)
          (row (R := 50000) (C := 128) (val_main_v64 (F := Ideal) x0 x1 x2 x3 x5 x6 x7 x8 x9 x10) n) j := by
  rw [val_main_v100_apply, val_main_v98_apply, val_main_v99_apply, val_main_v97_apply, val_main_v96_apply,
    val_main_cst_12_apply, val_main_v95_apply, val_main_v94_apply, val_main_v93_apply, z1, r1, gi1_c2, gh1_c2]
  simp only [Ideal.addf_def, Ideal.mulf_def, Ideal.subf_def, Ideal.hostUnary_tanh_def, Ideal.ofBits_def, Cert.Spec.ofBits_one]
  rfl

/-! ## The second update: input the aggregate, state the first update -/

/-- The input's affine map of the second update at `(n, k)`: the affine layer on the input's row `n`. -/
theorem gi2 (n : Fin 50000) (k : Fin 384) :
    val_main_v104 (F := Ideal) x0 x1 x2 x3 x5 x6 x7 x8 x9 x10 x15 x17 (ix2 n k) = dense (row (R := 50000) (C := 128) (val_main_v64 (F := Ideal) x0 x1 x2 x3 x5 x6 x7 x8 x9 x10) n) x15 x17 k := by
  rw [val_main_v104_apply, val_main_v101_apply, val_main_v103_apply, val_main_v102_apply]
  exact dense_of_reads (val_main_v64 (F := Ideal) x0 x1 x2 x3 x5 x6 x7 x8 x9 x10) x15 x17 n k _ _ _
    (fun q => funext fun a => Fin.ext (by match a with | ⟨0, _⟩ => rfl | ⟨1, _⟩ => rfl))
    (fun q => funext fun a => Fin.ext (by match a with | ⟨0, _⟩ => rfl | ⟨1, _⟩ => rfl))
    (funext fun a => Fin.ext (by match a with | ⟨0, _⟩ => rfl))

/-- The state's affine map of the second update at `(n, k)`: the affine layer on the state's row `n`. -/
theorem gh2 (n : Fin 50000) (k : Fin 384) :
    val_main_v108 (F := Ideal) x0 x1 x2 x3 x5 x6 x7 x8 x9 x10 x11 x12 x13 x14 x16 x18 (ix2 n k) = dense (row (R := 50000) (C := 128) (val_main_v100 (F := Ideal) x0 x1 x2 x3 x5 x6 x7 x8 x9 x10 x11 x12 x13 x14) n) x16 x18 k := by
  rw [val_main_v108_apply, val_main_v105_apply, val_main_v107_apply, val_main_v106_apply]
  exact dense_of_reads (val_main_v100 (F := Ideal) x0 x1 x2 x3 x5 x6 x7 x8 x9 x10 x11 x12 x13 x14) x16 x18 n k _ _ _
    (fun q => funext fun a => Fin.ext (by match a with | ⟨0, _⟩ => rfl | ⟨1, _⟩ => rfl))
    (fun q => funext fun a => Fin.ext (by match a with | ⟨0, _⟩ => rfl | ⟨1, _⟩ => rfl))
    (funext fun a => Fin.ext (by match a with | ⟨0, _⟩ => rfl))

/-- The first block of 128 columns of the input's affine map. -/
theorem gi2_c0 (n : Fin 50000) (j : Fin 128) :
    val_main_v109 (F := Ideal) x0 x1 x2 x3 x5 x6 x7 x8 x9 x10 x15 x17 (ix2 n j) = dense (row (R := 50000) (C := 128) (val_main_v64 (F := Ideal) x0 x1 x2 x3 x5 x6 x7 x8 x9 x10) n) x15 x17 (c0 j) := by
  have e : idx_main_v109 (ix2 n j) = ix2 n (c0 j) :=
    funext fun a => Fin.ext (by match a with | ⟨0, _⟩ => rfl | ⟨1, _⟩ => rfl)
  rw [val_main_v109_apply, e, gi2]

/-- The second block of 128 columns of the input's affine map. -/
theorem gi2_c1 (n : Fin 50000) (j : Fin 128) :
    val_main_v110 (F := Ideal) x0 x1 x2 x3 x5 x6 x7 x8 x9 x10 x15 x17 (ix2 n j) = dense (row (R := 50000) (C := 128) (val_main_v64 (F := Ideal) x0 x1 x2 x3 x5 x6 x7 x8 x9 x10) n) x15 x17 (c1 j) := by
  have e : idx_main_v110 (ix2 n j) = ix2 n (c1 j) :=
    funext fun a => Fin.ext (by match a with | ⟨0, _⟩ => rfl | ⟨1, _⟩ => rfl)
  rw [val_main_v110_apply, e, gi2]

/-- The third block of 128 columns of the input's affine map. -/
theorem gi2_c2 (n : Fin 50000) (j : Fin 128) :
    val_main_v111 (F := Ideal) x0 x1 x2 x3 x5 x6 x7 x8 x9 x10 x15 x17 (ix2 n j) = dense (row (R := 50000) (C := 128) (val_main_v64 (F := Ideal) x0 x1 x2 x3 x5 x6 x7 x8 x9 x10) n) x15 x17 (c2 j) := by
  have e : idx_main_v111 (ix2 n j) = ix2 n (c2 j) :=
    funext fun a => Fin.ext (by match a with | ⟨0, _⟩ => rfl | ⟨1, _⟩ => rfl)
  rw [val_main_v111_apply, e, gi2]

/-- The first block of 128 columns of the state's affine map. -/
theorem gh2_c0 (n : Fin 50000) (j : Fin 128) :
    val_main_v112 (F := Ideal) x0 x1 x2 x3 x5 x6 x7 x8 x9 x10 x11 x12 x13 x14 x16 x18 (ix2 n j) = dense (row (R := 50000) (C := 128) (val_main_v100 (F := Ideal) x0 x1 x2 x3 x5 x6 x7 x8 x9 x10 x11 x12 x13 x14) n) x16 x18 (c0 j) := by
  have e : idx_main_v112 (ix2 n j) = ix2 n (c0 j) :=
    funext fun a => Fin.ext (by match a with | ⟨0, _⟩ => rfl | ⟨1, _⟩ => rfl)
  rw [val_main_v112_apply, e, gh2]

/-- The second block of 128 columns of the state's affine map. -/
theorem gh2_c1 (n : Fin 50000) (j : Fin 128) :
    val_main_v113 (F := Ideal) x0 x1 x2 x3 x5 x6 x7 x8 x9 x10 x11 x12 x13 x14 x16 x18 (ix2 n j) = dense (row (R := 50000) (C := 128) (val_main_v100 (F := Ideal) x0 x1 x2 x3 x5 x6 x7 x8 x9 x10 x11 x12 x13 x14) n) x16 x18 (c1 j) := by
  have e : idx_main_v113 (ix2 n j) = ix2 n (c1 j) :=
    funext fun a => Fin.ext (by match a with | ⟨0, _⟩ => rfl | ⟨1, _⟩ => rfl)
  rw [val_main_v113_apply, e, gh2]

/-- The third block of 128 columns of the state's affine map. -/
theorem gh2_c2 (n : Fin 50000) (j : Fin 128) :
    val_main_v114 (F := Ideal) x0 x1 x2 x3 x5 x6 x7 x8 x9 x10 x11 x12 x13 x14 x16 x18 (ix2 n j) = dense (row (R := 50000) (C := 128) (val_main_v100 (F := Ideal) x0 x1 x2 x3 x5 x6 x7 x8 x9 x10 x11 x12 x13 x14) n) x16 x18 (c2 j) := by
  have e : idx_main_v114 (ix2 n j) = ix2 n (c2 j) :=
    funext fun a => Fin.ext (by match a with | ⟨0, _⟩ => rfl | ⟨1, _⟩ => rfl)
  rw [val_main_v114_apply, e, gh2]

/-- The reset gate: `1 / (1 + e^(-(gi₀ + gh₀)))` is the logistic of `gi₀ + gh₀`. -/
theorem r2 (n : Fin 50000) (j : Fin 128) :
    val_main_v121 (F := Ideal) x0 x1 x2 x3 x5 x6 x7 x8 x9 x10 x11 x12 x13 x14 x15 x16 x17 x18 (ix2 n j) = Ideal.logistic (dense (row (R := 50000) (C := 128) (val_main_v64 (F := Ideal) x0 x1 x2 x3 x5 x6 x7 x8 x9 x10) n) x15 x17 (c0 j) + dense (row (R := 50000) (C := 128) (val_main_v100 (F := Ideal) x0 x1 x2 x3 x5 x6 x7 x8 x9 x10 x11 x12 x13 x14) n) x16 x18 (c0 j)) := by
  rw [val_main_v121_apply, val_main_v120_apply, val_main_cst_14_apply, val_main_v119_apply, val_main_v118_apply,
    val_main_cst_13_apply, val_main_v117_apply, val_main_v116_apply, val_main_v115_apply, gi2_c0, gh2_c0]
  simp only [Ideal.hostDivf_def, Ideal.addf_def, Ideal.hostUnary_exp_def, Ideal.hostNegf_def, Ideal.negf_def,
    Ideal.ofBits_def, Cert.Spec.ofBits_one]
  rfl

/-- The update gate: `1 / (1 + e^(-(gi₁ + gh₁)))` is the logistic of `gi₁ + gh₁`. -/
theorem z2 (n : Fin 50000) (j : Fin 128) :
    val_main_v128 (F := Ideal) x0 x1 x2 x3 x5 x6 x7 x8 x9 x10 x11 x12 x13 x14 x15 x16 x17 x18 (ix2 n j) = Ideal.logistic (dense (row (R := 50000) (C := 128) (val_main_v64 (F := Ideal) x0 x1 x2 x3 x5 x6 x7 x8 x9 x10) n) x15 x17 (c1 j) + dense (row (R := 50000) (C := 128) (val_main_v100 (F := Ideal) x0 x1 x2 x3 x5 x6 x7 x8 x9 x10 x11 x12 x13 x14) n) x16 x18 (c1 j)) := by
  rw [val_main_v128_apply, val_main_v127_apply, val_main_cst_16_apply, val_main_v126_apply, val_main_v125_apply,
    val_main_cst_15_apply, val_main_v124_apply, val_main_v123_apply, val_main_v122_apply, gi2_c1, gh2_c1]
  simp only [Ideal.hostDivf_def, Ideal.addf_def, Ideal.hostUnary_exp_def, Ideal.hostNegf_def, Ideal.negf_def,
    Ideal.ofBits_def, Cert.Spec.ofBits_one]
  rfl

/-- The second update at `(n, j)`: input the aggregate row, state the first update's row. -/
theorem h2_apply (n : Fin 50000) (j : Fin 128) :
    val_main_v136 (F := Ideal) x0 x1 x2 x3 x5 x6 x7 x8 x9 x10 x11 x12 x13 x14 x15 x16 x17 x18 (ix2 n j)
      = gru x15 x16 x17 x18 (row (R := 50000) (C := 128) (val_main_v64 (F := Ideal) x0 x1 x2 x3 x5 x6 x7 x8 x9 x10) n)
          (row (R := 50000) (C := 128) (val_main_v100 (F := Ideal) x0 x1 x2 x3 x5 x6 x7 x8 x9 x10 x11 x12 x13 x14) n) j := by
  rw [val_main_v136_apply, val_main_v134_apply, val_main_v135_apply, val_main_v133_apply, val_main_v132_apply,
    val_main_cst_17_apply, val_main_v131_apply, val_main_v130_apply, val_main_v129_apply, z2, r2, gi2_c2, gh2_c2]
  simp only [Ideal.addf_def, Ideal.mulf_def, Ideal.subf_def, Ideal.hostUnary_tanh_def, Ideal.ofBits_def, Cert.Spec.ofBits_one]
  rfl

/-! ## The third update: input the first update, state the second update -/

/-- The input's affine map of the third update at `(n, k)`: the affine layer on the input's row `n`. -/
theorem gi3 (n : Fin 50000) (k : Fin 384) :
    val_main_v140 (F := Ideal) x0 x1 x2 x3 x5 x6 x7 x8 x9 x10 x11 x12 x13 x14 x19 x21 (ix2 n k) = dense (row (R := 50000) (C := 128) (val_main_v100 (F := Ideal) x0 x1 x2 x3 x5 x6 x7 x8 x9 x10 x11 x12 x13 x14) n) x19 x21 k := by
  rw [val_main_v140_apply, val_main_v137_apply, val_main_v139_apply, val_main_v138_apply]
  exact dense_of_reads (val_main_v100 (F := Ideal) x0 x1 x2 x3 x5 x6 x7 x8 x9 x10 x11 x12 x13 x14) x19 x21 n k _ _ _
    (fun q => funext fun a => Fin.ext (by match a with | ⟨0, _⟩ => rfl | ⟨1, _⟩ => rfl))
    (fun q => funext fun a => Fin.ext (by match a with | ⟨0, _⟩ => rfl | ⟨1, _⟩ => rfl))
    (funext fun a => Fin.ext (by match a with | ⟨0, _⟩ => rfl))

/-- The state's affine map of the third update at `(n, k)`: the affine layer on the state's row `n`. -/
theorem gh3 (n : Fin 50000) (k : Fin 384) :
    val_main_v144 (F := Ideal) x0 x1 x2 x3 x5 x6 x7 x8 x9 x10 x11 x12 x13 x14 x15 x16 x17 x18 x20 x22 (ix2 n k) = dense (row (R := 50000) (C := 128) (val_main_v136 (F := Ideal) x0 x1 x2 x3 x5 x6 x7 x8 x9 x10 x11 x12 x13 x14 x15 x16 x17 x18) n) x20 x22 k := by
  rw [val_main_v144_apply, val_main_v141_apply, val_main_v143_apply, val_main_v142_apply]
  exact dense_of_reads (val_main_v136 (F := Ideal) x0 x1 x2 x3 x5 x6 x7 x8 x9 x10 x11 x12 x13 x14 x15 x16 x17 x18) x20 x22 n k _ _ _
    (fun q => funext fun a => Fin.ext (by match a with | ⟨0, _⟩ => rfl | ⟨1, _⟩ => rfl))
    (fun q => funext fun a => Fin.ext (by match a with | ⟨0, _⟩ => rfl | ⟨1, _⟩ => rfl))
    (funext fun a => Fin.ext (by match a with | ⟨0, _⟩ => rfl))

/-- The first block of 128 columns of the input's affine map. -/
theorem gi3_c0 (n : Fin 50000) (j : Fin 128) :
    val_main_v145 (F := Ideal) x0 x1 x2 x3 x5 x6 x7 x8 x9 x10 x11 x12 x13 x14 x19 x21 (ix2 n j) = dense (row (R := 50000) (C := 128) (val_main_v100 (F := Ideal) x0 x1 x2 x3 x5 x6 x7 x8 x9 x10 x11 x12 x13 x14) n) x19 x21 (c0 j) := by
  have e : idx_main_v145 (ix2 n j) = ix2 n (c0 j) :=
    funext fun a => Fin.ext (by match a with | ⟨0, _⟩ => rfl | ⟨1, _⟩ => rfl)
  rw [val_main_v145_apply, e, gi3]

/-- The second block of 128 columns of the input's affine map. -/
theorem gi3_c1 (n : Fin 50000) (j : Fin 128) :
    val_main_v146 (F := Ideal) x0 x1 x2 x3 x5 x6 x7 x8 x9 x10 x11 x12 x13 x14 x19 x21 (ix2 n j) = dense (row (R := 50000) (C := 128) (val_main_v100 (F := Ideal) x0 x1 x2 x3 x5 x6 x7 x8 x9 x10 x11 x12 x13 x14) n) x19 x21 (c1 j) := by
  have e : idx_main_v146 (ix2 n j) = ix2 n (c1 j) :=
    funext fun a => Fin.ext (by match a with | ⟨0, _⟩ => rfl | ⟨1, _⟩ => rfl)
  rw [val_main_v146_apply, e, gi3]

/-- The third block of 128 columns of the input's affine map. -/
theorem gi3_c2 (n : Fin 50000) (j : Fin 128) :
    val_main_v147 (F := Ideal) x0 x1 x2 x3 x5 x6 x7 x8 x9 x10 x11 x12 x13 x14 x19 x21 (ix2 n j) = dense (row (R := 50000) (C := 128) (val_main_v100 (F := Ideal) x0 x1 x2 x3 x5 x6 x7 x8 x9 x10 x11 x12 x13 x14) n) x19 x21 (c2 j) := by
  have e : idx_main_v147 (ix2 n j) = ix2 n (c2 j) :=
    funext fun a => Fin.ext (by match a with | ⟨0, _⟩ => rfl | ⟨1, _⟩ => rfl)
  rw [val_main_v147_apply, e, gi3]

/-- The first block of 128 columns of the state's affine map. -/
theorem gh3_c0 (n : Fin 50000) (j : Fin 128) :
    val_main_v148 (F := Ideal) x0 x1 x2 x3 x5 x6 x7 x8 x9 x10 x11 x12 x13 x14 x15 x16 x17 x18 x20 x22 (ix2 n j) = dense (row (R := 50000) (C := 128) (val_main_v136 (F := Ideal) x0 x1 x2 x3 x5 x6 x7 x8 x9 x10 x11 x12 x13 x14 x15 x16 x17 x18) n) x20 x22 (c0 j) := by
  have e : idx_main_v148 (ix2 n j) = ix2 n (c0 j) :=
    funext fun a => Fin.ext (by match a with | ⟨0, _⟩ => rfl | ⟨1, _⟩ => rfl)
  rw [val_main_v148_apply, e, gh3]

/-- The second block of 128 columns of the state's affine map. -/
theorem gh3_c1 (n : Fin 50000) (j : Fin 128) :
    val_main_v149 (F := Ideal) x0 x1 x2 x3 x5 x6 x7 x8 x9 x10 x11 x12 x13 x14 x15 x16 x17 x18 x20 x22 (ix2 n j) = dense (row (R := 50000) (C := 128) (val_main_v136 (F := Ideal) x0 x1 x2 x3 x5 x6 x7 x8 x9 x10 x11 x12 x13 x14 x15 x16 x17 x18) n) x20 x22 (c1 j) := by
  have e : idx_main_v149 (ix2 n j) = ix2 n (c1 j) :=
    funext fun a => Fin.ext (by match a with | ⟨0, _⟩ => rfl | ⟨1, _⟩ => rfl)
  rw [val_main_v149_apply, e, gh3]

/-- The third block of 128 columns of the state's affine map. -/
theorem gh3_c2 (n : Fin 50000) (j : Fin 128) :
    val_main_v150 (F := Ideal) x0 x1 x2 x3 x5 x6 x7 x8 x9 x10 x11 x12 x13 x14 x15 x16 x17 x18 x20 x22 (ix2 n j) = dense (row (R := 50000) (C := 128) (val_main_v136 (F := Ideal) x0 x1 x2 x3 x5 x6 x7 x8 x9 x10 x11 x12 x13 x14 x15 x16 x17 x18) n) x20 x22 (c2 j) := by
  have e : idx_main_v150 (ix2 n j) = ix2 n (c2 j) :=
    funext fun a => Fin.ext (by match a with | ⟨0, _⟩ => rfl | ⟨1, _⟩ => rfl)
  rw [val_main_v150_apply, e, gh3]

/-- The reset gate: `1 / (1 + e^(-(gi₀ + gh₀)))` is the logistic of `gi₀ + gh₀`. -/
theorem r3 (n : Fin 50000) (j : Fin 128) :
    val_main_v157 (F := Ideal) x0 x1 x2 x3 x5 x6 x7 x8 x9 x10 x11 x12 x13 x14 x15 x16 x17 x18 x19 x20 x21 x22 (ix2 n j) = Ideal.logistic (dense (row (R := 50000) (C := 128) (val_main_v100 (F := Ideal) x0 x1 x2 x3 x5 x6 x7 x8 x9 x10 x11 x12 x13 x14) n) x19 x21 (c0 j) + dense (row (R := 50000) (C := 128) (val_main_v136 (F := Ideal) x0 x1 x2 x3 x5 x6 x7 x8 x9 x10 x11 x12 x13 x14 x15 x16 x17 x18) n) x20 x22 (c0 j)) := by
  rw [val_main_v157_apply, val_main_v156_apply, val_main_cst_19_apply, val_main_v155_apply, val_main_v154_apply,
    val_main_cst_18_apply, val_main_v153_apply, val_main_v152_apply, val_main_v151_apply, gi3_c0, gh3_c0]
  simp only [Ideal.hostDivf_def, Ideal.addf_def, Ideal.hostUnary_exp_def, Ideal.hostNegf_def, Ideal.negf_def,
    Ideal.ofBits_def, Cert.Spec.ofBits_one]
  rfl

/-- The update gate: `1 / (1 + e^(-(gi₁ + gh₁)))` is the logistic of `gi₁ + gh₁`. -/
theorem z3 (n : Fin 50000) (j : Fin 128) :
    val_main_v164 (F := Ideal) x0 x1 x2 x3 x5 x6 x7 x8 x9 x10 x11 x12 x13 x14 x15 x16 x17 x18 x19 x20 x21 x22 (ix2 n j) = Ideal.logistic (dense (row (R := 50000) (C := 128) (val_main_v100 (F := Ideal) x0 x1 x2 x3 x5 x6 x7 x8 x9 x10 x11 x12 x13 x14) n) x19 x21 (c1 j) + dense (row (R := 50000) (C := 128) (val_main_v136 (F := Ideal) x0 x1 x2 x3 x5 x6 x7 x8 x9 x10 x11 x12 x13 x14 x15 x16 x17 x18) n) x20 x22 (c1 j)) := by
  rw [val_main_v164_apply, val_main_v163_apply, val_main_cst_21_apply, val_main_v162_apply, val_main_v161_apply,
    val_main_cst_20_apply, val_main_v160_apply, val_main_v159_apply, val_main_v158_apply, gi3_c1, gh3_c1]
  simp only [Ideal.hostDivf_def, Ideal.addf_def, Ideal.hostUnary_exp_def, Ideal.hostNegf_def, Ideal.negf_def,
    Ideal.ofBits_def, Cert.Spec.ofBits_one]
  rfl

/-- The third update at `(n, j)`: input the first update's row, state the second update's row. -/
theorem h3_apply (n : Fin 50000) (j : Fin 128) :
    val_main_v172 (F := Ideal) x0 x1 x2 x3 x5 x6 x7 x8 x9 x10 x11 x12 x13 x14 x15 x16 x17 x18 x19 x20 x21 x22 (ix2 n j)
      = gru x19 x20 x21 x22 (row (R := 50000) (C := 128) (val_main_v100 (F := Ideal) x0 x1 x2 x3 x5 x6 x7 x8 x9 x10 x11 x12 x13 x14) n)
          (row (R := 50000) (C := 128) (val_main_v136 (F := Ideal) x0 x1 x2 x3 x5 x6 x7 x8 x9 x10 x11 x12 x13 x14 x15 x16 x17 x18) n) j := by
  rw [val_main_v172_apply, val_main_v170_apply, val_main_v171_apply, val_main_v169_apply, val_main_v168_apply,
    val_main_cst_22_apply, val_main_v167_apply, val_main_v166_apply, val_main_v165_apply, z3, r3, gi3_c2, gh3_c2]
  simp only [Ideal.addf_def, Ideal.mulf_def, Ideal.subf_def, Ideal.hostUnary_tanh_def, Ideal.ofBits_def, Cert.Spec.ofBits_one]
  rfl

end Cert.RefGru

end
-- ==== Proof.RefAgg.lean ====
/-
  The reference's gathers and its aggregate, read at an index. A word in `[0, 50000)` is not negative, so the gather's
  index is the word itself and the gathered row is the node row the word names. Each of the two message stages is added,
  row by row, into 50000 zero rows at the row its index word names, and the two sums are added: the aggregate at node
  `n` is the sum of the forward messages whose target word is `n` plus the sum of the backward messages whose source
  word is `n`.
-/
import proofs.«128451_j72730976190873_1_alg».proof.Proof.RefRead
import proofs.«128451_j72730976190873_1_alg».proof.Proof.Spec
import proofs.«128451_j72730976190873_1_alg».proof.Proof.LibRows
import Idealize.ShloMosaic.PureOps.Ideal.Laws
import Idealize.ShloMosaic.Lib.ValueIdx
import Idealize.ShloMosaic.Lib.ValueLayout
import Idealize.ShloMosaic.Lib.Pipeline.Value
import proofs.«128451_j72730976190873_1_alg».proof.Proof.LibRowScatter

noncomputable section

open scoped BigOperators

namespace Cert.RefAgg

open Cert.ReferenceIdeal Cert.ReferenceIdeal.Gen Cert.ReferenceIdeal.ReadP Idealize.ShloMosaic Idealize.ShloMosaic.ValueIdx Cert.Spec

variable (x0 : (⟨S50000x128, .f32⟩ : BufTy).Contents (Elt Ideal)) (x1 : (⟨S500000x128, .f32⟩ : BufTy).Contents (Elt Ideal))
  (x2 x3 : (⟨S500000, .i32⟩ : BufTy).Contents (Elt Ideal))
  (x5 : (⟨S384x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))

/-! ## Words that name a node -/

/-- A word that is not negative, read signed, is not below zero: the test's bit is zero. -/
theorem slt_zero_of_nonneg (w : BitVec 32) (h : 0 ≤ w.toInt) : IntOp.cmpi .slt w 0#32 = 0#1 := by
  have hf : w.slt 0#32 = false := by
    rw [Bool.eq_false_iff]
    intro hc
    rw [BitVec.slt_iff_toInt_lt] at hc
    have h0 : (0#32 : BitVec 32).toInt = 0 := by decide
    omega
  show BitVec.ofBool (w.slt 0#32) = 0#1
  rw [hf]
  rfl

/-- The index "the word plus the node count if the word is negative, else the word" of a word that is not negative is
    the word itself. -/
theorem wrap_of_nonneg (w a : BitVec 32) (h : 0 ≤ w.toInt) :
    Scalar.select (IntOp.cmpi .slt w 0#32) a w = w := by
  rw [slt_zero_of_nonneg w h, select_zero]

/-! ## The row gather and the row scatter-add of this program, read at an index -/

/-- The gather of node rows by a column of words reads, at edge `e` and column `c`, the node array at column `c` of the
    row the word of `e` names, the word read signed and clamped to the last node. -/
theorem gather_read (col : IVec S500000x1 32) (e : Fin 500000) (c : Fin 128) :
    Host.gather gather_S50000x128_S500000x1_S500000x128_1_0_n_n_0_1_1128 x0 col (ix2 e c)
      = x0 (ix2 ⟨min (col (ix2 e (0 : Fin 1))).toInt.toNat 49999, by omega⟩ c) := by
  have hg : gather_S50000x128_S500000x1_S500000x128_1_0_n_n_0_1_1128
      = Cert.LibRows.rowGather 50000 500000 128 gather_S50000x128_S500000x1_S500000x128_1_0_n_n_0_1_1128_wf := rfl
  rw [hg]
  exact Cert.LibRows.gather_rows_apply (by decide) _ x0 col e c

/-- So the gathered row of edge `e` is the row of the node its word names. -/
theorem gathered_row (col : IVec S500000x1 32) (e : Fin 500000) (w : BitVec 32)
    (hw : col (ix2 e (0 : Fin 1)) = w) :
    row (R := 500000) (C := 128)
      (Host.gather gather_S50000x128_S500000x1_S500000x128_1_0_n_n_0_1_1128 x0 col) e = nodeRow x0 w := by
  subst hw
  funext c
  exact gather_read x0 col e c

/-- Adding update rows into a matrix at the rows a column of words names leaves, at `(n, j)`, the matrix's entry plus the
    sum of the updates' column `j` over the rows whose word, read signed, is `n`. -/
theorem scatter_read (z : (⟨S50000x128, .f32⟩ : BufTy).Contents (Elt Ideal)) (idx : IVec S500000x1 32)
    (upd : (⟨S500000x128, .f32⟩ : BufTy).Contents (Elt Ideal)) (n : Fin 50000) (j : Fin 128) :
    Host.scatterAdd (F := Ideal) (φ := .f32) scatter_S50000x128_S500000x1_S500000x128_1_0_0_1 z idx upd (ix2 n j)
      = z (ix2 n j)
        + ∑ r : Fin 500000, if (idx (ix2 r (0 : Fin 1))).toInt = (n.val : Int) then upd (ix2 r j) else 0 := by
  have hs : scatter_S50000x128_S500000x1_S500000x128_1_0_0_1
      = Cert.LibRowScatter.rowScatter 50000 500000 128 scatter_S50000x128_S500000x1_S500000x128_1_0_0_1_wf := rfl
  unfold Host.scatterAdd
  rw [Ideal.hostScatterAdd_def, hs]
  exact Cert.LibRowScatter.scatterAdd_rows_apply _ z idx upd n j

/-! ## The columns of words -/

/-- A column of words made from a vector reads, at `(e, 0)`, the vector at `e`: the six columns' index maps. -/
theorem col5 (e : Fin 500000) : idx_main_v5 (ix2 e (0 : Fin 1)) = ix1 e :=
  funext fun a => Fin.ext (by match a with | ⟨0, _⟩ => rfl)
theorem col12 (e : Fin 500000) : idx_main_v12 (ix2 e (0 : Fin 1)) = ix1 e :=
  funext fun a => Fin.ext (by match a with | ⟨0, _⟩ => rfl)
theorem col37 (e : Fin 500000) : idx_main_v37 (ix2 e (0 : Fin 1)) = ix1 e :=
  funext fun a => Fin.ext (by match a with | ⟨0, _⟩ => rfl)
theorem col44 (e : Fin 500000) : idx_main_v44 (ix2 e (0 : Fin 1)) = ix1 e :=
  funext fun a => Fin.ext (by match a with | ⟨0, _⟩ => rfl)
theorem col30 (e : Fin 500000) : idx_main_v30 (ix2 e (0 : Fin 1)) = ix1 e :=
  funext fun a => Fin.ext (by match a with | ⟨0, _⟩ => rfl)
theorem col62 (e : Fin 500000) : idx_main_v62 (ix2 e (0 : Fin 1)) = ix1 e :=
  funext fun a => Fin.ext (by match a with | ⟨0, _⟩ => rfl)

/-- The four wrapped index columns at an edge whose word is not negative: the word itself. -/
theorem v5_word (e : Fin 500000) (h0 : 0 ≤ (x2 (ix1 e)).toInt) :
    val_main_v5 (F := Ideal) x2 (ix2 e (0 : Fin 1)) = x2 (ix1 e) := by
  rw [val_main_v5_apply, col5, val_main_v4_apply, val_main_v1_apply, val_main_v0_apply, val_main_c_apply]
  exact wrap_of_nonneg _ _ h0
theorem v12_word (e : Fin 500000) (h0 : 0 ≤ (x3 (ix1 e)).toInt) :
    val_main_v12 (F := Ideal) x3 (ix2 e (0 : Fin 1)) = x3 (ix1 e) := by
  rw [val_main_v12_apply, col12, val_main_v11_apply, val_main_v8_apply, val_main_v7_apply, val_main_c_1_apply]
  exact wrap_of_nonneg _ _ h0
theorem v37_word (e : Fin 500000) (h0 : 0 ≤ (x3 (ix1 e)).toInt) :
    val_main_v37 (F := Ideal) x3 (ix2 e (0 : Fin 1)) = x3 (ix1 e) := by
  rw [val_main_v37_apply, col37, val_main_v36_apply, val_main_v33_apply, val_main_v32_apply, val_main_c_3_apply]
  exact wrap_of_nonneg _ _ h0
theorem v44_word (e : Fin 500000) (h0 : 0 ≤ (x2 (ix1 e)).toInt) :
    val_main_v44 (F := Ideal) x2 (ix2 e (0 : Fin 1)) = x2 (ix1 e) := by
  rw [val_main_v44_apply, col44, val_main_v43_apply, val_main_v40_apply, val_main_v39_apply, val_main_c_5_apply]
  exact wrap_of_nonneg _ _ h0

/-- The four gathered-row stages at an edge whose word names a node. -/
theorem v6_row (e : Fin 500000) (h0 : 0 ≤ (x2 (ix1 e)).toInt) (h1 : (x2 (ix1 e)).toInt < 50000) :
    row (R := 500000) (C := 128) (val_main_v6 (F := Ideal) x0 x2) e = nodeRow x0 (x2 (ix1 e)) :=
  gathered_row x0 (val_main_v5 (F := Ideal) x2) e _ (v5_word x2 e h0)
theorem v13_row (e : Fin 500000) (h0 : 0 ≤ (x3 (ix1 e)).toInt) (h1 : (x3 (ix1 e)).toInt < 50000) :
    row (R := 500000) (C := 128) (val_main_v13 (F := Ideal) x0 x3) e = nodeRow x0 (x3 (ix1 e)) :=
  gathered_row x0 (val_main_v12 (F := Ideal) x3) e _ (v12_word x3 e h0)
theorem v38_row (e : Fin 500000) (h0 : 0 ≤ (x3 (ix1 e)).toInt) (h1 : (x3 (ix1 e)).toInt < 50000) :
    row (R := 500000) (C := 128) (val_main_v38 (F := Ideal) x0 x3) e = nodeRow x0 (x3 (ix1 e)) :=
  gathered_row x0 (val_main_v37 (F := Ideal) x3) e _ (v37_word x3 e h0)
theorem v45_row (e : Fin 500000) (h0 : 0 ≤ (x2 (ix1 e)).toInt) (h1 : (x2 (ix1 e)).toInt < 50000) :
    row (R := 500000) (C := 128) (val_main_v45 (F := Ideal) x0 x2) e = nodeRow x0 (x2 (ix1 e)) :=
  gathered_row x0 (val_main_v44 (F := Ideal) x2) e _ (v44_word x2 e h0)

/-! ## The two sums of messages -/

/-- The forward messages added into zero rows at their target words: at `(n, j)` the sum of column `j` of the messages
    whose target word is `n`. -/
theorem v31_apply (n : Fin 50000) (j : Fin 128) :
    val_main_v31 (F := Ideal) x0 x1 x2 x3 x5 x6 x7 x8 x9 x10 (ix2 n j)
      = segSum (fun e : Fin 500000 => x3 (ix1 e))
          (fun e j => val_main_v28 (F := Ideal) x0 x1 x2 x3 x5 x6 x7 x8 x9 x10 (ix2 e j)) n.val j := by
  have hcol : ∀ r : Fin 500000, val_main_v30 (F := Ideal) x3 (ix2 r (0 : Fin 1)) = x3 (ix1 r) := fun r => by
    rw [val_main_v30_apply, col30]
  unfold val_main_v31
  rw [scatter_read, val_main_v29_apply, val_main_cst_apply, Ideal.ofBits_def, Ideal.ofBits_zero_f32, zero_add]
  simp only [hcol]
  rfl

/-- The backward messages added into zero rows at their source words. -/
theorem v63_apply (n : Fin 50000) (j : Fin 128) :
    val_main_v63 (F := Ideal) x0 x1 x2 x3 x5 x6 x7 x8 x9 x10 (ix2 n j)
      = segSum (fun e : Fin 500000 => x2 (ix1 e))
          (fun e j => val_main_v60 (F := Ideal) x0 x1 x2 x3 x5 x6 x7 x8 x9 x10 (ix2 e j)) n.val j := by
  have hcol : ∀ r : Fin 500000, val_main_v62 (F := Ideal) x2 (ix2 r (0 : Fin 1)) = x2 (ix1 r) := fun r => by
    rw [val_main_v62_apply, col62]
  unfold val_main_v63
  rw [scatter_read, val_main_v61_apply, val_main_cst_7_apply, Ideal.ofBits_def, Ideal.ofBits_zero_f32, zero_add]
  simp only [hcol]
  rfl

/-- THE AGGREGATE stage at `(n, j)`. -/
theorem v64_apply (n : Fin 50000) (j : Fin 128) :
    val_main_v64 (F := Ideal) x0 x1 x2 x3 x5 x6 x7 x8 x9 x10 (ix2 n j)
      = segSum (fun e : Fin 500000 => x3 (ix1 e)) (fun e j => val_main_v28 (F := Ideal) x0 x1 x2 x3 x5 x6 x7 x8 x9 x10 (ix2 e j)) n.val j
        + segSum (fun e : Fin 500000 => x2 (ix1 e)) (fun e j => val_main_v60 (F := Ideal) x0 x1 x2 x3 x5 x6 x7 x8 x9 x10 (ix2 e j)) n.val j := by
  rw [val_main_v64_apply, Ideal.addf_def, v31_apply, v63_apply]

end Cert.RefAgg

end
-- ==== Proof.RefValue.lean ====
/-
  The reference's result as one function of its arguments: its last stage is the third gated update over the first two,
  those are over the aggregate, the aggregate is the two row sums of the message stages, and the message stages are the
  perceptron of the gathered rows, which under the index range are the node rows the words name.
-/
import proofs.«128451_j72730976190873_1_alg».proof.Proof.RefMlp
import proofs.«128451_j72730976190873_1_alg».proof.Proof.RefGru
import proofs.«128451_j72730976190873_1_alg».proof.Proof.RefAgg

noncomputable section

open scoped BigOperators

namespace Cert.RefValue

open Cert.ReferenceIdeal Cert.ReferenceIdeal.Gen Cert.ReferenceIdeal.ReadP Idealize.ShloMosaic Idealize.ShloMosaic.ValueIdx Cert.Spec

variable (x0 : (⟨S50000x128, .f32⟩ : BufTy).Contents (Elt Ideal)) (x1 : (⟨S500000x128, .f32⟩ : BufTy).Contents (Elt Ideal))
  (x2 x3 : (⟨S500000, .i32⟩ : BufTy).Contents (Elt Ideal))
  (x5 : (⟨S384x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))
  (x11 x12 : (⟨S128x384, .f32⟩ : BufTy).Contents (Elt Ideal)) (x13 x14 : (⟨S384, .f32⟩ : BufTy).Contents (Elt Ideal))
  (x15 x16 : (⟨S128x384, .f32⟩ : BufTy).Contents (Elt Ideal)) (x17 x18 : (⟨S384, .f32⟩ : BufTy).Contents (Elt Ideal))
  (x19 x20 : (⟨S128x384, .f32⟩ : BufTy).Contents (Elt Ideal)) (x21 x22 : (⟨S384, .f32⟩ : BufTy).Contents (Elt Ideal))

/-- The aggregate stage's row `n` is the specification's aggregate of node `n`. -/
theorem agg_row
    (hfi : ∀ e : Fin 500000, 0 ≤ (x2 (ix1 e)).toInt ∧ (x2 (ix1 e)).toInt < 50000)
    (hti : ∀ e : Fin 500000, 0 ≤ (x3 (ix1 e)).toInt ∧ (x3 (ix1 e)).toInt < 50000) (n : Fin 50000) :
    row (R := 50000) (C := 128) (val_main_v64 (F := Ideal) x0 x1 x2 x3 x5 x6 x7 x8 x9 x10) n = agg x0 x1 x2 x3 x5 x6 x7 x8 x9 x10 n := by
  funext j
  show val_main_v64 (F := Ideal) x0 x1 x2 x3 x5 x6 x7 x8 x9 x10 (ix2 n j) = _
  have hF : (fun (e : Fin 500000) (j : Fin 128) => val_main_v28 (F := Ideal) x0 x1 x2 x3 x5 x6 x7 x8 x9 x10 (ix2 e j))
      = msgF x0 x1 x2 x3 x5 x6 x7 x8 x9 x10 := by
    funext e j'
    rw [RefMlp.msg_fwd_apply, RefAgg.v6_row x0 x2 e (hfi e).1 (hfi e).2, RefAgg.v13_row x0 x3 e (hti e).1 (hti e).2]
    rfl
  have hR : (fun (e : Fin 500000) (j : Fin 128) => val_main_v60 (F := Ideal) x0 x1 x2 x3 x5 x6 x7 x8 x9 x10 (ix2 e j))
      = msgR x0 x1 x2 x3 x5 x6 x7 x8 x9 x10 := by
    funext e j'
    rw [RefMlp.msg_rev_apply, RefAgg.v38_row x0 x3 e (hti e).1 (hti e).2, RefAgg.v45_row x0 x2 e (hfi e).1 (hfi e).2]
    rfl
  rw [RefAgg.v64_apply, hF, hR]
  rfl

/-- THE RESULT: the reference's last stage is the specification's array of the arguments. -/
theorem ref_eq_G
    (hfi : ∀ e : Fin 500000, 0 ≤ (x2 (ix1 e)).toInt ∧ (x2 (ix1 e)).toInt < 50000)
    (hti : ∀ e : Fin 500000, 0 ≤ (x3 (ix1 e)).toInt ∧ (x3 (ix1 e)).toInt < 50000) :
    val_main_v172 (F := Ideal) x0 x1 x2 x3 x5 x6 x7 x8 x9 x10 x11 x12 x13 x14 x15 x16 x17 x18 x19 x20 x21 x22 = G x0 x1 x2 x3 x5 x6 x7 x8 x9 x10 x11 x12 x13 x14 x15 x16 x17 x18 x19 x20 x21 x22 := by
  funext i
  obtain ⟨n, j, rfl⟩ : ∃ (n : Fin 50000) (j : Fin 128), i = ix2 n j := ⟨i 0, i 1, eq_ix2 i⟩
  rw [G_apply, RefGru.h3_apply]
  unfold out gru3
  have hagg := agg_row x0 x1 x2 x3 x5 x6 x7 x8 x9 x10 hfi hti n
  have h1 : row (R := 50000) (C := 128) (val_main_v100 (F := Ideal) x0 x1 x2 x3 x5 x6 x7 x8 x9 x10 x11 x12 x13 x14) n
      = gru x11 x12 x13 x14 (row (R := 50000) (C := 128) x0 n) (agg x0 x1 x2 x3 x5 x6 x7 x8 x9 x10 n) := by
    funext j'
    show val_main_v100 (F := Ideal) x0 x1 x2 x3 x5 x6 x7 x8 x9 x10 x11 x12 x13 x14 (ix2 n j') = _
    rw [RefGru.h1_apply, hagg]
  have h2 : row (R := 50000) (C := 128) (val_main_v136 (F := Ideal) x0 x1 x2 x3 x5 x6 x7 x8 x9 x10 x11 x12 x13 x14 x15 x16 x17 x18) n
      = gru x15 x16 x17 x18 (agg x0 x1 x2 x3 x5 x6 x7 x8 x9 x10 n)
          (gru x11 x12 x13 x14 (row (R := 50000) (C := 128) x0 n) (agg x0 x1 x2 x3 x5 x6 x7 x8 x9 x10 n)) := by
    funext j'
    show val_main_v136 (F := Ideal) x0 x1 x2 x3 x5 x6 x7 x8 x9 x10 x11 x12 x13 x14 x15 x16 x17 x18 (ix2 n j') = _
    rw [RefGru.h2_apply, hagg, h1]
  rw [h1, h2]

end Cert.RefValue

end
-- ==== Proof.lean ====
/-
  The certificate of a graph propagation layer against its reference, over the extended reals.

  Both programs compute, for every node, three gated recurrent updates of the node's row against its aggregate, the
  aggregate being the sum of a three-layer perceptron's messages over the edges that touch the node, along and against
  each edge. The kernel program pads the edges to a multiple of its block with edges from and to one extra zero node
  and drops that node's aggregate; it computes the messages block by block on 2048 edges and the updates block by block
  on 2000 nodes, rounding to a narrower float format on the way into each matrix product, which is the identity on the
  extended reals. Where every index word names a node, padded edges add to no kept aggregate, a finite sum does not
  depend on the order or grouping of its terms, and the two programs' results are one function of the arguments
  (`Cert.Spec.G`). The two kernel frames are the generated launches, the reference's frame is its run with the result dropped; the
  idealization rewrote nothing.
-/
import proofs.«128451_j72730976190873_1_alg».proof.Defs
import proofs.«128451_j72730976190873_1_alg».proof.Proof.Gen.Kernel
import proofs.«128451_j72730976190873_1_alg».proof.Proof.Gen.Kernel.Skeleton
import proofs.«128451_j72730976190873_1_alg».proof.Proof.Gen.Kernel.Launch
import proofs.«128451_j72730976190873_1_alg».proof.Proof.Gen.Kernel.Points
import proofs.«128451_j72730976190873_1_alg».proof.Proof.Gen.Kernel.Frame
import proofs.«128451_j72730976190873_1_alg».proof.Proof.Gen.KernelIdeal
import proofs.«128451_j72730976190873_1_alg».proof.Proof.Gen.KernelIdeal.Skeleton
import proofs.«128451_j72730976190873_1_alg».proof.Proof.Gen.KernelIdeal.Launch
import proofs.«128451_j72730976190873_1_alg».proof.Proof.Gen.KernelIdeal.Points
import proofs.«128451_j72730976190873_1_alg».proof.Proof.Gen.KernelIdeal.Frame
import proofs.«128451_j72730976190873_1_alg».proof.Proof.Gen.ReferenceIdeal
import proofs.«128451_j72730976190873_1_alg».proof.Proof.Gen.Pre_finite_inputs
import proofs.«128451_j72730976190873_1_alg».proof.Proof.PreRange
import proofs.«128451_j72730976190873_1_alg».proof.Proof.KRun
import proofs.«128451_j72730976190873_1_alg».proof.Proof.KValue
import proofs.«128451_j72730976190873_1_alg».proof.Proof.RefRun
import proofs.«128451_j72730976190873_1_alg».proof.Proof.RefValue
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefRun.run (F := Ideal) m ρ)

/-- The idealization rewrote no operation. -/
theorem preserves : Cert.preserves_Kernel_KernelIdeal := trivial

/-- Under the precondition every index word of the kernel program's memory names a node. -/
theorem range_k (m : (ℓ : Loc Cert.KernelIdeal.nD Cert.KernelIdeal.τ Cert.KernelIdeal.sig) → Buf (Elt Ideal) ℓ)
    (h : Cert.Pre_KernelIdeal m) (c : Dev Cert.KernelIdeal.nD) :
    (∀ e : Fin 500000, 0 ≤ ((m ((c.tc : Thread Cert.KernelIdeal.nD Cert.KernelIdeal.τ).loc Cert.KernelIdeal.main_arg2)) (ix1 e)).toInt ∧ ((m ((c.tc : Thread Cert.KernelIdeal.nD Cert.KernelIdeal.τ).loc Cert.KernelIdeal.main_arg2)) (ix1 e)).toInt < 50000)
      ∧ (∀ e : Fin 500000, 0 ≤ ((m ((c.tc : Thread Cert.KernelIdeal.nD Cert.KernelIdeal.τ).loc Cert.KernelIdeal.main_arg3)) (ix1 e)).toInt ∧ ((m ((c.tc : Thread Cert.KernelIdeal.nD Cert.KernelIdeal.τ).loc Cert.KernelIdeal.main_arg3)) (ix1 e)).toInt < 50000) :=
  Cert.PreRange.range_of_pre (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (h c)

/-- Both programs end at the specification's array of the arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.KValue.result_eq_G m ρ c (range_k m hpre c).1 (range_k m hpre c).2), (h c).2⟩)
      (Cert.KernelIdeal.GenRun.run_named m ρ)
  · refine (θ_run Cert.ReferenceIdeal.defs _ _).mono (fun r h c => ⟨(h c).1.trans ?_, (h c).2⟩)
      (Cert.RefRun.run (F := Ideal) m' ρ')
    obtain ⟨e0, e1, e2, e3, e4, e5, e6, e7, e8, e9, e10, e11, e12, e13, e14, e15, e16, e17, e18, e19, e20, e21, e22⟩ := hagree c
    rw [e0, e1, e2, e3, e5, e6, e7, e8, e9, e10, e11, e12, e13, e14, e15, e16,
      e17, e18, e19, e20, e21, e22]
    exact Cert.RefValue.ref_eq_G _ _ _ _ _ _ _ _ _ _ _ _ _ _ _ _ _ _ _ _ _ _ (range_k m hpre c).1 (range_k m hpre c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
